-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x768 : Shape := ⟨2, ![32, 768]⟩
abbrev S768 : Shape := ⟨1, ![768]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x768 : S_.BroadcastsInDim S32x768 (![] : Fin 0 → Fin S32x768.rank)
  reducesTo_S32x768_S_d0_1 : S32x768.ReducesTo [0, 1] S_
  bcast_S_S768 : S_.BroadcastsInDim S768 (![] : Fin 0 → Fin S768.rank)
  reducesTo_S768_S_d0 : S768.ReducesTo [0] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_v48 : IVec S_ 1) (main_v50 : IVec S2x800000 1) : IVec S_ 1 :=
  let main_c_19 : IVec S_ 32 := constantI S_ 32 50000#32
  let main_v51 : IVec S2x800000 32 := broadcastInDim S2x800000 ![] bcast_S_S2x800000 main_c_19
  let main_v52 : IVec S2x800000 1 := cmpi .slt main_arg1 main_v51
  let main_v53 : IVec S2x800000 1 := andi main_v50 main_v52
  let main_c_20 : IVec S_ 1 := constantI S_ 1 1#1
  let main_v54 : IVec S_ 1 := (fun x v => Host.reduce IntOp.andi x v reducesTo_S2x800000_S_d0_1 h_S_) main_v53 main_c_20
  let main_v55 : IVec S_ 1 := andi main_v48 main_v54
  main_v55

def fn_part2 {F : FTy → Type} [FloatOps F] (main_arg1 : IVec S2x800000 32) (main_arg9 : FVec F S32 .f32) (main_arg10 : FVec F S32x768 .f32) (main_arg11 : FVec F S768 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x768 .f32 := Host.absf main_arg10
  let main_cst_14 : FVec F S_ .f32 := constant S_ .f32 0x7F800000#32
  let main_v40 : FVec F S32x768 .f32 := broadcastInDim S32x768 ![] bcast_S_S32x768 main_cst_14
  let main_v41 : IVec S32x768 1 := cmpf .olt main_v39 main_v40
  let main_c_15 : IVec S_ 1 := constantI S_ 1 1#1
  let main_v42 : IVec S_ 1 := (fun x v => Host.reduce IntOp.andi x v reducesTo_S32x768_S_d0_1 h_S_) main_v41 main_c_15
  let main_v43 : IVec S_ 1 := andi main_v38 main_v42
  let main_v44 : FVec F S768 .f32 := Host.absf main_arg11
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_c_18 : IVec S_ 32 := constantI S_ 32 0#32
  let main_v49 : IVec S2x800000 32 := broadcastInDim S2x800000 ![] bcast_S_S2x800000 main_c_18
  let main_v50 : IVec S2x800000 1 := cmpi .sge main_arg1 main_v49
  fn_part3 (F := F) main_arg1 main_v48 main_v50

def fn_part1 {F : FTy → Type} [FloatOps F] (main_arg1 : IVec S2x800000 32) (main_arg6 : FVec F S128x64 .f32) (main_arg7 : FVec F S64 .f32) (main_arg8 : FVec F S64x32 .f32) (main_arg9 : FVec F S32 .f32) (main_arg10 : FVec F S32x768 .f32) (main_arg11 : FVec F S768 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg1 main_arg9 main_arg10 main_arg11 main_v33

def fn {F : FTy → Type} [FloatOps F] (main_arg0 : FVec F S50000x128 .f32) (main_arg1 : IVec S2x800000 32) (main_arg2 : FVec F S800000 .f32) (main_arg3 : IVec S50000 32) (main_arg4 : FVec F S128x128 .f32) (main_arg5 : FVec F S128 .f32) (main_arg6 : FVec F S128x64 .f32) (main_arg7 : FVec F S64 .f32) (main_arg8 : FVec F S64x32 .f32) (main_arg9 : FVec F S32 .f32) (main_arg10 : FVec F S32x768 .f32) (main_arg11 : FVec F S768 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x768 : Shape := ⟨2, ![32, 768]⟩
abbrev S768 : Shape := ⟨1, ![768]⟩
abbrev S1x800000 : Shape := ⟨2, ![1, 800000]⟩
abbrev S_ : Shape := ⟨0, ![]⟩
abbrev S800000x1 : Shape := ⟨2, ![800000, 1]⟩
abbrev S50000x1 : Shape := ⟨2, ![50000, 1]⟩
abbrev S2000x128 : Shape := ⟨2, ![2000, 128]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S2000x1 : Shape := ⟨2, ![2000, 1]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S50000x32 : Shape := ⟨2, ![50000, 32]⟩
abbrev S2000x32 : Shape := ⟨2, ![2000, 32]⟩
abbrev S800000x32 : Shape := ⟨2, ![800000, 32]⟩
abbrev S1x32 : Shape := ⟨2, ![1, 32]⟩
abbrev S64x1 : Shape := ⟨2, ![64, 1]⟩
abbrev S1x768 : Shape := ⟨2, ![1, 768]⟩
abbrev S64x768 : Shape := ⟨2, ![64, 768]⟩
abbrev S64x48x16 : Shape := ⟨3, ![64, 48, 16]⟩

abbrev nBuf : Space → Nat
  | .hbm => 177
  | .vmem => 46
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S128x128, .f32⟩
  | 5 => ⟨S128, .f32⟩
  | 6 => ⟨S128x64, .f32⟩
  | 7 => ⟨S64, .f32⟩
  | 8 => ⟨S64x32, .f32⟩
  | 9 => ⟨S32, .f32⟩
  | 10 => ⟨S32x768, .f32⟩
  | 11 => ⟨S768, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S_, .f32⟩
  | 18 => ⟨S800000, .f32⟩
  | 19 => ⟨S800000, .f32⟩
  | 20 => ⟨S_, .f32⟩
  | 21 => ⟨S50000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S50000, .f32⟩
  | 31 => ⟨S_, .f32⟩
  | 32 => ⟨S50000, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .f32⟩
  | 56 => ⟨S50000, .f32⟩
  | 57 => ⟨S50000, .f32⟩
  | 58 => ⟨S50000x1, .f32⟩
  | 59 => ⟨S50000x128, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S1, .i32⟩
  | 69 => ⟨S_, .i32⟩
  | 70 => ⟨S800000x1, .i32⟩
  | 71 => ⟨S800000x1, .i1⟩
  | 72 => ⟨S1x1, .i32⟩
  | 73 => ⟨S800000x1, .i32⟩
  | 74 => ⟨S800000x1, .i1⟩
  | 75 => ⟨S800000x1, .i1⟩
  | 76 => ⟨S_, .i1⟩
  | 77 => ⟨S800000, .i1⟩
  | 78 => ⟨S800000x128, .f32⟩
  | 79 => ⟨S800000x128, .i1⟩
  | 80 => ⟨S_, .f32⟩
  | 81 => ⟨S800000x128, .f32⟩
  | 82 => ⟨S800000x128, .f32⟩
  | 83 => ⟨S800000x1, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S1x128, .f32⟩
  | 91 => ⟨S50000x128, .f32⟩
  | 92 => ⟨S50000x64, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S1, .i32⟩
  | 102 => ⟨S_, .i32⟩
  | 103 => ⟨S800000x1, .i32⟩
  | 104 => ⟨S800000x1, .i1⟩
  | 105 => ⟨S1x1, .i32⟩
  | 106 => ⟨S800000x1, .i32⟩
  | 107 => ⟨S800000x1, .i1⟩
  | 108 => ⟨S800000x1, .i1⟩
  | 109 => ⟨S_, .i1⟩
  | 110 => ⟨S800000, .i1⟩
  | 111 => ⟨S800000x64, .f32⟩
  | 112 => ⟨S800000x64, .i1⟩
  | 113 => ⟨S_, .f32⟩
  | 114 => ⟨S800000x64, .f32⟩
  | 115 => ⟨S800000x64, .f32⟩
  | 116 => ⟨S800000x1, .f32⟩
  | 117 => ⟨S800000x64, .f32⟩
  | 118 => ⟨S800000x64, .f32⟩
  | 119 => ⟨S_, .f32⟩
  | 120 => ⟨S50000x64, .f32⟩
  | 121 => ⟨S800000x1, .i32⟩
  | 122 => ⟨S50000x64, .f32⟩
  | 123 => ⟨S1x64, .f32⟩
  | 124 => ⟨S50000x64, .f32⟩
  | 125 => ⟨S50000x32, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S1, .i32⟩
  | 7 => ⟨S_, .i32⟩
  | 8 => ⟨S800000x1, .i32⟩
  | 9 => ⟨S800000x1, .i1⟩
  | 10 => ⟨S1x1, .i32⟩
  | 11 => ⟨S800000x1, .i32⟩
  | 12 => ⟨S800000x1, .i1⟩
  | 13 => ⟨S800000x1, .i1⟩
  | 14 => ⟨S_, .i1⟩
  | 15 => ⟨S800000, .i1⟩
  | 16 => ⟨S800000x32, .f32⟩
  | 17 => ⟨S800000x32, .i1⟩
  | 18 => ⟨S_, .f32⟩
  | 19 => ⟨S800000x32, .f32⟩
  | 20 => ⟨S800000x32, .f32⟩
  | 21 => ⟨S800000x1, .f32⟩
  | 22 => ⟨S800000x32, .f32⟩
  | 23 => ⟨S800000x32, .f32⟩
  | 24 => ⟨S_, .f32⟩
  | 25 => ⟨S50000x32, .f32⟩
  | 26 => ⟨S800000x1, .i32⟩
  | 27 => ⟨S50000x32, .f32⟩
  | 28 => ⟨S1x32, .f32⟩
  | 29 => ⟨S50000x32, .f32⟩
  | 30 => ⟨S_, .f32⟩
  | 31 => ⟨S64x32, .f32⟩
  | 32 => ⟨S50000x1, .i32⟩
  | 33 => ⟨S64x32, .f32⟩
  | 34 => ⟨S_, .f32⟩
  | 35 => ⟨S50000, .f32⟩
  | 36 => ⟨S_, .f32⟩
  | 37 => ⟨S64, .f32⟩
  | 38 => ⟨S50000x1, .i32⟩
  | 39 => ⟨S64, .f32⟩
  | 40 => ⟨S_, .f32⟩
  | 41 => ⟨S64, .f32⟩
  | 42 => ⟨S64, .f32⟩
  | 43 => ⟨S64x1, .f32⟩
  | 44 => ⟨S64x32, .f32⟩
  | 45 => ⟨S64x32, .f32⟩
  | 46 => ⟨S1x768, .f32⟩
  | 47 => ⟨S64x768, .f32⟩
  | 48 => ⟨S64x48x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S64x32, .f32⟩
  | .local _ .vmem, ⟨31, _⟩ => ⟨S2000x32, .f32⟩
  | .local _ .vmem, ⟨32, _⟩ => ⟨S2000x32, .f32⟩
  | .local _ .vmem, ⟨33, _⟩ => ⟨S2000x32, .f32⟩
  | .local _ .vmem, ⟨34, _⟩ => ⟨S2000x32, .f32⟩
  | .local _ .vmem, ⟨35, _⟩ => ⟨S2000x32, .f32⟩
  | .local _ .vmem, ⟨36, _⟩ => ⟨S2000x32, .f32⟩
  | .local _ .vmem, ⟨37, _⟩ => ⟨S2000x1, .f32⟩
  | .local _ .vmem, ⟨38, _⟩ => ⟨S2000x1, .f32⟩
  | .local _ .vmem, ⟨39, _⟩ => ⟨S1x32, .f32⟩
  | .local _ .vmem, ⟨40, _⟩ => ⟨S2000x32, .f32⟩
  | .local _ .vmem, ⟨41, _⟩ => ⟨S2000x32, .f32⟩
  | .local _ .vmem, ⟨42, _⟩ => ⟨S64x32, .f32⟩
  | .local _ .vmem, ⟨43, _⟩ => ⟨S32x768, .f32⟩
  | .local _ .vmem, ⟨44, _⟩ => ⟨S1x768, .f32⟩
  | .local _ .vmem, ⟨45, _⟩ => ⟨S64x768, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call0_c : Ref sig .tc := ⟨.hbm, 60, rfl⟩
abbrev main_call0_v0 : Ref sig .tc := ⟨.hbm, 61, rfl⟩
abbrev main_call0_v1 : Ref sig .tc := ⟨.hbm, 62, rfl⟩
abbrev main_call0_c_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_c_1 : Ref sig .tc := ⟨.hbm, 68, rfl⟩
abbrev main_call0_c_2 : Ref sig .tc := ⟨.hbm, 69, rfl⟩
abbrev main_call0_v6 : Ref sig .tc := ⟨.hbm, 70, rfl⟩
abbrev main_call0_v7 : Ref sig .tc := ⟨.hbm, 71, rfl⟩
abbrev main_call0_v8 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c_3 : Ref sig .tc := ⟨.hbm, 76, rfl⟩
abbrev main_call0_v12 : Ref sig .tc := ⟨.hbm, 77, rfl⟩
abbrev main_call0_v13 : Ref sig .tc := ⟨.hbm, 78, rfl⟩
abbrev main_call0_v14 : Ref sig .tc := ⟨.hbm, 79, rfl⟩
abbrev main_call0_cst : Ref sig .tc := ⟨.hbm, 80, rfl⟩
abbrev main_call0_v15 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_8 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_call1_c : Ref sig .tc := ⟨.hbm, 93, rfl⟩
abbrev main_call1_v0 : Ref sig .tc := ⟨.hbm, 94, rfl⟩
abbrev main_call1_v1 : Ref sig .tc := ⟨.hbm, 95, rfl⟩
abbrev main_call1_c_0 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_c_1 : Ref sig .tc := ⟨.hbm, 101, rfl⟩
abbrev main_call1_c_2 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_c_3 : Ref sig .tc := ⟨.hbm, 109, rfl⟩
abbrev main_call1_v12 : Ref sig .tc := ⟨.hbm, 110, rfl⟩
abbrev main_call1_v13 : Ref sig .tc := ⟨.hbm, 111, rfl⟩
abbrev main_call1_v14 : Ref sig .tc := ⟨.hbm, 112, rfl⟩
abbrev main_call1_cst : Ref sig .tc := ⟨.hbm, 113, rfl⟩
abbrev main_call1_v15 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_cst_9 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_call2_c : Ref sig .tc := ⟨.hbm, 126, rfl⟩
abbrev main_call2_v0 : Ref sig .tc := ⟨.hbm, 127, rfl⟩
abbrev main_call2_v1 : Ref sig .tc := ⟨.hbm, 128, rfl⟩
abbrev main_call2_c_0 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_v5 : Ref sig .tc := ⟨.hbm, 133, rfl⟩
abbrev main_call2_c_1 : Ref sig .tc := ⟨.hbm, 134, rfl⟩
abbrev main_call2_c_2 : Ref sig .tc := ⟨.hbm, 135, rfl⟩
abbrev main_call2_v6 : Ref sig .tc := ⟨.hbm, 136, rfl⟩
abbrev main_call2_v7 : Ref sig .tc := ⟨.hbm, 137, rfl⟩
abbrev main_call2_v8 : Ref sig .tc := ⟨.hbm, 138, rfl⟩
abbrev main_call2_v9 : Ref sig .tc := ⟨.hbm, 139, rfl⟩
abbrev main_call2_v10 : Ref sig .tc := ⟨.hbm, 140, rfl⟩
abbrev main_call2_v11 : Ref sig .tc := ⟨.hbm, 141, rfl⟩
abbrev main_call2_c_3 : Ref sig .tc := ⟨.hbm, 142, rfl⟩
abbrev main_call2_v12 : Ref sig .tc := ⟨.hbm, 143, rfl⟩
abbrev main_call2_v13 : Ref sig .tc := ⟨.hbm, 144, rfl⟩
abbrev main_call2_v14 : Ref sig .tc := ⟨.hbm, 145, rfl⟩
abbrev main_call2_cst : Ref sig .tc := ⟨.hbm, 146, rfl⟩
abbrev main_call2_v15 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_cst_10 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_cst_11 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_cst_12 : Ref sig .tc := ⟨.hbm, 162, rfl⟩
abbrev main_v70 : Ref sig .tc := ⟨.hbm, 163, rfl⟩
abbrev main_cst_13 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_cst_14 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem1_0 : DmaSem sig := 43
abbrev cc6_sem2_0 : DmaSem sig := 44
abbrev cc6_sem3_0 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x32 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S32x768 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x768 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x768 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S800000_S_d0 : S800000.ReducesTo [0] S_
  h_S_ : 0 < S_.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  bcast_S800000_S800000x32_0 : S800000.BroadcastsInDim S800000x32 (![0] : Fin 1 → Fin S800000x32.rank)
  bcast_S_S800000x32 : S_.BroadcastsInDim S800000x32 (![] : Fin 0 → Fin S800000x32.rank)
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  shapeCasts_S32_S1x32 : S32.ShapeCasts S1x32
  shapeCasts_S2000x32_S2000x32 : S2000x32.ShapeCasts S2000x32
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  bcast_S_S64x32 : S_.BroadcastsInDim S64x32 (![] : Fin 0 → Fin S64x32.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  shapeCasts_S768_S1x768 : S768.ShapeCasts S1x768
  shapeCasts_S64x32_S64x32 : S64x32.ShapeCasts S64x32
  inb_S32x768_S32x768_0_0 : ∀ a, (![0, 0] : Fin 2 → Nat) a + S32x768.size a ≤ S32x768.size a
  h_S32x768 : 0 < S32x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S64x768 : S1x768.Broadcasts S64x768
  inb_S64x768_S64x768_0_0 : ∀ a, (![0, 0] : Fin 2 → Nat) a + S64x768.size a ≤ S64x768.size a
  h_S64x768 : 0 < S64x768.numel
  shapeCasts_S64x768_S64x48x16 : S64x768.ShapeCasts S64x48x16
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x32_S2000x32_1_0_0_1_n_n_wf : DotDims.WF S2000x64 S64x32 S2000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  scatter_S64x32_S50000x1_S50000x32_1_0_0_1_wf : ScatterDims.WF S64x32 S50000x1 S50000x32 [1] [0] [0] 1
  scatter_S64_S50000x1_S50000_n_0_0_1_wf : ScatterDims.WF S64 S50000x1 S50000 [] [0] [0] 1
  dot_S64x32_S32x768_S64x768_1_0_0_1_n_n_wf : DotDims.WF S64x32 S32x768 S64x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x32.size a ≤ S50000x32.size a
  hwx4_2 : ∀ i : grid4.Coords, EltTy.bits .f32 = 32 ∨ (Rect.block (s := S50000x32) S2000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S50000x32.size a
  hwx5_0 : ∀ i : grid5.Coords, EltTy.bits .f32 = 32 ∨ (Rect.block (s := S50000x32) S2000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x32.size a ≤ S50000x32.size a
  hwx5_1 : ∀ i : grid5.Coords, EltTy.bits .f32 = 32 ∨ (Rect.block (s := S50000x32) S2000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x32.size a ≤ S50000x32.size a
  hwx5_4 : ∀ i : grid5.Coords, EltTy.bits .f32 = 32 ∨ (Rect.block (s := S50000x32) S2000x32.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x32.size a ≤ S64x32.size a
  hwx6_0 : ∀ i : grid6.Coords, EltTy.bits .f32 = 32 ∨ (Rect.block (s := S64x32) S64x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x768.size a ≤ S32x768.size a
  hwx6_1 : ∀ i : grid6.Coords, EltTy.bits .f32 = 32 ∨ (Rect.block (s := S32x768) S32x768.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x768.size a ≤ S1x768.size a
  hwx6_2 : ∀ i : grid6.Coords, EltTy.bits .f32 = 32 ∨ (Rect.block (s := S1x768) S1x768.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x768.size a ≤ S64x768.size a
  hwx6_3 : ∀ i : grid6.Coords, EltTy.bits .f32 = 32 ∨ (Rect.block (s := S64x768) S64x768.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def scatter_S64x32_S50000x1_S50000x32_1_0_0_1 : ScatterDims S64x32 S50000x1 S50000x32 where
  updateWindowDims := [1]
  insertedWindowDims := [0]
  scatterDimsToOperandDims := [0]
  indexVectorDim := 1
  wf := scatter_S64x32_S50000x1_S50000x32_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x32_S32x768_S64x768_1_0_0_1_n_n : DotDims S64x32 S32x768 S64x768 where
  lhsContracting := [1]
  rhsContracting := [0]
  lhsNonContracting := [0]
  rhsNonContracting := [1]
  lhsBatch := []
  rhsBatch := []
  wf := dot_S64x32_S32x768_S64x768_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v56) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S2000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v64) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S2000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v36) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v65) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v66) S2000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v78) S64x32.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S32x768.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S1x768.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v80) S64x768.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x768 : Shape := ⟨2, ![32, 768]⟩
abbrev S768 : Shape := ⟨1, ![768]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S50000x32 : Shape := ⟨2, ![50000, 32]⟩
abbrev S800000x32 : Shape := ⟨2, ![800000, 32]⟩
abbrev S1x32 : Shape := ⟨2, ![1, 32]⟩
abbrev S64x1 : Shape := ⟨2, ![64, 1]⟩
abbrev S64x768 : Shape := ⟨2, ![64, 768]⟩
abbrev S1x768 : Shape := ⟨2, ![1, 768]⟩
abbrev S64x48x16 : Shape := ⟨3, ![64, 48, 16]⟩

abbrev nBuf : Space → Nat
  | .hbm => 257
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S128x128, .f32⟩
  | 5 => ⟨S128, .f32⟩
  | 6 => ⟨S128x64, .f32⟩
  | 7 => ⟨S64, .f32⟩
  | 8 => ⟨S64x32, .f32⟩
  | 9 => ⟨S32, .f32⟩
  | 10 => ⟨S32x768, .f32⟩
  | 11 => ⟨S768, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S_, .f32⟩
  | 18 => ⟨S800000, .f32⟩
  | 19 => ⟨S800000, .f32⟩
  | 20 => ⟨S50000x128, .f32⟩
  | 21 => ⟨S_, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S_, .f32⟩
  | 57 => ⟨S50000x128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S800000x1, .f32⟩
  | 68 => ⟨S800000x128, .f32⟩
  | 69 => ⟨S800000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S50000x128, .f32⟩
  | 79 => ⟨S_, .f32⟩
  | 80 => ⟨S50000, .f32⟩
  | 81 => ⟨S50000, .f32⟩
  | 82 => ⟨S50000x1, .f32⟩
  | 83 => ⟨S50000x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x64, .f32⟩
  | 93 => ⟨S_, .f32⟩
  | 94 => ⟨S50000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S50000, .f32⟩
  | 104 => ⟨S_, .f32⟩
  | 105 => ⟨S50000, .f32⟩
  | 106 => ⟨S50000, .f32⟩
  | 107 => ⟨S50000, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000, .f32⟩
  | 117 => ⟨S800000, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000, .f32⟩
  | 127 => ⟨S800000, .f32⟩
  | _ => ⟨S50000x128, .f32⟩

abbrev hbmTy0_1 (i : Nat) : BufTy := match i % 128 with
  | 0 => ⟨S_, .f32⟩
  | 1 => ⟨S50000x64, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x64, .f32⟩
  | 11 => ⟨S800000x1, .f32⟩
  | 12 => ⟨S800000x64, .f32⟩
  | 13 => ⟨S800000x64, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S50000x64, .f32⟩
  | 23 => ⟨S_, .f32⟩
  | 24 => ⟨S50000, .f32⟩
  | 25 => ⟨S50000, .f32⟩
  | 26 => ⟨S50000x1, .f32⟩
  | 27 => ⟨S50000x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S50000x64, .f32⟩
  | 35 => ⟨S50000x64, .f32⟩
  | 36 => ⟨S50000x32, .f32⟩
  | 37 => ⟨S_, .f32⟩
  | 38 => ⟨S50000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S50000, .f32⟩
  | 48 => ⟨S_, .f32⟩
  | 49 => ⟨S50000, .f32⟩
  | 50 => ⟨S50000, .f32⟩
  | 51 => ⟨S50000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S800000, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000, .f32⟩
  | 71 => ⟨S800000, .f32⟩
  | 72 => ⟨S_, .f32⟩
  | 73 => ⟨S50000x32, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x32, .f32⟩
  | 83 => ⟨S800000x1, .f32⟩
  | 84 => ⟨S800000x32, .f32⟩
  | 85 => ⟨S800000x32, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S50000x32, .f32⟩
  | 95 => ⟨S_, .f32⟩
  | 96 => ⟨S50000, .f32⟩
  | 97 => ⟨S50000, .f32⟩
  | 98 => ⟨S50000x1, .f32⟩
  | 99 => ⟨S50000x32, .f32⟩
  | 100 => ⟨S50000x32, .f32⟩
  | 101 => ⟨S50000x32, .f32⟩
  | 102 => ⟨S1x32, .f32⟩
  | 103 => ⟨S50000x32, .f32⟩
  | 104 => ⟨S50000x32, .f32⟩
  | 105 => ⟨S_, .f32⟩
  | 106 => ⟨S50000x32, .f32⟩
  | 107 => ⟨S50000x32, .f32⟩
  | 108 => ⟨S_, .f32⟩
  | 109 => ⟨S64x32, .f32⟩
  | 110 => ⟨S50000x1, .i32⟩
  | 111 => ⟨S64x32, .f32⟩
  | 112 => ⟨S_, .f32⟩
  | 113 => ⟨S50000, .f32⟩
  | 114 => ⟨S_, .f32⟩
  | 115 => ⟨S64, .f32⟩
  | 116 => ⟨S50000x1, .i32⟩
  | 117 => ⟨S64, .f32⟩
  | 118 => ⟨S_, .f32⟩
  | 119 => ⟨S64, .f32⟩
  | 120 => ⟨S64, .f32⟩
  | 121 => ⟨S64x1, .f32⟩
  | 122 => ⟨S64x32, .f32⟩
  | 123 => ⟨S64x32, .f32⟩
  | 124 => ⟨S64x768, .f32⟩
  | 125 => ⟨S1x768, .f32⟩
  | 126 => ⟨S64x768, .f32⟩
  | 127 => ⟨S64x768, .f32⟩
  | _ => ⟨S50000x128, .f32⟩

abbrev hbmTy0_2 (i : Nat) : BufTy := match i % 128 with
  | 0 => ⟨S64x48x16, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call0_cst : Ref sig .tc := ⟨.hbm, 89, rfl⟩
abbrev main_call0_v0 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_19 : Ref sig .tc := ⟨.hbm, 118, rfl⟩
abbrev main_v83 : Ref sig .tc := ⟨.hbm, 119, rfl⟩
abbrev main_v84 : Ref sig .tc := ⟨.hbm, 120, rfl⟩
abbrev main_c_20 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_21 : Ref sig .tc := ⟨.hbm, 128, rfl⟩
abbrev main_v91 : Ref sig .tc := ⟨.hbm, 129, rfl⟩
abbrev main_c_22 : Ref sig .tc := ⟨.hbm, 130, rfl⟩
abbrev main_v92 : Ref sig .tc := ⟨.hbm, 131, rfl⟩
abbrev main_v93 : Ref sig .tc := ⟨.hbm, 132, rfl⟩
abbrev main_c_23 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c_24 : Ref sig .tc := ⟨.hbm, 142, rfl⟩
abbrev main_v102 : Ref sig .tc := ⟨.hbm, 143, rfl⟩
abbrev main_v103 : Ref sig .tc := ⟨.hbm, 144, rfl⟩
abbrev main_c_25 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_26 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_call1_cst : Ref sig .tc := ⟨.hbm, 161, rfl⟩
abbrev main_call1_v0 : Ref sig .tc := ⟨.hbm, 162, rfl⟩
abbrev main_v118 : Ref sig .tc := ⟨.hbm, 163, rfl⟩
abbrev main_v119 : Ref sig .tc := ⟨.hbm, 164, rfl⟩
abbrev main_cst_27 : Ref sig .tc := ⟨.hbm, 165, rfl⟩
abbrev main_v120 : Ref sig .tc := ⟨.hbm, 166, rfl⟩
abbrev main_c_28 : Ref sig .tc := ⟨.hbm, 167, rfl⟩
abbrev main_v121 : Ref sig .tc := ⟨.hbm, 168, rfl⟩
abbrev main_v122 : Ref sig .tc := ⟨.hbm, 169, rfl⟩
abbrev main_c_29 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_30 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_c_31 : Ref sig .tc := ⟨.hbm, 180, rfl⟩
abbrev main_v131 : Ref sig .tc := ⟨.hbm, 181, rfl⟩
abbrev main_v132 : Ref sig .tc := ⟨.hbm, 182, rfl⟩
abbrev main_c_32 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_c_33 : Ref sig .tc := ⟨.hbm, 190, rfl⟩
abbrev main_v139 : Ref sig .tc := ⟨.hbm, 191, rfl⟩
abbrev main_v140 : Ref sig .tc := ⟨.hbm, 192, rfl⟩
abbrev main_c_34 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_35 : Ref sig .tc := ⟨.hbm, 200, rfl⟩
abbrev main_v147 : Ref sig .tc := ⟨.hbm, 201, rfl⟩
abbrev main_c_36 : Ref sig .tc := ⟨.hbm, 202, rfl⟩
abbrev main_v148 : Ref sig .tc := ⟨.hbm, 203, rfl⟩
abbrev main_v149 : Ref sig .tc := ⟨.hbm, 204, rfl⟩
abbrev main_c_37 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_c_38 : Ref sig .tc := ⟨.hbm, 214, rfl⟩
abbrev main_v158 : Ref sig .tc := ⟨.hbm, 215, rfl⟩
abbrev main_v159 : Ref sig .tc := ⟨.hbm, 216, rfl⟩
abbrev main_c_39 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_cst_40 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_call2_cst : Ref sig .tc := ⟨.hbm, 233, rfl⟩
abbrev main_call2_v0 : Ref sig .tc := ⟨.hbm, 234, rfl⟩
abbrev main_v174 : Ref sig .tc := ⟨.hbm, 235, rfl⟩
abbrev main_cst_41 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_cst_42 : Ref sig .tc := ⟨.hbm, 240, rfl⟩
abbrev main_v178 : Ref sig .tc := ⟨.hbm, 241, rfl⟩
abbrev main_cst_43 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_cst_44 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S800000_S_d0 : S800000.ReducesTo [0] S_
  h_S_ : 0 < S_.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S800000x1_S800000x64_0_1 : S800000x1.BroadcastsInDim S800000x64 (![0, 1] : Fin 2 → Fin S800000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x32 : S_.BroadcastsInDim S50000x32 (![] : Fin 0 → Fin S50000x32.rank)
  bcast_S800000x1_S800000x32_0_1 : S800000x1.BroadcastsInDim S800000x32 (![0, 1] : Fin 2 → Fin S800000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S64x32 : S_.BroadcastsInDim S64x32 (![] : Fin 0 → Fin S64x32.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S768_S1x768_1 : S768.BroadcastsInDim S1x768 (![1] : Fin 1 → Fin S1x768.rank)
  bcast_S1x768_S64x768_0_1 : S1x768.BroadcastsInDim S64x768 (![0, 1] : Fin 2 → Fin S64x768.rank)
  shapeCasts_S64x768_S64x48x16 : S64x768.ShapeCasts S64x48x16
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x32_S50000x32_1_0_0_1_n_n_wf : DotDims.WF S50000x64 S64x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  scatter_S64x32_S50000x1_S50000x32_1_0_0_1_wf : ScatterDims.WF S64x32 S50000x1 S50000x32 [1] [0] [0] 1
  scatter_S64_S50000x1_S50000_n_0_0_1_wf : ScatterDims.WF S64 S50000x1 S50000 [] [0] [0] 1
  dot_S64x32_S32x768_S64x768_1_0_0_1_n_n_wf : DotDims.WF S64x32 S32x768 S64x768 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def scatter_S64x32_S50000x1_S50000x32_1_0_0_1 : ScatterDims S64x32 S50000x1 S50000x32 where
  updateWindowDims := [1]
  insertedWindowDims := [0]
  scatterDimsToOperandDims := [0]
  indexVectorDim := 1
  wf := scatter_S64x32_S50000x1_S50000x32_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x32_S32x768_S64x768_1_0_0_1_n_n : DotDims S64x32 S32x768 S64x768 where
  lhsContracting := [1]
  rhsContracting := [0]
  lhsNonContracting := [0]
  rhsNonContracting := [1]
  lhsBatch := []
  rhsBatch := []
  wf := dot_S64x32_S32x768_S64x768_1_0_0_1_n_n_wf

class Facts : Prop extends Facts₀ where

variable [Facts]
-- ==== Proof.IdxFacts.lean ====
/-
  The edge-index vectors of the graph convolution, as integer vectors and nothing else. Both rows of the
  edge-index array hold node numbers, and the claim is made where every entry lies in [0, 50000). On such
  a vector the index bookkeeping around each lookup is the identity: wrapping a negative index (adding
  50000 where the entry is below zero) changes nothing, and the bounds mask of the lookup (entry ≥ 0 and
  entry ≤ 49999, conjoined along an axis of extent one) is one everywhere, so the select that would fill
  an out-of-range row with a default value returns the looked-up row. The last section reads the range of
  the two rows off the precondition, whose final conjunct is exactly that every entry of the edge-index
  array is ≥ 0 and < 50000.
-/
import proofs.«403191_j78168404787866_1_alg».proof.Defs
import Idealize.ShloMosaic.Lib.ReduceAll
import Idealize.ShloMosaic.Lib.ValueIdx

noncomputable section

namespace Cert.KernelIdeal.IdxFacts

open Cert.KernelIdeal Idealize.ShloMosaic
open Idealize.ShloMosaic.ValueIdx

variable [Cert.KernelIdeal.Facts]
open Cert.KernelIdeal.Facts₀ Cert.KernelIdeal.Facts

/-- Every entry of an index vector, read as a signed integer, is a node number: at least 0 and below 50000. -/
def InRange (x : IVec S800000 32) : Prop := ∀ p : S800000.Idx, 0 ≤ (x p).toInt ∧ (x p).toInt < 50000

/-! ## The three constants, read signed -/

theorem toInt_0 : (0#32 : BitVec 32).toInt = 0 := by decide
theorem toInt_50000 : (50000#32 : BitVec 32).toInt = 50000 := by decide
theorem toInt_49999 : (49999#32 : BitVec 32).toInt = 49999 := by decide

/-! ## Wrapping a negative index is the identity on node numbers -/

/-- Where no entry is negative the comparison with zero is false at every position, so the select keeps the
    entry itself and the sum with 50000 is never taken. -/
theorem wrap_eq (x : IVec S800000 32) (hx : InRange x) :
    select (cmpi .slt x (broadcastInDim S800000 ![] bcast_S_S800000 (constantI S_ 32 0#32)))
      (addi x (broadcastInDim S800000 ![] bcast_S_S800000 (constantI S_ 32 50000#32))) x = x := by
  funext p
  rw [select_apply]
  have hc : ¬ (cmpi .slt x (broadcastInDim S800000 ![] bcast_S_S800000 (constantI S_ 32 0#32)) p = 1#1) := by
    show ¬ (IntOp.cmpi .slt (x p) 0#32 = 1#1)
    rw [IntOp.cmpi_slt, toInt_0]
    exact not_lt.2 (hx p).1
  exact if_neg hc

/-! ## A node number read unsigned -/

/-- A 32-bit word that is nonnegative read signed has the same value read unsigned. -/
theorem toInt_eq_toNat_of_nonneg (a : BitVec 32) (h : 0 ≤ a.toInt) : a.toInt = a.toNat := by
  have hc := BitVec.toInt_eq_toNat_cond a
  by_cases h2 : 2 * a.toNat < 2 ^ 32
  · rw [if_pos h2] at hc; exact hc
  · rw [if_neg h2] at hc
    have := a.isLt
    omega

/-- An entry of a vector of node numbers reads the same signed and unsigned … -/
theorem InRange.toInt_eq_toNat {x : IVec S800000 32} (hx : InRange x) (p : S800000.Idx) : (x p).toInt = (x p).toNat :=
  toInt_eq_toNat_of_nonneg _ (hx p).1

/-- … and, unsigned, is below 50000. -/
theorem InRange.toNat_lt {x : IVec S800000 32} (hx : InRange x) (p : S800000.Idx) : (x p).toNat < 50000 := by
  have h1 := hx.toInt_eq_toNat p
  have h2 := (hx p).2
  omega

/-! ## The bounds mask of a lookup is one at every edge -/

/-- A left fold by `and` that starts at 1 and meets only 1s ends at 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a (List.mem_cons_self ..)]; rfl
    rw [List.foldl_cons, ha]
    exact foldl_andi_ones f l fun n hn => h n (List.mem_cons_of_mem _ hn)

/-- A node number passes both bounds tests: it is at least 0 and at most 49999. -/
theorem bounds_word (a : BitVec 32) (h : 0 ≤ a.toInt ∧ a.toInt < 50000) :
    IntOp.andi (IntOp.cmpi .sge a 0#32) (IntOp.cmpi .sle a 49999#32) = 1#1 := by
  rw [IntOp.andi_eq_one, IntOp.cmpi_sge, IntOp.cmpi_sle, toInt_0, toInt_49999]
  omega

/-- The mask the lookup computes: the index vector as a column, each entry tested against 0 and against 49999,
    the two tests conjoined and then reduced by `and` along the column's axis of extent one. On node numbers both
    tests pass at every entry, so whichever entries a result position folds over, the fold meets only ones. -/
theorem mask_eq (x : IVec S800000 32) (hx : InRange x) :
    (Host.reduce IntOp.andi
        (andi
          (cmpi .sge (broadcastInDim S800000x1 ![0] bcast_S800000_S800000x1_0 x)
            (broadcastInDim S800000x1 ![] bcast_S_S800000x1 (constantI S_ 32 0#32)))
          (cmpi .sle (broadcastInDim S800000x1 ![0] bcast_S800000_S800000x1_0 x)
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_ : IVec S800000 1) = fun _ => 1#1 := by
  funext j
  rw [Host.reduce_eq_foldl]
  refine foldl_andi_ones _ _ fun i _ => ?_
  exact bounds_word _ (hx _)

/-! ## A select on a mask of ones is its first operand -/

/-- A mask that is one at every edge, laid along the rows of an edge-by-feature array, selects the first
    operand at every entry (128 features). -/
theorem select_ones_128 {α : Type} (g n : S800000x128.Idx → α) :
    select (broadcastInDim S800000x128 ![0] bcast_S800000_S800000x128_0 (fun _ : S800000.Idx => (1#1 : BitVec 1))) g n = g := by
  funext i
  rw [select_apply]
  exact select_one (g i) (n i)

/-- The same at 64 features. -/
theorem select_ones_64 {α : Type} (g n : S800000x64.Idx → α) :
    select (broadcastInDim S800000x64 ![0] bcast_S800000_S800000x64_0 (fun _ : S800000.Idx => (1#1 : BitVec 1))) g n = g := by
  funext i
  rw [select_apply]
  exact select_one (g i) (n i)

/-- The same at 32 features. -/
theorem select_ones_32 {α : Type} (g n : S800000x32.Idx → α) :
    select (broadcastInDim S800000x32 ![0] bcast_S800000_S800000x32_0 (fun _ : S800000.Idx => (1#1 : BitVec 1))) g n = g := by
  funext i
  rw [select_apply]
  exact select_one (g i) (n i)

/-! ## The two rows of the edge-index array hold node numbers, by the precondition -/

/-- The source row of the edge-index array as a vector: row 0 sliced out and its unit axis dropped. -/
abbrev src (e : IVec S2x800000 32) : IVec S800000 32 :=
  shapeCast S800000 (extractStridedSlice S1x800000 ![0, 0] e slices_S2x800000_S1x800000_0_0) shapeCasts_S1x800000_S800000

/-- The destination row: row 1 sliced out and its unit axis dropped. -/
abbrev dst (e : IVec S2x800000 32) : IVec S800000 32 :=
  shapeCast S800000 (extractStridedSlice S1x800000 ![1, 0] e slices_S2x800000_S1x800000_1_0) shapeCasts_S1x800000_S800000

/-- The scalar shape has one index. -/
local instance subsingleton_scalar : Subsingleton Cert.Pre_finite_inputs.S_.Idx := ⟨fun a b => funext fun d => d.elim0⟩

/-- The precondition's last conjunct, read back: the predicate ends in the conjunction of what came before with
    "every entry of the edge-index array is ≥ 0 and < 50000", the latter an `and`-reduction over both axes of the
    two elementwise tests conjoined. If the predicate is one, that reduction is one, so the conjoined tests are one
    at every entry, and each test says what it says of the entry read signed. -/
theorem entry_of_pre [Cert.Pre_finite_inputs.Facts] {F : FTy → Type} [FloatOps F]
    (a0 : FVec F Cert.Pre_finite_inputs.S50000x128 .f32) (a1 : IVec Cert.Pre_finite_inputs.S2x800000 32)
    (a2 : FVec F Cert.Pre_finite_inputs.S800000 .f32) (a3 : IVec Cert.Pre_finite_inputs.S50000 32)
    (a4 : FVec F Cert.Pre_finite_inputs.S128x128 .f32) (a5 : FVec F Cert.Pre_finite_inputs.S128 .f32)
    (a6 : FVec F Cert.Pre_finite_inputs.S128x64 .f32) (a7 : FVec F Cert.Pre_finite_inputs.S64 .f32)
    (a8 : FVec F Cert.Pre_finite_inputs.S64x32 .f32) (a9 : FVec F Cert.Pre_finite_inputs.S32 .f32)
    (a10 : FVec F Cert.Pre_finite_inputs.S32x768 .f32) (a11 : FVec F Cert.Pre_finite_inputs.S768 .f32)
    (h : Cert.Pre_finite_inputs.fn (F := F) a0 a1 a2 a3 a4 a5 a6 a7 a8 a9 a10 a11 = fun _ => 1#1)
    (i : Cert.Pre_finite_inputs.S2x800000.Idx) : 0 ≤ (a1 i).toInt ∧ (a1 i).toInt < 50000 := by
  have h0 := congrFun h ix0
  unfold Cert.Pre_finite_inputs.fn Cert.Pre_finite_inputs.fn_part1 Cert.Pre_finite_inputs.fn_part2
    Cert.Pre_finite_inputs.fn_part3 at h0
  dsimp only at h0
  have h1 := (IntOp.andi_eq_one.1 h0).2
  have h2 := Host.reduce_andi_all _ _ _ _ _ h1 i
  obtain ⟨hge, hlt⟩ := IntOp.andi_eq_one.1 h2
  have hge' : IntOp.cmpi .sge (a1 i) 0#32 = 1#1 := hge
  have hlt' : IntOp.cmpi .slt (a1 i) 50000#32 = 1#1 := hlt
  rw [IntOp.cmpi_sge, toInt_0] at hge'
  rw [IntOp.cmpi_slt, toInt_50000] at hlt'
  exact ⟨hge', hlt'⟩

section
open Idealize.SL.Sem
variable [Cert.Pre_finite_inputs.Facts]

/-- Every entry of the edge-index array on a device is a node number. -/
theorem arg1_entry (m : (ℓ : Loc Cert.KernelIdeal.nD Cert.KernelIdeal.τ Cert.KernelIdeal.sig) → Buf (Elt Ideal) ℓ)
    (h : Cert.Pre_KernelIdeal m) (c : Dev Cert.KernelIdeal.nD) (i : S2x800000.Idx) :
    0 ≤ ((m ((c.tc : Thread Cert.KernelIdeal.nD Cert.KernelIdeal.τ).loc Cert.KernelIdeal.main_arg1) : IVec S2x800000 32) i).toInt
      ∧ ((m ((c.tc : Thread Cert.KernelIdeal.nD Cert.KernelIdeal.τ).loc Cert.KernelIdeal.main_arg1) : IVec S2x800000 32) i).toInt < 50000 :=
  entry_of_pre _ _ _ _ _ _ _ _ _ _ _ _ (h c) i

/-- The source row holds node numbers: each of its entries is an entry of the array. -/
theorem src_range (m : (ℓ : Loc Cert.KernelIdeal.nD Cert.KernelIdeal.τ Cert.KernelIdeal.sig) → Buf (Elt Ideal) ℓ)
    (h : Cert.Pre_KernelIdeal m) (c : Dev Cert.KernelIdeal.nD) :
    InRange (src (m ((c.tc : Thread Cert.KernelIdeal.nD Cert.KernelIdeal.τ).loc Cert.KernelIdeal.main_arg1))) :=
  fun p => arg1_entry m h c _

/-- The destination row holds node numbers, likewise. -/
theorem dst_range (m : (ℓ : Loc Cert.KernelIdeal.nD Cert.KernelIdeal.τ Cert.KernelIdeal.sig) → Buf (Elt Ideal) ℓ)
    (h : Cert.Pre_KernelIdeal m) (c : Dev Cert.KernelIdeal.nD) :
    InRange (dst (m ((c.tc : Thread Cert.KernelIdeal.nD Cert.KernelIdeal.τ).loc Cert.KernelIdeal.main_arg1))) :=
  fun p => arg1_entry m h c _

end

end Cert.KernelIdeal.IdxFacts

end
-- ==== Proof.KCarry.lean ====
/-
  Buffers carried across @main's segments. The run's buffer contents are a fold over sixteen segment boundaries
  (the generated `W0` … `W16`): a stretch of host operations rewrites exactly the buffers its operations
  name as results, and a pipelined region rewrites exactly its output arrays. A buffer is read several segments
  after it was written, so each statement here says: buffer `b` at the boundary where it is used still holds
  what it held at the boundary where it was made (for an argument: what the launch memory holds).
  Two kinds of step: a host stretch none of whose operations writes `b` leaves it alone; a region leaves alone
  every buffer that is not one of its OUTPUT arrays (an input array is returned as entered, any other buffer is
  not touched at all).
-/
import proofs.«403191_j78168404787866_1_alg».proof.Proof.Gen.KernelIdeal.Frame

set_option maxRecDepth 16384

noncomputable section

namespace Cert.KernelIdeal.Gen.Carry

open Idealize.ShloMosaic Idealize.ShloMosaic.TcCoe Idealize.SL.Sem
open Idealize.ShloMosaic.Pipeline (Dat)

variable {F : FTy → Type} [FloatOps F] (m : (ℓ : Loc nD τ sig) → Buf (Elt F) ℓ) (ρ : Dev nD → PrngReg)

/-! ## A region keeps every buffer that is not one of its output arrays -/

/-- Region 0: a buffer that is none of its output arrays holds at the exit what it held at the entry. -/
theorem keep0 (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hio : (cfg0.win w).isOut
      · rfl
      · exact absurd rfl (hb w hio)
    exact (W2_arr m ρ c w).trans (((dat0 (V1 m ρ) c).arrAt_in w hin _).trans (A_eq0 (V1 m ρ) c w))
  · exact W2_of_ne m ρ c b (fun w e => h ⟨w, e⟩)

/-- Region 1: a buffer that is none of its output arrays holds at the exit what it held at the entry. -/
theorem keep1 (c : Dev nD) (b : Ref sig .tc) (hb : ∀ w, (cfg1.win w).isOut = true → Pipeline.arrRef spec1 w ≠ b) :
    W5 m ρ c (Proc.devRef .tc b) = W4 m ρ c (Proc.devRef .tc b) := by
  by_cases h : ∃ w, Pipeline.arrRef spec1 w = b
  · obtain ⟨w, rfl⟩ := h
    have hin : (cfg1.win w).isOut = false := by
      cases hio : (cfg1.win w).isOut
      · rfl
      · exact absurd rfl (hb w hio)
    exact (W5_arr m ρ c w).trans (((dat1 (V4 m ρ) c).arrAt_in w hin _).trans (A_eq1 (V4 m ρ) c w))
  · exact W5_of_ne m ρ c b (fun w e => h ⟨w, e⟩)

/-- Region 2: a buffer that is none of its output arrays holds at the exit what it held at the entry. -/
theorem keep2 (c : Dev nD) (b : Ref sig .tc) (hb : ∀ w, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases hio : (cfg2.win w).isOut
      · rfl
      · exact absurd rfl (hb w hio)
    exact (W6_arr m ρ c w).trans (((dat2 (V5 m ρ) c).arrAt_in w hin _).trans (A_eq2 (V5 m ρ) c w))
  · exact W6_of_ne m ρ c b (fun w e => h ⟨w, e⟩)

/-- Region 3: a buffer that is none of its output arrays holds at the exit what it held at the entry. -/
theorem keep3 (c : Dev nD) (b : Ref sig .tc) (hb : ∀ w, (cfg3.win w).isOut = true → Pipeline.arrRef spec3 w ≠ b) :
    W9 m ρ c (Proc.devRef .tc b) = W8 m ρ c (Proc.devRef .tc b) := by
  by_cases h : ∃ w, Pipeline.arrRef spec3 w = b
  · obtain ⟨w, rfl⟩ := h
    have hin : (cfg3.win w).isOut = false := by
      cases hio : (cfg3.win w).isOut
      · rfl
      · exact absurd rfl (hb w hio)
    exact (W9_arr m ρ c w).trans (((dat3 (V8 m ρ) c).arrAt_in w hin _).trans (A_eq3 (V8 m ρ) c w))
  · exact W9_of_ne m ρ c b (fun w e => h ⟨w, e⟩)

/-- Region 4: a buffer that is none of its output arrays holds at the exit what it held at the entry. -/
theorem keep4 (c : Dev nD) (b : Ref sig .tc) (hb : ∀ w, (cfg4.win w).isOut = true → Pipeline.arrRef spec4 w ≠ b) :
    W10 m ρ c (Proc.devRef .tc b) = W9 m ρ c (Proc.devRef .tc b) := by
  by_cases h : ∃ w, Pipeline.arrRef spec4 w = b
  · obtain ⟨w, rfl⟩ := h
    have hin : (cfg4.win w).isOut = false := by
      cases hio : (cfg4.win w).isOut
      · rfl
      · exact absurd rfl (hb w hio)
    exact (W10_arr m ρ c w).trans (((dat4 (V9 m ρ) c).arrAt_in w hin _).trans (A_eq4 (V9 m ρ) c w))
  · exact W10_of_ne m ρ c b (fun w e => h ⟨w, e⟩)

/-- Region 5: a buffer that is none of its output arrays holds at the exit what it held at the entry. -/
theorem keep5 (c : Dev nD) (b : Ref sig .tc) (hb : ∀ w, (cfg5.win w).isOut = true → Pipeline.arrRef spec5 w ≠ b) :
    W13 m ρ c (Proc.devRef .tc b) = W12 m ρ c (Proc.devRef .tc b) := by
  by_cases h : ∃ w, Pipeline.arrRef spec5 w = b
  · obtain ⟨w, rfl⟩ := h
    have hin : (cfg5.win w).isOut = false := by
      cases hio : (cfg5.win w).isOut
      · rfl
      · exact absurd rfl (hb w hio)
    exact (W13_arr m ρ c w).trans (((dat5 (V12 m ρ) c).arrAt_in w hin _).trans (A_eq5 (V12 m ρ) c w))
  · exact W13_of_ne m ρ c b (fun w e => h ⟨w, e⟩)

/-- Region 6: a buffer that is none of its output arrays holds at the exit what it held at the entry. -/
theorem keep6 (c : Dev nD) (b : Ref sig .tc) (hb : ∀ w, (cfg6.win w).isOut = true → Pipeline.arrRef spec6 w ≠ b) :
    W15 m ρ c (Proc.devRef .tc b) = W14 m ρ c (Proc.devRef .tc b) := by
  by_cases h : ∃ w, Pipeline.arrRef spec6 w = b
  · obtain ⟨w, rfl⟩ := h
    have hin : (cfg6.win w).isOut = false := by
      cases hio : (cfg6.win w).isOut
      · rfl
      · exact absurd rfl (hb w hio)
    exact (W15_arr m ρ c w).trans (((dat6 (V14 m ρ) c).arrAt_in w hin _).trans (A_eq6 (V14 m ρ) c w))
  · exact W15_of_ne m ρ c b (fun w e => h ⟨w, e⟩)

/-! ## The two steps as tactics

`st` passes one stretch of host operations: the goal's left side is a boundary after a stretch, read at a buffer
none of the stretch's operations writes (each operation writes one named buffer, and the names differ). `rg keepP`
passes region `P`: the buffer is none of its output arrays (a finite check over its windows). Each leaves the same
buffer at the boundary before. -/

macro "st" : tactic => `(tactic|
  refine (StableHlo.after_of_forall_not_mem (b := _) _ _ (List.forall_iff_forall_mem.mp (by
    simp only [hostOps0, hostOps1, hostOps1_1, hostOps3, hostOps3_1, hostOps5, hostOps5_1, hostOps6, hostOps7, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

macro "rg " k:ident : tactic => `(tactic| refine ($k _ _ _ _ (by decide)).trans ?_)

/-! ## The carries, by the boundary where the buffer is used -/

/-! ### Boundary 1 (region 0's entry) and boundary 2 (its exit) -/
theorem arg0_at1 (c : Dev nD) : W1 m ρ c (Proc.devRef .tc main_arg0) = m ((c : Thread nD τ).loc main_arg0) := by
  st; rfl
theorem arg4_at1 (c : Dev nD) : W1 m ρ c (Proc.devRef .tc main_arg4) = m ((c : Thread nD τ).loc main_arg4) := by
  st; rfl
theorem v1_at2 (c : Dev nD) : W2 m ρ c (Proc.devRef .tc main_v1) = W1 m ρ c (Proc.devRef .tc main_v1) := by
  rg keep0; rfl

/-! ### Boundary 3 (after the first gather's stretch) and boundary 4 (region 1's entry) -/
theorem v33_at3 (c : Dev nD) : W3 m ρ c (Proc.devRef .tc main_v33) = W1 m ρ c (Proc.devRef .tc main_v33) := by
  st; rg keep0; rfl
theorem v3_at3 (c : Dev nD) : W3 m ρ c (Proc.devRef .tc main_v3) = W1 m ρ c (Proc.devRef .tc main_v3) := by
  st; rg keep0; rfl
theorem arg5_at3 (c : Dev nD) : W3 m ρ c (Proc.devRef .tc main_arg5) = m ((c : Thread nD τ).loc main_arg5) := by
  st; rg keep0; st; rfl
theorem v37_at4 (c : Dev nD) : W4 m ρ c (Proc.devRef .tc main_v37) = W2 m ρ c (Proc.devRef .tc main_v37) := by
  st; st; rfl
theorem v36_at4 (c : Dev nD) : W4 m ρ c (Proc.devRef .tc main_v36) = W1 m ρ c (Proc.devRef .tc main_v36) := by
  st; st; rg keep0; rfl

/-! ### Boundary 5 (region 2's entry) and boundary 6 (its exit) -/
theorem arg6_at5 (c : Dev nD) : W5 m ρ c (Proc.devRef .tc main_arg6) = m ((c : Thread nD τ).loc main_arg6) := by
  rg keep1; st; st; rg keep0; st; rfl
theorem v1_at6 (c : Dev nD) : W6 m ρ c (Proc.devRef .tc main_v1) = W1 m ρ c (Proc.devRef .tc main_v1) := by
  rg keep2; rg keep1; st; st; exact v1_at2 m ρ c

/-! ### Boundary 7 (after the second gather's stretch) and boundary 8 (region 3's entry) -/
theorem v33_at7 (c : Dev nD) : W7 m ρ c (Proc.devRef .tc main_v33) = W1 m ρ c (Proc.devRef .tc main_v33) := by
  st; rg keep2; rg keep1; st; exact v33_at3 m ρ c
theorem v3_at7 (c : Dev nD) : W7 m ρ c (Proc.devRef .tc main_v3) = W1 m ρ c (Proc.devRef .tc main_v3) := by
  st; rg keep2; rg keep1; st; exact v3_at3 m ρ c
theorem arg7_at7 (c : Dev nD) : W7 m ρ c (Proc.devRef .tc main_arg7) = m ((c : Thread nD τ).loc main_arg7) := by
  st; rg keep2; rg keep1; st; st; rg keep0; st; rfl
theorem v47_at8 (c : Dev nD) : W8 m ρ c (Proc.devRef .tc main_v47) = W6 m ρ c (Proc.devRef .tc main_v47) := by
  st; st; rfl
theorem v36_at8 (c : Dev nD) : W8 m ρ c (Proc.devRef .tc main_v36) = W1 m ρ c (Proc.devRef .tc main_v36) := by
  st; st; rg keep2; rg keep1; exact v36_at4 m ρ c

/-! ### Boundary 9 (region 4's entry) and boundary 10 (its exit) -/
theorem arg8_at9 (c : Dev nD) : W9 m ρ c (Proc.devRef .tc main_arg8) = m ((c : Thread nD τ).loc main_arg8) := by
  rg keep3; st; st; rg keep2; rg keep1; st; st; rg keep0; st; rfl
theorem v1_at10 (c : Dev nD) : W10 m ρ c (Proc.devRef .tc main_v1) = W1 m ρ c (Proc.devRef .tc main_v1) := by
  rg keep4; rg keep3; st; st; exact v1_at6 m ρ c

/-! ### Boundary 11 (after the third gather's stretch) and boundary 12 (region 5's entry) -/
theorem v33_at11 (c : Dev nD) : W11 m ρ c (Proc.devRef .tc main_v33) = W1 m ρ c (Proc.devRef .tc main_v33) := by
  st; rg keep4; rg keep3; st; exact v33_at7 m ρ c
theorem v3_at11 (c : Dev nD) : W11 m ρ c (Proc.devRef .tc main_v3) = W1 m ρ c (Proc.devRef .tc main_v3) := by
  st; rg keep4; rg keep3; st; exact v3_at7 m ρ c
theorem arg9_at11 (c : Dev nD) : W11 m ρ c (Proc.devRef .tc main_arg9) = m ((c : Thread nD τ).loc main_arg9) := by
  st; rg keep4; rg keep3; st; st; rg keep2; rg keep1; st; st; rg keep0; st; rfl
theorem v57_at12 (c : Dev nD) : W12 m ρ c (Proc.devRef .tc main_v57) = W10 m ρ c (Proc.devRef .tc main_v57) := by
  st; st; rfl
theorem v36_at12 (c : Dev nD) : W12 m ρ c (Proc.devRef .tc main_v36) = W1 m ρ c (Proc.devRef .tc main_v36) := by
  st; st; rg keep4; rg keep3; exact v36_at8 m ρ c

/-! ### Boundary 13 (the pooling stretch's entry) and boundary 14 (region 6's entry) -/
theorem arg3_at13 (c : Dev nD) : W13 m ρ c (Proc.devRef .tc main_arg3) = m ((c : Thread nD τ).loc main_arg3) := by
  rg keep5; st; st; rg keep4; rg keep3; st; st; rg keep2; rg keep1; st; st; rg keep0; st; rfl
theorem arg11_at13 (c : Dev nD) : W13 m ρ c (Proc.devRef .tc main_arg11) = m ((c : Thread nD τ).loc main_arg11) := by
  rg keep5; st; st; rg keep4; rg keep3; st; st; rg keep2; rg keep1; st; st; rg keep0; st; rfl
theorem arg10_at14 (c : Dev nD) : W14 m ρ c (Proc.devRef .tc main_arg10) = m ((c : Thread nD τ).loc main_arg10) := by
  st; rg keep5; st; st; rg keep4; rg keep3; st; st; rg keep2; rg keep1; st; st; rg keep0; st; rfl

end Cert.KernelIdeal.Gen.Carry

end
-- ==== Proof.Lin0.lean ====
/-
  The first linear layer's pallas_call, read as a value: a grid of 25 points, point `t` taking rows
  `2000 t … 2000 t + 1999` of the node features and the whole weight matrix, and writing the same rows of the
  product. Over the extended reals the change of float format on the way into the matrix unit is the
  identity and the unit's product into a zero accumulator is the plain sum over the shared axis, so block
  `t` of the output is rows `2000 t …` of ONE whole-array function: entry (r, q) is the sum over k of
  x (r, k) · w (k, q). The 25 blocks tile the output array, so the array ends holding that function.
  Everything is stated at a parameter `V`: the buffer contents the region is entered from.
-/
import proofs.«403191_j78168404787866_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Gen.Lin0

open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the product: row `r` of `x` against column `q` of `w`, summed over the shared axis. -/
abbrev G (x : S50000x128.Idx → EReal) (w : S128x128.Idx → EReal) : S50000x128.Idx → EReal :=
  fun i => ∑ k : Fin 128, x (ix2 ⟨(i 0).val, idx2_lt0 i⟩ k) * w (ix2 k ⟨(i 1).val, idx2_lt1 i⟩)

/-! ## The matrix unit's operand indices, axis by axis -/

theorem lhs_0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's one stored value at a block index: the sum over the shared axis of the two loaded blocks. -/
theorem pay_apply (x0 : Vec Ideal S2000x128 .f32) (x1 : Vec Ideal S128x128 .f32) (j : S2000x128.Idx) :
    k0_pay1 x0 x1 j = ∑ k : Fin 128, x0 (ix2 ⟨(j 0).val, idx2_lt0 j⟩ k) * x1 (ix2 k ⟨(j 1).val, idx2_lt1 j⟩) := by
  unfold k0_pay1
  dsimp only
  refine (Ideal.matmul_constant_zero_apply dot_S2000x128_S128x128_S2000x128_1_0_0_1_n_n none _ _ j).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx j ((contrEquiv1 dot_S2000x128_S128x128_S2000x128_1_0_0_1_n_n 128 rfl rfl).symm k) = ix2 ⟨(j 0).val, idx2_lt0 j⟩ k := funext fun a => Fin.ext (by
    match a with
    | ⟨0, _⟩ => exact lhs_0 _ _
    | ⟨1, _⟩ => exact (lhs_1 _ _).trans hk)
  have er : dot_S2000x128_S128x128_S2000x128_1_0_0_1_n_n.rhsIdx j ((contrEquiv1 dot_S2000x128_S128x128_S2000x128_1_0_0_1_n_n 128 rfl rfl).symm k) = ix2 k ⟨(j 1).val, idx2_lt1 j⟩ := funext fun a => Fin.ext (by
    match a with
    | ⟨0, _⟩ => exact (rhs_0 _ _).trans hk
    | ⟨1, _⟩ => exact rhs_1 _ _)
  rw [el, er]
  rfl

/-! ## The windows' blocks as rows of the arrays -/

/-- The printed index maps over the grid: the feature window and the output window sit at block row `t`, the
    weight window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t`, at local (r, k), is the feature array at (2000 t + r, k). -/
theorem xblk_apply (c : Dev nD) (t : Fin cfg0.N) (y : S2000x128.Idx) (i : S50000x128.Idx)
    (h0 : (i 0).val = t.val * 2000 + (y 0).val) (h1 : (i 1).val = (y 1).val) :
    (iblk0 V c 0 t : Vec Ideal S2000x128 .f32) y = (V c main_arg0 : S50000x128.Idx → EReal) i := by
  obtain ⟨e0, e1, -, -, -, -⟩ := idx_facts t
  unfold iblk0
  rw [View.read_apply]
  show V c main_arg0 _ = V c main_arg0 _
  refine congrArg _ (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The weight block at every point is the whole weight array. -/
theorem wblk_apply (c : Dev nD) (t : Fin cfg0.N) (y : S128x128.Idx) :
    (iblk0 V c 1 t : Vec Ideal S128x128 .f32) y = (V c main_arg4 : S128x128.Idx → EReal) y := by
  obtain ⟨-, -, e2, e3, -, -⟩ := idx_facts t
  unfold iblk0
  rw [View.read_apply]
  show V c main_arg4 _ = V c main_arg4 _
  refine congrArg _ (funext fun a => Fin.ext ?_)
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-! ## What a point writes back, the cover, the array after the run -/

/-- What point `t` writes back is block `t` of the product of the arrays as the region finds them. -/
theorem flushed_eq (c : Dev nD) (t : Fin cfg0.N) :
    (dat0 V c).flushed 2 t = ((cfg0.win 2).blk t).view.read (Elt Ideal) (G (V c main_arg0) (V c main_arg4)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  funext j
  obtain ⟨-, -, -, -, e4, e5⟩ := idx_facts t
  show k0_pay1 (iblk0 V c 0 t) (iblk0 V c 1 t) j = G (V c main_arg0) (V c main_arg4) (((cfg0.win 2).blk t).view.emb j)
  rw [pay_apply]
  show (∑ k : Fin 128, _) = ∑ k : Fin 128, _
  refine Finset.sum_congr rfl fun k _ => ?_
  refine congrArg₂ (· * ·) (xblk_apply V c t _ _ ?_ rfl) ((wblk_apply V c t _).trans (congrArg _ (funext fun a => Fin.ext ?_)))
  · show win0_2.index t (0 : Fin 2) * 2000 + 1 * (j 0).val = t.val * 2000 + (j 0).val
    rw [e4]; omega
  · match a with
    | ⟨0, _⟩ => rfl
    | ⟨1, _⟩ => show (j 1).val = win0_2.index t (1 : Fin 2) * 128 + 1 * (j 1).val; rw [e5]; omega

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v37).slice (win0_2.rect t)).set ↔ _
  rw [View.set_slice_whole, Rect.mem_set_unit]
  exact Iff.rfl

/-- Row `r` of the output lies in the block of point `r / 2000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000
              rw [e4]; show (i 0).val / 2000 * 2000 ≤ (i 0).val ∧ (i 0).val < (i 0).val / 2000 * 2000 + 2000; omega
  | ⟨1, _⟩ => show win0_2.index t (1 : Fin 2) * 128 ≤ (i 1).val ∧ (i 1).val < win0_2.index t (1 : Fin 2) * 128 + 128
              rw [e5]; omega

/-- The output array after the region: the product of the two arrays as the region finds them. -/
theorem final (c : Dev nD) : (dat0 V c).arrAt 2 cfg0.N = G (V c main_arg0) (V c main_arg4) :=
  (dat0 V c).arrAt_eq_of_cover 2 (G (V c main_arg0) (V c main_arg4)) (fun t _ => flushed_eq V c t) cover

end Cert.KernelIdeal.Gen.Lin0

end
-- ==== Proof.Lin2.lean ====
/-
  The second linear layer's pallas_call, read as a value: a grid of 25 points, point `t` taking rows
  `2000 t … 2000 t + 1999` of the layer's input and the whole weight matrix, and writing the same rows of the
  product. Over the extended reals the change of float format on the way into the matrix unit is the
  identity and the unit's product into a zero accumulator is the plain sum over the shared axis, so block
  `t` of the output is rows `2000 t …` of ONE whole-array function: entry (r, q) is the sum over k of
  x (r, k) · w (k, q). The 25 blocks tile the output array, so the array ends holding that function.
  Everything is stated at a parameter `V`: the buffer contents the region is entered from.
-/
import proofs.«403191_j78168404787866_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Gen.Lin2

open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the product: row `r` of `x` against column `q` of `w`, summed over the shared axis. -/
abbrev G (x : S50000x128.Idx → EReal) (w : S128x64.Idx → EReal) : S50000x64.Idx → EReal :=
  fun i => ∑ k : Fin 128, x (ix2 ⟨(i 0).val, idx2_lt0 i⟩ k) * w (ix2 k ⟨(i 1).val, idx2_lt1 i⟩)

/-! ## The matrix unit's operand indices, axis by axis -/

theorem lhs_0 (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_1 (i : S2000x64.Idx) (q : dot_S2000x128_S128x64_S2000x64_1_0_0_1_n_n.contr.Idx) : (dot_S2000x128_S128x64_S2000x64_1_0_0_1_n_n.lhsIdx i q 1).val = (q ⟨0, by decide⟩).val :=
  dot_S2000x128_S128x64_S2000x64_1_0_0_1_n_n.lhsIdx_val_of_single rfl i q
theorem rhs_0 (i : S2000x64.Idx) (q : dot_S2000x128_S128x64_S2000x64_1_0_0_1_n_n.contr.Idx) : (dot_S2000x128_S128x64_S2000x64_1_0_0_1_n_n.rhsIdx i q 0).val = (q ⟨0, by decide⟩).val :=
  dot_S2000x128_S128x64_S2000x64_1_0_0_1_n_n.rhsIdx_val_of_single rfl i q
theorem rhs_1 (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The body's one stored value at a block index: the sum over the shared axis of the two loaded blocks. -/
theorem pay_apply (x0 : Vec Ideal S2000x128 .f32) (x1 : Vec Ideal S128x64 .f32) (j : S2000x64.Idx) :
    k2_pay1 x0 x1 j = ∑ k : Fin 128, x0 (ix2 ⟨(j 0).val, idx2_lt0 j⟩ k) * x1 (ix2 k ⟨(j 1).val, idx2_lt1 j⟩) := by
  unfold k2_pay1
  dsimp only
  simp only [shapeCast_self]
  refine (Ideal.matmul_constant_zero_apply dot_S2000x128_S128x64_S2000x64_1_0_0_1_n_n none _ _ j).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx j ((contrEquiv1 dot_S2000x128_S128x64_S2000x64_1_0_0_1_n_n 128 rfl rfl).symm k) = ix2 ⟨(j 0).val, idx2_lt0 j⟩ k := funext fun a => Fin.ext (by
    match a with
    | ⟨0, _⟩ => exact lhs_0 _ _
    | ⟨1, _⟩ => exact (lhs_1 _ _).trans hk)
  have er : dot_S2000x128_S128x64_S2000x64_1_0_0_1_n_n.rhsIdx j ((contrEquiv1 dot_S2000x128_S128x64_S2000x64_1_0_0_1_n_n 128 rfl rfl).symm k) = ix2 k ⟨(j 1).val, idx2_lt1 j⟩ := funext fun a => Fin.ext (by
    match a with
    | ⟨0, _⟩ => exact (rhs_0 _ _).trans hk
    | ⟨1, _⟩ => exact rhs_1 _ _)
  rw [el, er]
  rfl

/-! ## The windows' blocks as rows of the arrays -/

/-- The printed index maps over the grid: the input window and the output window sit at block row `t`, the
    weight window at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input block at point `t`, at local (r, k), is the input array at (2000 t + r, k). -/
theorem xblk_apply (c : Dev nD) (t : Fin cfg2.N) (y : S2000x128.Idx) (i : S50000x128.Idx)
    (h0 : (i 0).val = t.val * 2000 + (y 0).val) (h1 : (i 1).val = (y 1).val) :
    (iblk2 V c 0 t : Vec Ideal S2000x128 .f32) y = (V c main_v46 : S50000x128.Idx → EReal) i := by
  obtain ⟨e0, e1, -, -, -, -⟩ := idx_facts t
  unfold iblk2
  rw [View.read_apply]
  show V c main_v46 _ = V c main_v46 _
  refine congrArg _ (funext fun a => Fin.ext ?_)
  match a with
  | ⟨0, _⟩ => show win2_0.index t (0 : Fin 2) * 2000 + 1 * (y 0).val = (i 0).val; rw [e0, h0]; omega
  | ⟨1, _⟩ => show win2_0.index t (1 : Fin 2) * 128 + 1 * (y 1).val = (i 1).val; rw [e1, h1]; omega

/-- The weight block at every point is the whole weight array. -/
theorem wblk_apply (c : Dev nD) (t : Fin cfg2.N) (y : S128x64.Idx) :
    (iblk2 V c 1 t : Vec Ideal S128x64 .f32) y = (V c main_arg6 : S128x64.Idx → EReal) y := by
  obtain ⟨-, -, e2, e3, -, -⟩ := idx_facts t
  unfold iblk2
  rw [View.read_apply]
  show V c main_arg6 _ = V c main_arg6 _
  refine congrArg _ (funext fun a => Fin.ext ?_)
  match a with
  | ⟨0, _⟩ => show win2_1.index t (0 : Fin 2) * 128 + 1 * (y 0).val = (y 0).val; rw [e2]; omega
  | ⟨1, _⟩ => show win2_1.index t (1 : Fin 2) * 64 + 1 * (y 1).val = (y 1).val; rw [e3]; omega

/-! ## What a point writes back, the cover, the array after the run -/

/-- What point `t` writes back is block `t` of the product of the arrays as the region finds them. -/
theorem flushed_eq (c : Dev nD) (t : Fin cfg2.N) :
    (dat2 V c).flushed 2 t = ((cfg2.win 2).blk t).view.read (Elt Ideal) (G (V c main_v46) (V c main_arg6)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  funext j
  obtain ⟨-, -, -, -, e4, e5⟩ := idx_facts t
  show k2_pay1 (iblk2 V c 0 t) (iblk2 V c 1 t) j = G (V c main_v46) (V c main_arg6) (((cfg2.win 2).blk t).view.emb j)
  rw [pay_apply]
  show (∑ k : Fin 128, _) = ∑ k : Fin 128, _
  refine Finset.sum_congr rfl fun k _ => ?_
  refine congrArg₂ (· * ·) (xblk_apply V c t _ _ ?_ rfl) ((wblk_apply V c t _).trans (congrArg _ (funext fun a => Fin.ext ?_)))
  · show win2_2.index t (0 : Fin 2) * 2000 + 1 * (j 0).val = t.val * 2000 + (j 0).val
    rw [e4]; omega
  · match a with
    | ⟨0, _⟩ => rfl
    | ⟨1, _⟩ => show (j 1).val = win2_2.index t (1 : Fin 2) * 64 + 1 * (j 1).val; rw [e5]; omega

/-- An index of the output array is in point `t`'s block iff each coordinate is in the block's range on its axis. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v47).slice (win2_2.rect t)).set ↔ _
  rw [View.set_slice_whole, Rect.mem_set_unit]
  exact Iff.rfl

/-- Row `r` of the output lies in the block of point `r / 2000`. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 25 := N_2
  let t : Fin cfg2.N := ⟨(i 0).val / 2000, by rw [hN]; omega⟩
  obtain ⟨-, -, -, -, e4, e5⟩ := idx_facts t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000
              rw [e4]; show (i 0).val / 2000 * 2000 ≤ (i 0).val ∧ (i 0).val < (i 0).val / 2000 * 2000 + 2000; omega
  | ⟨1, _⟩ => show win2_2.index t (1 : Fin 2) * 64 ≤ (i 1).val ∧ (i 1).val < win2_2.index t (1 : Fin 2) * 64 + 64
              rw [e5]; omega

/-- The output array after the region: the product of the two arrays as the region finds them. -/
theorem final (c : Dev nD) : (dat2 V c).arrAt 2 cfg2.N = G (V c main_v46) (V c main_arg6) :=
  (dat2 V c).arrAt_eq_of_cover 2 (G (V c main_v46) (V c main_arg6)) (fun t _ => flushed_eq V c t) cover

end Cert.KernelIdeal.Gen.Lin2

end
-- ==== Proof.Lin4.lean ====
/-
  The third linear layer's pallas_call, read as a value: a grid of 25 points, point `t` taking rows
  `2000 t … 2000 t + 1999` of the layer's input and the whole weight matrix, and writing the same rows of the
  product. Over the extended reals the change of float format on the way into the matrix unit is the
  identity and the unit's product into a zero accumulator is the plain sum over the shared axis, so block
  `t` of the output is rows `2000 t …` of ONE whole-array function: entry (r, q) is the sum over k of
  x (r, k) · w (k, q). The 25 blocks tile the output array, so the array ends holding that function.
  Everything is stated at a parameter `V`: the buffer contents the region is entered from.
-/
import proofs.«403191_j78168404787866_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Gen.Lin4

open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the product: row `r` of `x` against column `q` of `w`, summed over the shared axis. -/
abbrev G (x : S50000x64.Idx → EReal) (w : S64x32.Idx → EReal) : S50000x32.Idx → EReal :=
  fun i => ∑ k : Fin 64, x (ix2 ⟨(i 0).val, idx2_lt0 i⟩ k) * w (ix2 k ⟨(i 1).val, idx2_lt1 i⟩)

/-! ## The matrix unit's operand indices, axis by axis -/

theorem lhs_0 (i : S2000x32.Idx) (q : dot_S2000x64_S64x32_S2000x32_1_0_0_1_n_n.contr.Idx) : (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem lhs_1 (i : S2000x32.Idx) (q : dot_S2000x64_S64x32_S2000x32_1_0_0_1_n_n.contr.Idx) : (dot_S2000x64_S64x32_S2000x32_1_0_0_1_n_n.lhsIdx i q 1).val = (q ⟨0, by decide⟩).val :=
  dot_S2000x64_S64x32_S2000x32_1_0_0_1_n_n.lhsIdx_val_of_single rfl i q
theorem rhs_0 (i : S2000x32.Idx) (q : dot_S2000x64_S64x32_S2000x32_1_0_0_1_n_n.contr.Idx) : (dot_S2000x64_S64x32_S2000x32_1_0_0_1_n_n.rhsIdx i q 0).val = (q ⟨0, by decide⟩).val :=
  dot_S2000x64_S64x32_S2000x32_1_0_0_1_n_n.rhsIdx_val_of_single rfl i q
theorem rhs_1 (i : S2000x32.Idx) (q : dot_S2000x64_S64x32_S2000x32_1_0_0_1_n_n.contr.Idx) : (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- The body's one stored value at a block index: the sum over the shared axis of the two loaded blocks. -/
theorem pay_apply (x0 : Vec Ideal S2000x64 .f32) (x1 : Vec Ideal S64x32 .f32) (j : S2000x32.Idx) :
    k4_pay1 x0 x1 j = ∑ k : Fin 64, x0 (ix2 ⟨(j 0).val, idx2_lt0 j⟩ k) * x1 (ix2 k ⟨(j 1).val, idx2_lt1 j⟩) := by
  unfold k4_pay1
  dsimp only
  simp only [shapeCast_self]
  refine (Ideal.matmul_constant_zero_apply dot_S2000x64_S64x32_S2000x32_1_0_0_1_n_n none _ _ j).trans ?_
  rw [← Equiv.sum_comp (contrEquiv1 dot_S2000x64_S64x32_S2000x32_1_0_0_1_n_n 64 rfl rfl).symm]
  refine Finset.sum_congr rfl fun k _ => ?_
  have hk := contrEquiv1_symm_val dot_S2000x64_S64x32_S2000x32_1_0_0_1_n_n 64 rfl rfl k
  have el : dot_S2000x64_S64x32_S2000x32_1_0_0_1_n_n.lhsIdx j ((contrEquiv1 dot_S2000x64_S64x32_S2000x32_1_0_0_1_n_n 64 rfl rfl).symm k) = ix2 ⟨(j 0).val, idx2_lt0 j⟩ k := funext fun a => Fin.ext (by
    match a with
    | ⟨0, _⟩ => exact lhs_0 _ _
    | ⟨1, _⟩ => exact (lhs_1 _ _).trans hk)
  have er : dot_S2000x64_S64x32_S2000x32_1_0_0_1_n_n.rhsIdx j ((contrEquiv1 dot_S2000x64_S64x32_S2000x32_1_0_0_1_n_n 64 rfl rfl).symm k) = ix2 k ⟨(j 1).val, idx2_lt1 j⟩ := funext fun a => Fin.ext (by
    match a with
    | ⟨0, _⟩ => exact (rhs_0 _ _).trans hk
    | ⟨1, _⟩ => exact rhs_1 _ _)
  rw [el, er]
  rfl

/-! ## The windows' blocks as rows of the arrays -/

/-- The printed index maps over the grid: the input window and the output window sit at block row `t`, the
    weight window at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The input block at point `t`, at local (r, k), is the input array at (2000 t + r, k). -/
theorem xblk_apply (c : Dev nD) (t : Fin cfg4.N) (y : S2000x64.Idx) (i : S50000x64.Idx)
    (h0 : (i 0).val = t.val * 2000 + (y 0).val) (h1 : (i 1).val = (y 1).val) :
    (iblk4 V c 0 t : Vec Ideal S2000x64 .f32) y = (V c main_v56 : S50000x64.Idx → EReal) i := by
  obtain ⟨e0, e1, -, -, -, -⟩ := idx_facts t
  unfold iblk4
  rw [View.read_apply]
  show V c main_v56 _ = V c main_v56 _
  refine congrArg _ (funext fun a => Fin.ext ?_)
  match a with
  | ⟨0, _⟩ => show win4_0.index t (0 : Fin 2) * 2000 + 1 * (y 0).val = (i 0).val; rw [e0, h0]; omega
  | ⟨1, _⟩ => show win4_0.index t (1 : Fin 2) * 64 + 1 * (y 1).val = (i 1).val; rw [e1, h1]; omega

/-- The weight block at every point is the whole weight array. -/
theorem wblk_apply (c : Dev nD) (t : Fin cfg4.N) (y : S64x32.Idx) :
    (iblk4 V c 1 t : Vec Ideal S64x32 .f32) y = (V c main_arg8 : S64x32.Idx → EReal) y := by
  obtain ⟨-, -, e2, e3, -, -⟩ := idx_facts t
  unfold iblk4
  rw [View.read_apply]
  show V c main_arg8 _ = V c main_arg8 _
  refine congrArg _ (funext fun a => Fin.ext ?_)
  match a with
  | ⟨0, _⟩ => show win4_1.index t (0 : Fin 2) * 64 + 1 * (y 0).val = (y 0).val; rw [e2]; omega
  | ⟨1, _⟩ => show win4_1.index t (1 : Fin 2) * 32 + 1 * (y 1).val = (y 1).val; rw [e3]; omega

/-! ## What a point writes back, the cover, the array after the run -/

/-- What point `t` writes back is block `t` of the product of the arrays as the region finds them. -/
theorem flushed_eq (c : Dev nD) (t : Fin cfg4.N) :
    (dat4 V c).flushed 2 t = ((cfg4.win 2).blk t).view.read (Elt Ideal) (G (V c main_v56) (V c main_arg8)) := by
  show (cfg4.win 2).cut (grid4.coords t) ((dat4 V c).after 2 t) = _
  rw [after4_2]
  unfold out4_2
  rw [View.canon_unit_zero hz]
  simp only [View.ld_unit_zero (S := S2000x64) hz, View.ld_unit_zero (S := S64x32) hz]
  funext j
  obtain ⟨-, -, -, -, e4, e5⟩ := idx_facts t
  show k4_pay1 (iblk4 V c 0 t) (iblk4 V c 1 t) j = G (V c main_v56) (V c main_arg8) (((cfg4.win 2).blk t).view.emb j)
  rw [pay_apply]
  show (∑ k : Fin 64, _) = ∑ k : Fin 64, _
  refine Finset.sum_congr rfl fun k _ => ?_
  refine congrArg₂ (· * ·) (xblk_apply V c t _ _ ?_ rfl) ((wblk_apply V c t _).trans (congrArg _ (funext fun a => Fin.ext ?_)))
  · show win4_2.index t (0 : Fin 2) * 2000 + 1 * (j 0).val = t.val * 2000 + (j 0).val
    rw [e4]; omega
  · match a with
    | ⟨0, _⟩ => rfl
    | ⟨1, _⟩ => show (j 1).val = win4_2.index t (1 : Fin 2) * 32 + 1 * (j 1).val; rw [e5]; omega

/-- An index of the output array is in point `t`'s block iff each coordinate is in the block's range on its axis. -/
theorem mem_blk (t : Fin cfg4.N) (i : S50000x32.Idx) :
    i ∈ ((cfg4.win 2).blk t).view.set ↔ ∀ a : Fin 2, win4_2.index t a * S2000x32.size a ≤ (i a).val ∧ (i a).val < win4_2.index t a * S2000x32.size a + S2000x32.size a := by
  show i ∈ ((View.whole main_v57).slice (win4_2.rect t)).set ↔ _
  rw [View.set_slice_whole, Rect.mem_set_unit]
  exact Iff.rfl

/-- Row `r` of the output lies in the block of point `r / 2000`. -/
theorem cover (i : S50000x32.Idx) : ∃ t : Fin cfg4.N, (cfg4.win 2).flush t = true ∧ i ∈ ((cfg4.win 2).blk t).view.set := by
  have hi0 : (i 0).val < 50000 := (i 0).isLt
  have hi1 : (i 1).val < 32 := (i 1).isLt
  have hN : cfg4.N = 25 := N_4
  let t : Fin cfg4.N := ⟨(i 0).val / 2000, by rw [hN]; omega⟩
  obtain ⟨-, -, -, -, e4, e5⟩ := idx_facts t
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000
              rw [e4]; show (i 0).val / 2000 * 2000 ≤ (i 0).val ∧ (i 0).val < (i 0).val / 2000 * 2000 + 2000; omega
  | ⟨1, _⟩ => show win4_2.index t (1 : Fin 2) * 32 ≤ (i 1).val ∧ (i 1).val < win4_2.index t (1 : Fin 2) * 32 + 32
              rw [e5]; omega

/-- The output array after the region: the product of the two arrays as the region finds them. -/
theorem final (c : Dev nD) : (dat4 V c).arrAt 2 cfg4.N = G (V c main_v56) (V c main_arg8) :=
  (dat4 V c).arrAt_eq_of_cover 2 (G (V c main_v56) (V c main_arg8)) (fun t _ => flushed_eq V c t) cover

end Cert.KernelIdeal.Gen.Lin4

end
-- ==== Proof.Epi1.lean ====
/-
  The first layer's epilogue pallas_call, read as a value: a grid of 25 points, point `t` taking rows
  `2000 t … 2000 t + 1999` of the aggregated messages, of the transformed features and of the column of
  inverse degrees, and the whole bias row, and writing the same rows of the output. The body is pointwise:
  entry (r, q) of the output is  max ((agg (r, q) + h (r, q) · d (r, 0)) + b (0, q)) 0,  the inverse degree
  broadcast along the row and the bias along the column. So block `t` of the output is rows `2000 t …` of
  ONE whole-array function of the four arrays, and the 25 blocks tile the output array.
  Everything is stated at a parameter `V`: the buffer contents the region is entered from.
-/
import proofs.«403191_j78168404787866_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Gen.Epi1

open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the layer's output: the aggregated message plus the node's own feature scaled by its inverse
    degree, plus the bias of column `q`, clamped below at zero. -/
abbrev G (agg h : S50000x128.Idx → EReal) (d : S50000x1.Idx → EReal) (b : S1x128.Idx → EReal) : S50000x128.Idx → EReal :=
  fun i => max ((agg i + h i * d (ix2 ⟨(i 0).val, idx2_lt0 i⟩ 0)) + b (ix2 0 ⟨(i 1).val, idx2_lt1 i⟩)) (Ideal.ofBits .f32 0x00000000#32)

/-- The body's one stored value at a block index. -/
theorem pay_apply (x0 x1 : Vec Ideal S2000x128 .f32) (x2 : Vec Ideal S2000x1 .f32) (x3 : Vec Ideal S1x128 .f32) (j : S2000x128.Idx) :
    k1_pay1 x0 x1 x2 x3 j = max ((x0 j + x1 j * x2 (ix2 ⟨(j 0).val, idx2_lt0 j⟩ 0)) + x3 (ix2 0 ⟨(j 1).val, idx2_lt1 j⟩)) (Ideal.ofBits .f32 0x00000000#32) := by
  unfold k1_pay1
  dsimp only
  simp only [shapeCast_self]
  show max ((x0 j + x1 j * broadcastTo S2000x128 x2 broadcasts_S2000x1_S2000x128 j) + broadcastTo S2000x128 x3 broadcasts_S1x128_S2000x128 j) _ = _
  rw [broadcastTo_apply x2 broadcasts_S2000x1_S2000x128 j (ix2 ⟨(j 0).val, idx2_lt0 j⟩ 0) (fun a => by
        match a with
        | ⟨0, _⟩ => rfl
        | ⟨1, _⟩ => rfl),
      broadcastTo_apply x3 broadcasts_S1x128_S2000x128 j (ix2 0 ⟨(j 1).val, idx2_lt1 j⟩) (fun a => by
        match a with
        | ⟨0, _⟩ => rfl
        | ⟨1, _⟩ => rfl)]
  rfl

/-! ## The windows' blocks as rows of the arrays -/

/-- The printed index maps over the grid: the three row-blocked inputs and the output sit at block row `t`, the
    bias window at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The message block at point `t`, at local (r, q), is the message array at (2000 t + r, q). -/
theorem aggblk_apply (c : Dev nD) (t : Fin cfg1.N) (y : S2000x128.Idx) (i : S50000x128.Idx)
    (h0 : (i 0).val = t.val * 2000 + (y 0).val) (h1 : (i 1).val = (y 1).val) :
    (iblk1 V c 0 t : Vec Ideal S2000x128 .f32) y = (V c main_v44 : S50000x128.Idx → EReal) i := by
  obtain ⟨e0, e1, -⟩ := idx_facts t
  unfold iblk1
  rw [View.read_apply]
  show V c main_v44 _ = V c main_v44 _
  refine congrArg _ (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The feature block at point `t`, at local (r, q), is the feature array at (2000 t + r, q). -/
theorem hblk_apply (c : Dev nD) (t : Fin cfg1.N) (y : S2000x128.Idx) (i : S50000x128.Idx)
    (h0 : (i 0).val = t.val * 2000 + (y 0).val) (h1 : (i 1).val = (y 1).val) :
    (iblk1 V c 1 t : Vec Ideal S2000x128 .f32) y = (V c main_v37 : S50000x128.Idx → EReal) i := by
  obtain ⟨-, -, e0, e1, -⟩ := idx_facts t
  unfold iblk1
  rw [View.read_apply]
  show V c main_v37 _ = V c main_v37 _
  refine congrArg _ (funext fun a => Fin.ext ?_)
  match a with
  | ⟨0, _⟩ => show win1_1.index t (0 : Fin 2) * 2000 + 1 * (y 0).val = (i 0).val; rw [e0, h0]; omega
  | ⟨1, _⟩ => show win1_1.index t (1 : Fin 2) * 128 + 1 * (y 1).val = (i 1).val; rw [e1, h1]; omega

/-- The inverse-degree block at point `t`, at local (r, 0), is the column at (2000 t + r, 0). -/
theorem dblk_apply (c : Dev nD) (t : Fin cfg1.N) (y : S2000x1.Idx) (i : S50000x1.Idx)
    (h0 : (i 0).val = t.val * 2000 + (y 0).val) (h1 : (i 1).val = (y 1).val) :
    (iblk1 V c 2 t : Vec Ideal S2000x1 .f32) y = (V c main_v36 : S50000x1.Idx → EReal) i := by
  obtain ⟨-, -, -, -, e0, e1, -⟩ := idx_facts t
  unfold iblk1
  rw [View.read_apply]
  show V c main_v36 _ = V c main_v36 _
  refine congrArg _ (funext fun a => Fin.ext ?_)
  match a with
  | ⟨0, _⟩ => show win1_2.index t (0 : Fin 2) * 2000 + 1 * (y 0).val = (i 0).val; rw [e0, h0]; omega
  | ⟨1, _⟩ => show win1_2.index t (1 : Fin 2) * 1 + 1 * (y 1).val = (i 1).val; rw [e1, h1]; omega

/-- The bias block at every point is the whole bias row. -/
theorem bblk_apply (c : Dev nD) (t : Fin cfg1.N) (y : S1x128.Idx) :
    (iblk1 V c 3 t : Vec Ideal S1x128 .f32) y = (V c main_v45 : S1x128.Idx → EReal) y := by
  obtain ⟨-, -, -, -, -, -, e0, e1, -⟩ := idx_facts t
  unfold iblk1
  rw [View.read_apply]
  show V c main_v45 _ = V c main_v45 _
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-! ## What a point writes back, the cover, the array after the run -/

/-- What point `t` writes back is block `t` of the layer's output function of the arrays as the region finds them. -/
theorem flushed_eq (c : Dev nD) (t : Fin cfg1.N) :
    (dat1 V c).flushed 4 t = ((cfg1.win 4).blk t).view.read (Elt Ideal) (G (V c main_v44) (V c main_v37) (V c main_v36) (V c main_v45)) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  funext j
  obtain ⟨-, -, -, -, -, -, -, -, e8, e9⟩ := idx_facts t
  show k1_pay1 (iblk1 V c 0 t) (iblk1 V c 1 t) (iblk1 V c 2 t) (iblk1 V c 3 t) j = G (V c main_v44) (V c main_v37) (V c main_v36) (V c main_v45) (((cfg1.win 4).blk t).view.emb j)
  rw [pay_apply]
  have hr : ((((cfg1.win 4).blk t).view.emb j) 0).val = t.val * 2000 + (j 0).val := by
    show win1_4.index t (0 : Fin 2) * 2000 + 1 * (j 0).val = _; rw [e8]; omega
  have hq : ((((cfg1.win 4).blk t).view.emb j) 1).val = (j 1).val := by
    show win1_4.index t (1 : Fin 2) * 128 + 1 * (j 1).val = _; rw [e9]; omega
  show max ((_ + _ * _) + _) _ = max ((_ + _ * _) + _) _
  refine congrArg₂ max (congrArg₂ (· + ·) (congrArg₂ (· + ·) (aggblk_apply V c t _ _ hr hq)
    (congrArg₂ (· * ·) (hblk_apply V c t _ _ hr hq) (dblk_apply V c t _ _ hr rfl)))
    ((bblk_apply V c t _).trans (congrArg _ (funext fun a => Fin.ext ?_)))) rfl
  match a with
  | ⟨0, _⟩ => rfl
  | ⟨1, _⟩ => exact hq.symm

/-- An index of the output array is in point `t`'s block iff each coordinate is in the block's range on its axis. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v46).slice (win1_4.rect t)).set ↔ _
  rw [View.set_slice_whole, Rect.mem_set_unit]
  exact Iff.rfl

/-- Row `r` of the output lies in the block of point `r / 2000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, e8, e9⟩ := idx_facts t
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000
              rw [e8]; show (i 0).val / 2000 * 2000 ≤ (i 0).val ∧ (i 0).val < (i 0).val / 2000 * 2000 + 2000; omega
  | ⟨1, _⟩ => show win1_4.index t (1 : Fin 2) * 128 ≤ (i 1).val ∧ (i 1).val < win1_4.index t (1 : Fin 2) * 128 + 128
              rw [e9]; omega

/-- The output array after the region: the layer's output function of the four arrays as the region finds them. -/
theorem final (c : Dev nD) : (dat1 V c).arrAt 4 cfg1.N = G (V c main_v44) (V c main_v37) (V c main_v36) (V c main_v45) :=
  (dat1 V c).arrAt_eq_of_cover 4 (G (V c main_v44) (V c main_v37) (V c main_v36) (V c main_v45)) (fun t _ => flushed_eq V c t) cover

end Cert.KernelIdeal.Gen.Epi1

end
-- ==== Proof.Epi3.lean ====
/-
  The second layer's epilogue pallas_call, read as a value: a grid of 25 points, point `t` taking rows
  `2000 t … 2000 t + 1999` of the aggregated messages, of the transformed features and of the column of
  inverse degrees, and the whole bias row, and writing the same rows of the output. The body is pointwise:
  entry (r, q) of the output is  max ((agg (r, q) + h (r, q) · d (r, 0)) + b (0, q)) 0,  the inverse degree
  broadcast along the row and the bias along the column. So block `t` of the output is rows `2000 t …` of
  ONE whole-array function of the four arrays, and the 25 blocks tile the output array.
  Everything is stated at a parameter `V`: the buffer contents the region is entered from.
-/
import proofs.«403191_j78168404787866_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Gen.Epi3

open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the layer's output: the aggregated message plus the node's own feature scaled by its inverse
    degree, plus the bias of column `q`, clamped below at zero. -/
abbrev G (agg h : S50000x64.Idx → EReal) (d : S50000x1.Idx → EReal) (b : S1x64.Idx → EReal) : S50000x64.Idx → EReal :=
  fun i => max ((agg i + h i * d (ix2 ⟨(i 0).val, idx2_lt0 i⟩ 0)) + b (ix2 0 ⟨(i 1).val, idx2_lt1 i⟩)) (Ideal.ofBits .f32 0x00000000#32)

/-- The body's one stored value at a block index. -/
theorem pay_apply (x0 x1 : Vec Ideal S2000x64 .f32) (x2 : Vec Ideal S2000x1 .f32) (x3 : Vec Ideal S1x64 .f32) (j : S2000x64.Idx) :
    k3_pay1 x0 x1 x2 x3 j = max ((x0 j + x1 j * x2 (ix2 ⟨(j 0).val, idx2_lt0 j⟩ 0)) + x3 (ix2 0 ⟨(j 1).val, idx2_lt1 j⟩)) (Ideal.ofBits .f32 0x00000000#32) := by
  unfold k3_pay1
  dsimp only
  simp only [shapeCast_self]
  show max ((x0 j + x1 j * broadcastTo S2000x64 x2 broadcasts_S2000x1_S2000x64 j) + broadcastTo S2000x64 x3 broadcasts_S1x64_S2000x64 j) _ = _
  rw [broadcastTo_apply x2 broadcasts_S2000x1_S2000x64 j (ix2 ⟨(j 0).val, idx2_lt0 j⟩ 0) (fun a => by
        match a with
        | ⟨0, _⟩ => rfl
        | ⟨1, _⟩ => rfl),
      broadcastTo_apply x3 broadcasts_S1x64_S2000x64 j (ix2 0 ⟨(j 1).val, idx2_lt1 j⟩) (fun a => by
        match a with
        | ⟨0, _⟩ => rfl
        | ⟨1, _⟩ => rfl)]
  rfl

/-! ## The windows' blocks as rows of the arrays -/

/-- The printed index maps over the grid: the three row-blocked inputs and the output sit at block row `t`, the
    bias window at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The message block at point `t`, at local (r, q), is the message array at (2000 t + r, q). -/
theorem aggblk_apply (c : Dev nD) (t : Fin cfg3.N) (y : S2000x64.Idx) (i : S50000x64.Idx)
    (h0 : (i 0).val = t.val * 2000 + (y 0).val) (h1 : (i 1).val = (y 1).val) :
    (iblk3 V c 0 t : Vec Ideal S2000x64 .f32) y = (V c main_v54 : S50000x64.Idx → EReal) i := by
  obtain ⟨e0, e1, -⟩ := idx_facts t
  unfold iblk3
  rw [View.read_apply]
  show V c main_v54 _ = V c main_v54 _
  refine congrArg _ (funext fun a => Fin.ext ?_)
  match a with
  | ⟨0, _⟩ => show win3_0.index t (0 : Fin 2) * 2000 + 1 * (y 0).val = (i 0).val; rw [e0, h0]; omega
  | ⟨1, _⟩ => show win3_0.index t (1 : Fin 2) * 64 + 1 * (y 1).val = (i 1).val; rw [e1, h1]; omega

/-- The feature block at point `t`, at local (r, q), is the feature array at (2000 t + r, q). -/
theorem hblk_apply (c : Dev nD) (t : Fin cfg3.N) (y : S2000x64.Idx) (i : S50000x64.Idx)
    (h0 : (i 0).val = t.val * 2000 + (y 0).val) (h1 : (i 1).val = (y 1).val) :
    (iblk3 V c 1 t : Vec Ideal S2000x64 .f32) y = (V c main_v47 : S50000x64.Idx → EReal) i := by
  obtain ⟨-, -, e0, e1, -⟩ := idx_facts t
  unfold iblk3
  rw [View.read_apply]
  show V c main_v47 _ = V c main_v47 _
  refine congrArg _ (funext fun a => Fin.ext ?_)
  match a with
  | ⟨0, _⟩ => show win3_1.index t (0 : Fin 2) * 2000 + 1 * (y 0).val = (i 0).val; rw [e0, h0]; omega
  | ⟨1, _⟩ => show win3_1.index t (1 : Fin 2) * 64 + 1 * (y 1).val = (i 1).val; rw [e1, h1]; omega

/-- The inverse-degree block at point `t`, at local (r, 0), is the column at (2000 t + r, 0). -/
theorem dblk_apply (c : Dev nD) (t : Fin cfg3.N) (y : S2000x1.Idx) (i : S50000x1.Idx)
    (h0 : (i 0).val = t.val * 2000 + (y 0).val) (h1 : (i 1).val = (y 1).val) :
    (iblk3 V c 2 t : Vec Ideal S2000x1 .f32) y = (V c main_v36 : S50000x1.Idx → EReal) i := by
  obtain ⟨-, -, -, -, e0, e1, -⟩ := idx_facts t
  unfold iblk3
  rw [View.read_apply]
  show V c main_v36 _ = V c main_v36 _
  refine congrArg _ (funext fun a => Fin.ext ?_)
  match a with
  | ⟨0, _⟩ => show win3_2.index t (0 : Fin 2) * 2000 + 1 * (y 0).val = (i 0).val; rw [e0, h0]; omega
  | ⟨1, _⟩ => show win3_2.index t (1 : Fin 2) * 1 + 1 * (y 1).val = (i 1).val; rw [e1, h1]; omega

/-- The bias block at every point is the whole bias row. -/
theorem bblk_apply (c : Dev nD) (t : Fin cfg3.N) (y : S1x64.Idx) :
    (iblk3 V c 3 t : Vec Ideal S1x64 .f32) y = (V c main_v55 : S1x64.Idx → EReal) y := by
  obtain ⟨-, -, -, -, -, -, e0, e1, -⟩ := idx_facts t
  unfold iblk3
  rw [View.read_apply]
  show V c main_v55 _ = V c main_v55 _
  refine congrArg _ (funext fun a => Fin.ext ?_)
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega

/-! ## What a point writes back, the cover, the array after the run -/

/-- What point `t` writes back is block `t` of the layer's output function of the arrays as the region finds them. -/
theorem flushed_eq (c : Dev nD) (t : Fin cfg3.N) :
    (dat3 V c).flushed 4 t = ((cfg3.win 4).blk t).view.read (Elt Ideal) (G (V c main_v54) (V c main_v47) (V c main_v36) (V c main_v55)) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S1x64) hz]
  funext j
  obtain ⟨-, -, -, -, -, -, -, -, e8, e9⟩ := idx_facts t
  show k3_pay1 (iblk3 V c 0 t) (iblk3 V c 1 t) (iblk3 V c 2 t) (iblk3 V c 3 t) j = G (V c main_v54) (V c main_v47) (V c main_v36) (V c main_v55) (((cfg3.win 4).blk t).view.emb j)
  rw [pay_apply]
  have hr : ((((cfg3.win 4).blk t).view.emb j) 0).val = t.val * 2000 + (j 0).val := by
    show win3_4.index t (0 : Fin 2) * 2000 + 1 * (j 0).val = _; rw [e8]; omega
  have hq : ((((cfg3.win 4).blk t).view.emb j) 1).val = (j 1).val := by
    show win3_4.index t (1 : Fin 2) * 64 + 1 * (j 1).val = _; rw [e9]; omega
  show max ((_ + _ * _) + _) _ = max ((_ + _ * _) + _) _
  refine congrArg₂ max (congrArg₂ (· + ·) (congrArg₂ (· + ·) (aggblk_apply V c t _ _ hr hq)
    (congrArg₂ (· * ·) (hblk_apply V c t _ _ hr hq) (dblk_apply V c t _ _ hr rfl)))
    ((bblk_apply V c t _).trans (congrArg _ (funext fun a => Fin.ext ?_)))) rfl
  match a with
  | ⟨0, _⟩ => rfl
  | ⟨1, _⟩ => exact hq.symm

/-- An index of the output array is in point `t`'s block iff each coordinate is in the block's range on its axis. -/
theorem mem_blk (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v56).slice (win3_4.rect t)).set ↔ _
  rw [View.set_slice_whole, Rect.mem_set_unit]
  exact Iff.rfl

/-- Row `r` of the output lies in the block of point `r / 2000`. -/
theorem cover (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 25 := N_3
  let t : Fin cfg3.N := ⟨(i 0).val / 2000, by rw [hN]; omega⟩
  obtain ⟨-, -, -, -, -, -, -, -, e8, e9⟩ := idx_facts t
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000
              rw [e8]; show (i 0).val / 2000 * 2000 ≤ (i 0).val ∧ (i 0).val < (i 0).val / 2000 * 2000 + 2000; omega
  | ⟨1, _⟩ => show win3_4.index t (1 : Fin 2) * 64 ≤ (i 1).val ∧ (i 1).val < win3_4.index t (1 : Fin 2) * 64 + 64
              rw [e9]; omega

/-- The output array after the region: the layer's output function of the four arrays as the region finds them. -/
theorem final (c : Dev nD) : (dat3 V c).arrAt 4 cfg3.N = G (V c main_v54) (V c main_v47) (V c main_v36) (V c main_v55) :=
  (dat3 V c).arrAt_eq_of_cover 4 (G (V c main_v54) (V c main_v47) (V c main_v36) (V c main_v55)) (fun t _ => flushed_eq V c t) cover

end Cert.KernelIdeal.Gen.Epi3

end
-- ==== Proof.Epi5.lean ====
/-
  The third layer's epilogue pallas_call, read as a value: a grid of 25 points, point `t` taking rows
  `2000 t … 2000 t + 1999` of the aggregated messages, of the transformed features and of the column of
  inverse degrees, and the whole bias row, and writing the same rows of the output. The body is pointwise:
  entry (r, q) of the output is  max ((agg (r, q) + h (r, q) · d (r, 0)) + b (0, q)) 0,  the inverse degree
  broadcast along the row and the bias along the column. So block `t` of the output is rows `2000 t …` of
  ONE whole-array function of the four arrays, and the 25 blocks tile the output array.
  Everything is stated at a parameter `V`: the buffer contents the region is entered from.
-/
import proofs.«403191_j78168404787866_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Gen.Epi5

open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the layer's output: the aggregated message plus the node's own feature scaled by its inverse
    degree, plus the bias of column `q`, clamped below at zero. -/
abbrev G (agg h : S50000x32.Idx → EReal) (d : S50000x1.Idx → EReal) (b : S1x32.Idx → EReal) : S50000x32.Idx → EReal :=
  fun i => max ((agg i + h i * d (ix2 ⟨(i 0).val, idx2_lt0 i⟩ 0)) + b (ix2 0 ⟨(i 1).val, idx2_lt1 i⟩)) (Ideal.ofBits .f32 0x00000000#32)

/-- The body's one stored value at a block index. -/
theorem pay_apply (x0 x1 : Vec Ideal S2000x32 .f32) (x2 : Vec Ideal S2000x1 .f32) (x3 : Vec Ideal S1x32 .f32) (j : S2000x32.Idx) :
    k5_pay1 x0 x1 x2 x3 j = max ((x0 j + x1 j * x2 (ix2 ⟨(j 0).val, idx2_lt0 j⟩ 0)) + x3 (ix2 0 ⟨(j 1).val, idx2_lt1 j⟩)) (Ideal.ofBits .f32 0x00000000#32) := by
  unfold k5_pay1
  dsimp only
  simp only [shapeCast_self]
  show max ((x0 j + x1 j * broadcastTo S2000x32 x2 broadcasts_S2000x1_S2000x32 j) + broadcastTo S2000x32 x3 broadcasts_S1x32_S2000x32 j) _ = _
  rw [broadcastTo_apply x2 broadcasts_S2000x1_S2000x32 j (ix2 ⟨(j 0).val, idx2_lt0 j⟩ 0) (fun a => by
        match a with
        | ⟨0, _⟩ => rfl
        | ⟨1, _⟩ => rfl),
      broadcastTo_apply x3 broadcasts_S1x32_S2000x32 j (ix2 0 ⟨(j 1).val, idx2_lt1 j⟩) (fun a => by
        match a with
        | ⟨0, _⟩ => rfl
        | ⟨1, _⟩ => rfl)]
  rfl

/-! ## The windows' blocks as rows of the arrays -/

/-- The printed index maps over the grid: the three row-blocked inputs and the output sit at block row `t`, the
    bias window at block (0, 0). -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The message block at point `t`, at local (r, q), is the message array at (2000 t + r, q). -/
theorem aggblk_apply (c : Dev nD) (t : Fin cfg5.N) (y : S2000x32.Idx) (i : S50000x32.Idx)
    (h0 : (i 0).val = t.val * 2000 + (y 0).val) (h1 : (i 1).val = (y 1).val) :
    (iblk5 V c 0 t : Vec Ideal S2000x32 .f32) y = (V c main_v64 : S50000x32.Idx → EReal) i := by
  obtain ⟨e0, e1, -⟩ := idx_facts t
  unfold iblk5
  rw [View.read_apply]
  show V c main_v64 _ = V c main_v64 _
  refine congrArg _ (funext fun a => Fin.ext ?_)
  match a with
  | ⟨0, _⟩ => show win5_0.index t (0 : Fin 2) * 2000 + 1 * (y 0).val = (i 0).val; rw [e0, h0]; omega
  | ⟨1, _⟩ => show win5_0.index t (1 : Fin 2) * 32 + 1 * (y 1).val = (i 1).val; rw [e1, h1]; omega

/-- The feature block at point `t`, at local (r, q), is the feature array at (2000 t + r, q). -/
theorem hblk_apply (c : Dev nD) (t : Fin cfg5.N) (y : S2000x32.Idx) (i : S50000x32.Idx)
    (h0 : (i 0).val = t.val * 2000 + (y 0).val) (h1 : (i 1).val = (y 1).val) :
    (iblk5 V c 1 t : Vec Ideal S2000x32 .f32) y = (V c main_v57 : S50000x32.Idx → EReal) i := by
  obtain ⟨-, -, e0, e1, -⟩ := idx_facts t
  unfold iblk5
  rw [View.read_apply]
  show V c main_v57 _ = V c main_v57 _
  refine congrArg _ (funext fun a => Fin.ext ?_)
  match a with
  | ⟨0, _⟩ => show win5_1.index t (0 : Fin 2) * 2000 + 1 * (y 0).val = (i 0).val; rw [e0, h0]; omega
  | ⟨1, _⟩ => show win5_1.index t (1 : Fin 2) * 32 + 1 * (y 1).val = (i 1).val; rw [e1, h1]; omega

/-- The inverse-degree block at point `t`, at local (r, 0), is the column at (2000 t + r, 0). -/
theorem dblk_apply (c : Dev nD) (t : Fin cfg5.N) (y : S2000x1.Idx) (i : S50000x1.Idx)
    (h0 : (i 0).val = t.val * 2000 + (y 0).val) (h1 : (i 1).val = (y 1).val) :
    (iblk5 V c 2 t : Vec Ideal S2000x1 .f32) y = (V c main_v36 : S50000x1.Idx → EReal) i := by
  obtain ⟨-, -, -, -, e0, e1, -⟩ := idx_facts t
  unfold iblk5
  rw [View.read_apply]
  show V c main_v36 _ = V c main_v36 _
  refine congrArg _ (funext fun a => Fin.ext ?_)
  match a with
  | ⟨0, _⟩ => show win5_2.index t (0 : Fin 2) * 2000 + 1 * (y 0).val = (i 0).val; rw [e0, h0]; omega
  | ⟨1, _⟩ => show win5_2.index t (1 : Fin 2) * 1 + 1 * (y 1).val = (i 1).val; rw [e1, h1]; omega

/-- The bias block at every point is the whole bias row. -/
theorem bblk_apply (c : Dev nD) (t : Fin cfg5.N) (y : S1x32.Idx) :
    (iblk5 V c 3 t : Vec Ideal S1x32 .f32) y = (V c main_v65 : S1x32.Idx → EReal) y := by
  obtain ⟨-, -, -, -, -, -, e0, e1, -⟩ := idx_facts t
  unfold iblk5
  rw [View.read_apply]
  show V c main_v65 _ = V c main_v65 _
  refine congrArg _ (funext fun a => Fin.ext ?_)
  match a with
  | ⟨0, _⟩ => show win5_3.index t (0 : Fin 2) * 1 + 1 * (y 0).val = (y 0).val; rw [e0]; omega
  | ⟨1, _⟩ => show win5_3.index t (1 : Fin 2) * 32 + 1 * (y 1).val = (y 1).val; rw [e1]; omega

/-! ## What a point writes back, the cover, the array after the run -/

/-- What point `t` writes back is block `t` of the layer's output function of the arrays as the region finds them. -/
theorem flushed_eq (c : Dev nD) (t : Fin cfg5.N) :
    (dat5 V c).flushed 4 t = ((cfg5.win 4).blk t).view.read (Elt Ideal) (G (V c main_v64) (V c main_v57) (V c main_v36) (V c main_v65)) := by
  show (cfg5.win 4).cut (grid5.coords t) ((dat5 V c).after 4 t) = _
  rw [after5_4]
  unfold out5_4
  rw [View.canon_unit_zero hz]
  simp only [View.ld_unit_zero (S := S2000x32) hz, View.ld_unit_zero (S := S2000x1) hz, View.ld_unit_zero (S := S1x32) hz]
  funext j
  obtain ⟨-, -, -, -, -, -, -, -, e8, e9⟩ := idx_facts t
  show k5_pay1 (iblk5 V c 0 t) (iblk5 V c 1 t) (iblk5 V c 2 t) (iblk5 V c 3 t) j = G (V c main_v64) (V c main_v57) (V c main_v36) (V c main_v65) (((cfg5.win 4).blk t).view.emb j)
  rw [pay_apply]
  have hr : ((((cfg5.win 4).blk t).view.emb j) 0).val = t.val * 2000 + (j 0).val := by
    show win5_4.index t (0 : Fin 2) * 2000 + 1 * (j 0).val = _; rw [e8]; omega
  have hq : ((((cfg5.win 4).blk t).view.emb j) 1).val = (j 1).val := by
    show win5_4.index t (1 : Fin 2) * 32 + 1 * (j 1).val = _; rw [e9]; omega
  show max ((_ + _ * _) + _) _ = max ((_ + _ * _) + _) _
  refine congrArg₂ max (congrArg₂ (· + ·) (congrArg₂ (· + ·) (aggblk_apply V c t _ _ hr hq)
    (congrArg₂ (· * ·) (hblk_apply V c t _ _ hr hq) (dblk_apply V c t _ _ hr rfl)))
    ((bblk_apply V c t _).trans (congrArg _ (funext fun a => Fin.ext ?_)))) rfl
  match a with
  | ⟨0, _⟩ => rfl
  | ⟨1, _⟩ => exact hq.symm

/-- An index of the output array is in point `t`'s block iff each coordinate is in the block's range on its axis. -/
theorem mem_blk (t : Fin cfg5.N) (i : S50000x32.Idx) :
    i ∈ ((cfg5.win 4).blk t).view.set ↔ ∀ a : Fin 2, win5_4.index t a * S2000x32.size a ≤ (i a).val ∧ (i a).val < win5_4.index t a * S2000x32.size a + S2000x32.size a := by
  show i ∈ ((View.whole main_v66).slice (win5_4.rect t)).set ↔ _
  rw [View.set_slice_whole, Rect.mem_set_unit]
  exact Iff.rfl

/-- Row `r` of the output lies in the block of point `r / 2000`. -/
theorem cover (i : S50000x32.Idx) : ∃ t : Fin cfg5.N, (cfg5.win 4).flush t = true ∧ i ∈ ((cfg5.win 4).blk t).view.set := by
  have hi0 : (i 0).val < 50000 := (i 0).isLt
  have hi1 : (i 1).val < 32 := (i 1).isLt
  have hN : cfg5.N = 25 := N_5
  let t : Fin cfg5.N := ⟨(i 0).val / 2000, by rw [hN]; omega⟩
  obtain ⟨-, -, -, -, -, -, -, -, e8, e9⟩ := idx_facts t
  refine ⟨t, flush5_4 t, ?_⟩
  rw [mem_blk]
  intro a
  match a with
  | ⟨0, _⟩ => show win5_4.index t (0 : Fin 2) * 2000 ≤ (i 0).val ∧ (i 0).val < win5_4.index t (0 : Fin 2) * 2000 + 2000
              rw [e8]; show (i 0).val / 2000 * 2000 ≤ (i 0).val ∧ (i 0).val < (i 0).val / 2000 * 2000 + 2000; omega
  | ⟨1, _⟩ => show win5_4.index t (1 : Fin 2) * 32 ≤ (i 1).val ∧ (i 1).val < win5_4.index t (1 : Fin 2) * 32 + 32
              rw [e9]; omega

/-- The output array after the region: the layer's output function of the four arrays as the region finds them. -/
theorem final (c : Dev nD) : (dat5 V c).arrAt 4 cfg5.N = G (V c main_v64) (V c main_v57) (V c main_v36) (V c main_v65) :=
  (dat5 V c).arrAt_eq_of_cover 4 (G (V c main_v64) (V c main_v57) (V c main_v36) (V c main_v65)) (fun t _ => flushed_eq V c t) cover

end Cert.KernelIdeal.Gen.Epi5

end
-- ==== Proof.Fin6.lean ====
/-
  The last pallas_call, read as a value: a grid of ONE point whose four windows are each the whole of their
  array (block (0, 0) of a one-block tiling). The body loads the pooled features, the weight matrix and the
  bias row, multiplies the first two in the matrix unit into a zero accumulator and adds the bias row,
  broadcast down the rows. Over the extended reals the change of float format on the way into the matrix unit
  is the identity and the unit's product into a zero accumulator is the plain sum over the shared axis, so the
  one block written back is ONE whole-array function: entry (r, q) is the sum over k of p (r, k) · w (k, q),
  plus b (0, q). The one block is the whole output array, so the array ends holding that function.
  Everything is stated at a parameter `V`: the buffer contents the region is entered from.
-/
import proofs.«403191_j78168404787866_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen.Fin6

open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the affine map: row `r` of `p` against column `q` of `w`, summed over the shared axis, plus
    entry `q` of the one bias row. -/
abbrev G (p : S64x32.Idx → EReal) (w : S32x768.Idx → EReal) (b : S1x768.Idx → EReal) : S64x768.Idx → EReal :=
  fun i => (∑ k : Fin 32, p (ix2 ⟨(i 0).val, idx2_lt0 i⟩ k) * w (ix2 k ⟨(i 1).val, idx2_lt1 i⟩)) + b (ix2 0 ⟨(i 1).val, idx2_lt1 i⟩)

/-! ## The matrix unit's operand indices, axis by axis -/

theorem lhs_0 (i : S64x768.Idx) (q : dot_S64x32_S32x768_S64x768_1_0_0_1_n_n.contr.Idx) : (dot_S64x32_S32x768_S64x768_1_0_0_1_n_n.lhsIdx i q 0).val = (i 0).val := by
  unfold DotDims.lhsIdx
  rw [dif_neg (show ¬(0 : Fin S64x32.rank) ∈ dot_S64x32_S32x768_S64x768_1_0_0_1_n_n.lhsBatch by decide), dif_pos (show (0 : Fin S64x32.rank) ∈ dot_S64x32_S32x768_S64x768_1_0_0_1_n_n.lhsNonContracting by decide)]
  rfl
theorem lhs_1 (i : S64x768.Idx) (q : dot_S64x32_S32x768_S64x768_1_0_0_1_n_n.contr.Idx) : (dot_S64x32_S32x768_S64x768_1_0_0_1_n_n.lhsIdx i q 1).val = (q ⟨0, by decide⟩).val :=
  dot_S64x32_S32x768_S64x768_1_0_0_1_n_n.lhsIdx_val_of_single rfl i q
theorem rhs_0 (i : S64x768.Idx) (q : dot_S64x32_S32x768_S64x768_1_0_0_1_n_n.contr.Idx) : (dot_S64x32_S32x768_S64x768_1_0_0_1_n_n.rhsIdx i q 0).val = (q ⟨0, by decide⟩).val :=
  dot_S64x32_S32x768_S64x768_1_0_0_1_n_n.rhsIdx_val_of_single rfl i q
theorem rhs_1 (i : S64x768.Idx) (q : dot_S64x32_S32x768_S64x768_1_0_0_1_n_n.contr.Idx) : (dot_S64x32_S32x768_S64x768_1_0_0_1_n_n.rhsIdx i q 1).val = (i 1).val := by
  unfold DotDims.rhsIdx
  rw [dif_neg (show ¬(1 : Fin S32x768.rank) ∈ dot_S64x32_S32x768_S64x768_1_0_0_1_n_n.rhsBatch by decide), dif_pos (show (1 : Fin S32x768.rank) ∈ dot_S64x32_S32x768_S64x768_1_0_0_1_n_n.rhsNonContracting by decide)]
  rfl

/-! ## The payload at an index -/

/-- The matrix unit's part of the payload: the sum over the shared axis of the two loaded blocks. -/
theorem mm_apply (x0 : Vec Ideal S64x32 .f32) (x1 : Vec Ideal S32x768 .f32) (j : S64x768.Idx) :
    FloatOps.matmul dot_S64x32_S32x768_S64x768_1_0_0_1_n_n none (truncf .bf16 x0 bitsLt_bf16_f32 : FVec Ideal S64x32 .bf16) (truncf .bf16 x1 bitsLt_bf16_f32 : FVec Ideal S32x768 .bf16)
        (constant S64x768 .f32 0x00000000#32) j
      = ∑ k : Fin 32, x0 (ix2 ⟨(j 0).val, idx2_lt0 j⟩ k) * x1 (ix2 k ⟨(j 1).val, idx2_lt1 j⟩) := by
  refine (Ideal.matmul_constant_zero_apply dot_S64x32_S32x768_S64x768_1_0_0_1_n_n none _ _ j).trans ?_
  rw [← Equiv.sum_comp (contrEquiv1 dot_S64x32_S32x768_S64x768_1_0_0_1_n_n 32 rfl rfl).symm]
  refine Finset.sum_congr rfl fun k _ => ?_
  have hk := contrEquiv1_symm_val dot_S64x32_S32x768_S64x768_1_0_0_1_n_n 32 rfl rfl k
  have el : dot_S64x32_S32x768_S64x768_1_0_0_1_n_n.lhsIdx j ((contrEquiv1 dot_S64x32_S32x768_S64x768_1_0_0_1_n_n 32 rfl rfl).symm k) = ix2 ⟨(j 0).val, idx2_lt0 j⟩ k := funext fun a => Fin.ext (by
    match a with
    | ⟨0, _⟩ => exact lhs_0 _ _
    | ⟨1, _⟩ => exact (lhs_1 _ _).trans hk)
  have er : dot_S64x32_S32x768_S64x768_1_0_0_1_n_n.rhsIdx j ((contrEquiv1 dot_S64x32_S32x768_S64x768_1_0_0_1_n_n 32 rfl rfl).symm k) = ix2 k ⟨(j 1).val, idx2_lt1 j⟩ := funext fun a => Fin.ext (by
    match a with
    | ⟨0, _⟩ => exact (rhs_0 _ _).trans hk
    | ⟨1, _⟩ => exact rhs_1 _ _)
  rw [el, er]
  rfl

/-- The bias row broadcast down the 64 rows, read at (r, q), is the row's entry q. -/
theorem bias_apply (x2 : Vec Ideal S1x768 .f32) (j : S64x768.Idx) :
    broadcastTo S64x768 x2 broadcasts_S1x768_S64x768 j = x2 (ix2 0 ⟨(j 1).val, idx2_lt1 j⟩) :=
  (congrArg (broadcastTo S64x768 x2 broadcasts_S1x768_S64x768) (eq_ix2 j)).trans
    (broadcastTo_1b_ab_apply x2 broadcasts_S1x768_S64x768 (j 0) (j 1))

/-- The body's one stored value at a block index: the product's entry plus the bias row's. -/
theorem pay_apply (x0 : Vec Ideal S64x32 .f32) (x1 : Vec Ideal S32x768 .f32) (x2 : Vec Ideal S1x768 .f32) (j : S64x768.Idx) :
    k6_pay1 x0 x1 x2 j = (∑ k : Fin 32, x0 (ix2 ⟨(j 0).val, idx2_lt0 j⟩ k) * x1 (ix2 k ⟨(j 1).val, idx2_lt1 j⟩)) + x2 (ix2 0 ⟨(j 1).val, idx2_lt1 j⟩) := by
  unfold k6_pay1
  dsimp only
  simp only [shapeCast_self]
  rw [addf_apply]
  exact congrArg₂ (· + ·) (mm_apply x0 x1 j) (bias_apply x2 j)

/-! ## The windows' blocks: each is the whole of its array -/

/-- The printed index maps over the grid: every window sits at block (0, 0). -/
theorem idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The pooled-feature block is the whole pooled-feature array. -/
theorem pblk_apply (c : Dev nD) (t : Fin cfg6.N) (y : S64x32.Idx) :
    (iblk6 V c 0 t : Vec Ideal S64x32 .f32) y = (V c main_v78 : S64x32.Idx → EReal) y := by
  obtain ⟨e0, e1, -, -, -, -, -, -⟩ := idx_facts t
  unfold iblk6
  rw [View.read_apply]
  show V c main_v78 _ = V c main_v78 _
  refine congrArg _ (funext fun a => Fin.ext ?_)
  match a with
  | ⟨0, _⟩ => show win6_0.index t (0 : Fin 2) * 64 + 1 * (y 0).val = (y 0).val; rw [e0]; omega
  | ⟨1, _⟩ => show win6_0.index t (1 : Fin 2) * 32 + 1 * (y 1).val = (y 1).val; rw [e1]; omega

/-- The weight block is the whole weight array. -/
theorem wblk_apply (c : Dev nD) (t : Fin cfg6.N) (y : S32x768.Idx) :
    (iblk6 V c 1 t : Vec Ideal S32x768 .f32) y = (V c main_arg10 : S32x768.Idx → EReal) y := by
  obtain ⟨-, -, e2, e3, -, -, -, -⟩ := idx_facts t
  unfold iblk6
  rw [View.read_apply]
  show V c main_arg10 _ = V c main_arg10 _
  refine congrArg _ (funext fun a => Fin.ext ?_)
  match a with
  | ⟨0, _⟩ => show win6_1.index t (0 : Fin 2) * 32 + 1 * (y 0).val = (y 0).val; rw [e2]; omega
  | ⟨1, _⟩ => show win6_1.index t (1 : Fin 2) * 768 + 1 * (y 1).val = (y 1).val; rw [e3]; omega

/-- The bias block is the whole one-row bias array. -/
theorem bblk_apply (c : Dev nD) (t : Fin cfg6.N) (y : S1x768.Idx) :
    (iblk6 V c 2 t : Vec Ideal S1x768 .f32) y = (V c main_v79 : S1x768.Idx → EReal) y := by
  obtain ⟨-, -, -, -, e4, e5, -, -⟩ := idx_facts t
  unfold iblk6
  rw [View.read_apply]
  show V c main_v79 _ = V c main_v79 _
  refine congrArg _ (funext fun a => Fin.ext ?_)
  match a with
  | ⟨0, _⟩ => show win6_2.index t (0 : Fin 2) * 1 + 1 * (y 0).val = (y 0).val; rw [e4]; omega
  | ⟨1, _⟩ => show win6_2.index t (1 : Fin 2) * 768 + 1 * (y 1).val = (y 1).val; rw [e5]; omega

/-! ## What the point writes back, the cover, the array after the run -/

/-- A local index of the output block names the same entry of the output array. -/
theorem emb_out (t : Fin cfg6.N) (j : S64x768.Idx) : ((cfg6.win 3).blk t).view.emb j = j := by
  obtain ⟨-, -, -, -, -, -, e6, e7⟩ := idx_facts t
  refine funext fun a => Fin.ext ?_
  match a with
  | ⟨0, _⟩ => show win6_3.index t (0 : Fin 2) * 64 + 1 * (j 0).val = (j 0).val; rw [e6]; omega
  | ⟨1, _⟩ => show win6_3.index t (1 : Fin 2) * 768 + 1 * (j 1).val = (j 1).val; rw [e7]; omega

/-- What the point writes back is the affine map of the arrays as the region finds them, as one block. -/
theorem flushed_eq (c : Dev nD) (t : Fin cfg6.N) :
    (dat6 V c).flushed 3 t = ((cfg6.win 3).blk t).view.read (Elt Ideal) (G (V c main_v78) (V c main_arg10) (V c main_v79)) := by
  show (cfg6.win 3).cut (grid6.coords t) ((dat6 V c).after 3 t) = _
  rw [after6_3]
  unfold out6_3
  rw [View.canon_unit_zero hz]
  simp only [View.ld_unit_zero (S := S64x32) hz, View.ld_unit_zero (S := S32x768) hz, View.ld_unit_zero (S := S1x768) hz]
  funext j
  show k6_pay1 (iblk6 V c 0 t) (iblk6 V c 1 t) (iblk6 V c 2 t) j = G (V c main_v78) (V c main_arg10) (V c main_v79) (((cfg6.win 3).blk t).view.emb j)
  rw [emb_out t j, pay_apply]
  show (∑ k : Fin 32, _) + _ = (∑ k : Fin 32, _) + _
  exact congrArg₂ (· + ·) (Finset.sum_congr rfl fun k _ => congrArg₂ (· * ·) (pblk_apply V c t _) (wblk_apply V c t _)) (bblk_apply V c t _)

/-- An index of the output array is in the point's block iff each coordinate is in the block's range on its axis. -/
theorem mem_blk (t : Fin cfg6.N) (i : S64x768.Idx) :
    i ∈ ((cfg6.win 3).blk t).view.set ↔ ∀ a : Fin 2, win6_3.index t a * S64x768.size a ≤ (i a).val ∧ (i a).val < win6_3.index t a * S64x768.size a + S64x768.size a := by
  show i ∈ ((View.whole main_v80).slice (win6_3.rect t)).set ↔ _
  rw [View.set_slice_whole, Rect.mem_set_unit]
  exact Iff.rfl

/-- Every index of the output lies in the block of the one grid point. -/
theorem cover (i : S64x768.Idx) : ∃ t : Fin cfg6.N, (cfg6.win 3).flush t = true ∧ i ∈ ((cfg6.win 3).blk t).view.set := by
  have hi0 : (i 0).val < 64 := idx2_lt0 i
  have hi1 : (i 1).val < 768 := idx2_lt1 i
  obtain ⟨-, -, -, -, -, -, e6, e7⟩ := idx_facts t6_0
  refine ⟨t6_0, flush6_3 t6_0, ?_⟩
  rw [mem_blk]
  intro a
  match a with
  | ⟨0, _⟩ => show win6_3.index t6_0 (0 : Fin 2) * 64 ≤ (i 0).val ∧ (i 0).val < win6_3.index t6_0 (0 : Fin 2) * 64 + 64
              rw [e6]; omega
  | ⟨1, _⟩ => show win6_3.index t6_0 (1 : Fin 2) * 768 ≤ (i 1).val ∧ (i 1).val < win6_3.index t6_0 (1 : Fin 2) * 768 + 768
              rw [e7]; omega

/-- The output array after the region: the affine map of the three arrays as the region finds them. -/
theorem final (c : Dev nD) : (dat6 V c).arrAt 3 cfg6.N = G (V c main_v78) (V c main_arg10) (V c main_v79) :=
  (dat6 V c).arrAt_eq_of_cover 3 (G (V c main_v78) (V c main_arg10) (V c main_v79)) (fun t _ => flushed_eq V c t) cover

end Cert.KernelIdeal.Gen.Fin6

end
-- ==== Proof.Bridges.lean ====
/-
  The kernel's seven regions and the reference's host operations compute the same whole-array functions.
  Each region's output is known as one function of the arrays it was entered with, written with a sum over the
  shared axis and pointwise operations on extended reals. The reference computes the same array as a chain of
  host operations: a general dot product with one contracting axis, or a chain of broadcasts, products, sums
  and a maximum with zero. Each equation below says the two agree at every index, over variables: a general
  dot product read at (r, q) is the sum over k of x (r, k) · w (k, q) once its contraction index is identified
  with its one coordinate; a vector broadcast down the columns reads its entry at the row, one broadcast along
  the rows reads its entry at the column, a bias passed as a one-row array reads the same entry, and a splat
  constant reads its value everywhere.
-/
import proofs.«403191_j78168404787866_1_alg».proof.Proof.Lin0
import proofs.«403191_j78168404787866_1_alg».proof.Proof.Lin2
import proofs.«403191_j78168404787866_1_alg».proof.Proof.Lin4
import proofs.«403191_j78168404787866_1_alg».proof.Proof.Epi1
import proofs.«403191_j78168404787866_1_alg».proof.Proof.Epi3
import proofs.«403191_j78168404787866_1_alg».proof.Proof.Epi5
import proofs.«403191_j78168404787866_1_alg».proof.Proof.Fin6
import proofs.«403191_j78168404787866_1_alg».proof.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.Bridges

open Idealize.ShloMosaic
open Idealize.ShloMosaic.ValueIdx
open Cert.KernelIdeal (S50000x128 S128x128 S128x64 S50000x64 S64x32 S50000x32 S64x768 S32x768 S768 S1x768
  S50000 S50000x1 S128 S1x128 S64 S1x64 S32 S1x32 S_)

variable [Cert.ReferenceIdeal.Facts]

/-! ## Broadcasts read at an index -/

section Reads
variable {α : Type}

/-- A vector laid down a one-column array reads, at (r, u), its entry r. -/
theorem col_apply {n : Nat} (h₁ : (⟨1, ![n]⟩ : Shape).BroadcastsInDim ⟨2, ![n, 1]⟩ ![0])
    (v : (⟨1, ![n]⟩ : Shape).Idx → α) (r : Fin n) (u : Fin 1) :
    broadcastInDim ⟨2, ![n, 1]⟩ ![0] h₁ v (ix2 r u) = v (ix1 r) :=
  broadcastInDim_apply ![0] h₁ v (ix2 r u) (ix1 r) (fun a => by
    match a with
    | ⟨0, _⟩ =>
      show r.val = if n = 1 then 0 else r.val
      have := r.isLt
      split
      · omega
      · rfl)

/-- A vector broadcast down the columns of an [n × m] array (first to one column, then across) reads, at (r, q),
    its entry r. -/
theorem rows_apply {n m : Nat} (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → α)
    (i : (⟨2, ![n, m]⟩ : Shape).Idx) :
    broadcastInDim ⟨2, ![n, m]⟩ ![0, 1] h₂ (broadcastInDim ⟨2, ![n, 1]⟩ ![0] h₁ v) i = v (ix1 ⟨(i 0).val, idx2_lt0 i⟩) := by
  rw [broadcastInDim_apply ![0, 1] h₂ _ i (ix2 ⟨(i 0).val, idx2_lt0 i⟩ (0 : Fin 1)) (fun a => by
    match a with
    | ⟨0, _⟩ =>
      show (i 0).val = if n = 1 then 0 else (i 0).val
      have := idx2_lt0 i
      split
      · omega
      · rfl
    | ⟨1, _⟩ => exact (if_pos rfl).symm)]
  exact col_apply h₁ v ⟨(i 0).val, idx2_lt0 i⟩ (0 : Fin 1)

/-- A vector broadcast along the rows of an [n × m] array (first to one row, then down) reads, at (r, q), its
    entry q. -/
theorem cols_apply {n m : Nat} (h₁ : (⟨1, ![m]⟩ : Shape).BroadcastsInDim ⟨2, ![1, m]⟩ ![1])
    (h₂ : (⟨2, ![1, m]⟩ : Shape).BroadcastsInDim ⟨2, ![n, m]⟩ ![0, 1]) (v : (⟨1, ![m]⟩ : Shape).Idx → α)
    (i : (⟨2, ![n, m]⟩ : Shape).Idx) :
    broadcastInDim ⟨2, ![n, m]⟩ ![0, 1] h₂ (broadcastInDim ⟨2, ![1, m]⟩ ![1] h₁ v) i = v (ix1 ⟨(i 1).val, idx2_lt1 i⟩) := by
  rw [broadcastInDim_apply ![0, 1] h₂ _ i (ix2 (0 : Fin 1) ⟨(i 1).val, idx2_lt1 i⟩) (fun a => by
    match a with
    | ⟨0, _⟩ => exact (if_pos rfl).symm
    | ⟨1, _⟩ =>
      show (i 1).val = if m = 1 then 0 else (i 1).val
      have := idx2_lt1 i
      split
      · omega
      · rfl)]
  exact broadcastInDim_apply ![1] h₁ v (ix2 (0 : Fin 1) ⟨(i 1).val, idx2_lt1 i⟩) (ix1 ⟨(i 1).val, idx2_lt1 i⟩) (fun a => by
    match a with
    | ⟨0, _⟩ =>
      show (i 1).val = if m = 1 then 0 else (i 1).val
      have := idx2_lt1 i
      split
      · omega
      · rfl)

end Reads

/-! ## The first layer's product -/

section L0

theorem l0_lhs_0 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch from List.not_mem_nil),
    dif_pos (show (0 : Fin S50000x128.rank) ∈ Cert.ReferenceIdeal.dot_S50000x128_S128x128_S50000x128_1_0_0_1_n_n.lhsNonContracting from List.mem_singleton.mpr rfl)]
  rfl
theorem l0_lhs_1 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, Nat.one_pos⟩).val :=
  Cert.ReferenceIdeal.dot_S50000x128_S128x128_S50000x128_1_0_0_1_n_n.lhsIdx_val_of_single rfl i q
theorem l0_rhs_0 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, Nat.one_pos⟩).val :=
  Cert.ReferenceIdeal.dot_S50000x128_S128x128_S50000x128_1_0_0_1_n_n.rhsIdx_val_of_single rfl i q
theorem l0_rhs_1 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch from List.not_mem_nil),
    dif_pos (show (1 : Fin S128x128.rank) ∈ Cert.ReferenceIdeal.dot_S50000x128_S128x128_S50000x128_1_0_0_1_n_n.rhsNonContracting from List.mem_singleton.mpr rfl)]
  rfl

/-- The reference's product of the node features with the first weight matrix is, at (r, q), the sum over k of
    x (r, k) · w (k, q). -/
theorem lin0 (x : S50000x128.Idx → EReal) (w : S128x128.Idx → EReal) :
    Cert.KernelIdeal.Gen.Lin0.G x w
      = Host.dotGeneral (F := Ideal) (φ₁ := .f32) (φ₂ := .f32) Cert.ReferenceIdeal.dot_S50000x128_S128x128_S50000x128_1_0_0_1_n_n none x w := by
  funext i
  refine Eq.symm ((Ideal.dotGeneral_apply (φ₁ := .f32) (φ₂ := .f32) Cert.ReferenceIdeal.dot_S50000x128_S128x128_S50000x128_1_0_0_1_n_n none .single x w i).trans ?_)
  rw [← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i
      ((contrEquiv1 Cert.ReferenceIdeal.dot_S50000x128_S128x128_S50000x128_1_0_0_1_n_n 128 rfl rfl).symm k)
      = ix2 ⟨(i 0).val, idx2_lt0 i⟩ k := funext fun a => Fin.ext (by
    match a with
    | ⟨0, _⟩ => exact l0_lhs_0 _ _
    | ⟨1, _⟩ => exact (l0_lhs_1 _ _).trans hk)
  have er : Cert.ReferenceIdeal.dot_S50000x128_S128x128_S50000x128_1_0_0_1_n_n.rhsIdx i
      ((contrEquiv1 Cert.ReferenceIdeal.dot_S50000x128_S128x128_S50000x128_1_0_0_1_n_n 128 rfl rfl).symm k)
      = ix2 k ⟨(i 1).val, idx2_lt1 i⟩ := funext fun a => Fin.ext (by
    match a with
    | ⟨0, _⟩ => exact (l0_rhs_0 _ _).trans hk
    | ⟨1, _⟩ => exact l0_rhs_1 _ _)
  rw [el, er]

end L0

/-! ## The first layer's epilogue -/

/-- The reference's chain after the first aggregation — the node's own feature times its inverse degree broadcast
    down the columns, added to the aggregate, plus the bias broadcast along the rows, clamped below at zero — is the
    region's function, whose inverse degree arrives as the same one-column array and whose bias as a one-row array. -/
theorem epi1 (agg h : S50000x128.Idx → EReal) (d1 : S50000.Idx → EReal) (b1 : S128.Idx → EReal) :
    Cert.KernelIdeal.Gen.Epi1.G agg h
        (broadcastInDim S50000x1 ![0] Cert.KernelIdeal.Facts₀.bcast_S50000_S50000x1_0 d1)
        (shapeCast S1x128 b1 Cert.KernelIdeal.Facts₀.shapeCasts_S128_S1x128)
      = maximumf
          (addf
            (addf agg (mulf h (broadcastInDim S50000x128 ![0, 1] Cert.ReferenceIdeal.Facts₀.bcast_S50000x1_S50000x128_0_1
              (broadcastInDim S50000x1 ![0] Cert.ReferenceIdeal.Facts₀.bcast_S50000_S50000x1_0 d1))))
            (broadcastInDim S50000x128 ![0, 1] Cert.ReferenceIdeal.Facts₀.bcast_S1x128_S50000x128_0_1
              (broadcastInDim S1x128 ![1] Cert.ReferenceIdeal.Facts₀.bcast_S128_S1x128_1 b1)))
          (broadcastInDim S50000x128 ![] Cert.ReferenceIdeal.Facts₀.bcast_S_S50000x128 (constant (F := Ideal) S_ .f32 0x00000000#32)) := by
  funext i
  have e1 := col_apply Cert.KernelIdeal.Facts₀.bcast_S50000_S50000x1_0 d1 ⟨(i 0).val, idx2_lt0 i⟩ 0
  have e2 := shapeCast_a_1a_apply b1 Cert.KernelIdeal.Facts₀.shapeCasts_S128_S1x128 0 ⟨(i 1).val, idx2_lt1 i⟩
  have e3 := rows_apply Cert.ReferenceIdeal.Facts₀.bcast_S50000_S50000x1_0 Cert.ReferenceIdeal.Facts₀.bcast_S50000x1_S50000x128_0_1 d1 i
  have e4 := cols_apply Cert.ReferenceIdeal.Facts₀.bcast_S128_S1x128_1 Cert.ReferenceIdeal.Facts₀.bcast_S1x128_S50000x128_0_1 b1 i
  show max ((agg i + h i * broadcastInDim S50000x1 ![0] Cert.KernelIdeal.Facts₀.bcast_S50000_S50000x1_0 d1 (ix2 ⟨(i 0).val, idx2_lt0 i⟩ 0))
        + shapeCast S1x128 b1 Cert.KernelIdeal.Facts₀.shapeCasts_S128_S1x128 (ix2 0 ⟨(i 1).val, idx2_lt1 i⟩)) (Ideal.ofBits .f32 0x00000000#32)
      = max ((agg i + h i * broadcastInDim S50000x128 ![0, 1] Cert.ReferenceIdeal.Facts₀.bcast_S50000x1_S50000x128_0_1
              (broadcastInDim S50000x1 ![0] Cert.ReferenceIdeal.Facts₀.bcast_S50000_S50000x1_0 d1) i)
        + broadcastInDim S50000x128 ![0, 1] Cert.ReferenceIdeal.Facts₀.bcast_S1x128_S50000x128_0_1
              (broadcastInDim S1x128 ![1] Cert.ReferenceIdeal.Facts₀.bcast_S128_S1x128_1 b1) i) (Ideal.ofBits .f32 0x00000000#32)
  rw [e1, e2, e3, e4]

/-! ## The second layer's product -/

section L2

theorem l2_lhs_0 (i : S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin S50000x128.rank) ∈ Cert.ReferenceIdeal.dot_S50000x128_S128x64_S50000x64_1_0_0_1_n_n.lhsBatch from List.not_mem_nil),
    dif_pos (show (0 : Fin S50000x128.rank) ∈ Cert.ReferenceIdeal.dot_S50000x128_S128x64_S50000x64_1_0_0_1_n_n.lhsNonContracting from List.mem_singleton.mpr rfl)]
  rfl
theorem l2_lhs_1 (i : S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, Nat.one_pos⟩).val :=
  Cert.ReferenceIdeal.dot_S50000x128_S128x64_S50000x64_1_0_0_1_n_n.lhsIdx_val_of_single rfl i q
theorem l2_rhs_0 (i : S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, Nat.one_pos⟩).val :=
  Cert.ReferenceIdeal.dot_S50000x128_S128x64_S50000x64_1_0_0_1_n_n.rhsIdx_val_of_single rfl i q
theorem l2_rhs_1 (i : S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin S128x64.rank) ∈ Cert.ReferenceIdeal.dot_S50000x128_S128x64_S50000x64_1_0_0_1_n_n.rhsBatch from List.not_mem_nil),
    dif_pos (show (1 : Fin S128x64.rank) ∈ Cert.ReferenceIdeal.dot_S50000x128_S128x64_S50000x64_1_0_0_1_n_n.rhsNonContracting from List.mem_singleton.mpr rfl)]
  rfl

/-- The reference's product of the first layer's output with the second weight matrix is, at (r, q), the sum over
    k of x (r, k) · w (k, q). -/
theorem lin2 (x : S50000x128.Idx → EReal) (w : S128x64.Idx → EReal) :
    Cert.KernelIdeal.Gen.Lin2.G x w
      = Host.dotGeneral (F := Ideal) (φ₁ := .f32) (φ₂ := .f32) Cert.ReferenceIdeal.dot_S50000x128_S128x64_S50000x64_1_0_0_1_n_n none x w := by
  funext i
  refine Eq.symm ((Ideal.dotGeneral_apply (φ₁ := .f32) (φ₂ := .f32) Cert.ReferenceIdeal.dot_S50000x128_S128x64_S50000x64_1_0_0_1_n_n none .single x w i).trans ?_)
  rw [← Equiv.sum_comp (contrEquiv1 Cert.ReferenceIdeal.dot_S50000x128_S128x64_S50000x64_1_0_0_1_n_n 128 rfl rfl).symm]
  refine Finset.sum_congr rfl fun k _ => ?_
  have hk := contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i
      ((contrEquiv1 Cert.ReferenceIdeal.dot_S50000x128_S128x64_S50000x64_1_0_0_1_n_n 128 rfl rfl).symm k)
      = ix2 ⟨(i 0).val, idx2_lt0 i⟩ k := funext fun a => Fin.ext (by
    match a with
    | ⟨0, _⟩ => exact l2_lhs_0 _ _
    | ⟨1, _⟩ => exact (l2_lhs_1 _ _).trans hk)
  have er : Cert.ReferenceIdeal.dot_S50000x128_S128x64_S50000x64_1_0_0_1_n_n.rhsIdx i
      ((contrEquiv1 Cert.ReferenceIdeal.dot_S50000x128_S128x64_S50000x64_1_0_0_1_n_n 128 rfl rfl).symm k)
      = ix2 k ⟨(i 1).val, idx2_lt1 i⟩ := funext fun a => Fin.ext (by
    match a with
    | ⟨0, _⟩ => exact (l2_rhs_0 _ _).trans hk
    | ⟨1, _⟩ => exact l2_rhs_1 _ _)
  rw [el, er]

end L2

/-! ## The second layer's epilogue -/

/-- The same chain at 64 features. -/
theorem epi3 (agg h : S50000x64.Idx → EReal) (d1 : S50000.Idx → EReal) (b1 : S64.Idx → EReal) :
    Cert.KernelIdeal.Gen.Epi3.G agg h
        (broadcastInDim S50000x1 ![0] Cert.KernelIdeal.Facts₀.bcast_S50000_S50000x1_0 d1)
        (shapeCast S1x64 b1 Cert.KernelIdeal.Facts₀.shapeCasts_S64_S1x64)
      = maximumf
          (addf
            (addf agg (mulf h (broadcastInDim S50000x64 ![0, 1] Cert.ReferenceIdeal.Facts₀.bcast_S50000x1_S50000x64_0_1
              (broadcastInDim S50000x1 ![0] Cert.ReferenceIdeal.Facts₀.bcast_S50000_S50000x1_0 d1))))
            (broadcastInDim S50000x64 ![0, 1] Cert.ReferenceIdeal.Facts₀.bcast_S1x64_S50000x64_0_1
              (broadcastInDim S1x64 ![1] Cert.ReferenceIdeal.Facts₀.bcast_S64_S1x64_1 b1)))
          (broadcastInDim S50000x64 ![] Cert.ReferenceIdeal.Facts₀.bcast_S_S50000x64 (constant (F := Ideal) S_ .f32 0x00000000#32)) := by
  funext i
  have e1 := col_apply Cert.KernelIdeal.Facts₀.bcast_S50000_S50000x1_0 d1 ⟨(i 0).val, idx2_lt0 i⟩ 0
  have e2 := shapeCast_a_1a_apply b1 Cert.KernelIdeal.Facts₀.shapeCasts_S64_S1x64 0 ⟨(i 1).val, idx2_lt1 i⟩
  have e3 := rows_apply Cert.ReferenceIdeal.Facts₀.bcast_S50000_S50000x1_0 Cert.ReferenceIdeal.Facts₀.bcast_S50000x1_S50000x64_0_1 d1 i
  have e4 := cols_apply Cert.ReferenceIdeal.Facts₀.bcast_S64_S1x64_1 Cert.ReferenceIdeal.Facts₀.bcast_S1x64_S50000x64_0_1 b1 i
  show max ((agg i + h i * broadcastInDim S50000x1 ![0] Cert.KernelIdeal.Facts₀.bcast_S50000_S50000x1_0 d1 (ix2 ⟨(i 0).val, idx2_lt0 i⟩ 0))
        + shapeCast S1x64 b1 Cert.KernelIdeal.Facts₀.shapeCasts_S64_S1x64 (ix2 0 ⟨(i 1).val, idx2_lt1 i⟩)) (Ideal.ofBits .f32 0x00000000#32)
      = max ((agg i + h i * broadcastInDim S50000x64 ![0, 1] Cert.ReferenceIdeal.Facts₀.bcast_S50000x1_S50000x64_0_1
              (broadcastInDim S50000x1 ![0] Cert.ReferenceIdeal.Facts₀.bcast_S50000_S50000x1_0 d1) i)
        + broadcastInDim S50000x64 ![0, 1] Cert.ReferenceIdeal.Facts₀.bcast_S1x64_S50000x64_0_1
              (broadcastInDim S1x64 ![1] Cert.ReferenceIdeal.Facts₀.bcast_S64_S1x64_1 b1) i) (Ideal.ofBits .f32 0x00000000#32)
  rw [e1, e2, e3, e4]

/-! ## The third layer's product -/

section L4

theorem l4_lhs_0 (i : S50000x32.Idx) (q : Cert.ReferenceIdeal.dot_S50000x64_S64x32_S50000x32_1_0_0_1_n_n.contr.Idx) :
    (Cert.ReferenceIdeal.dot_S50000x64_S64x32_S50000x32_1_0_0_1_n_n.lhsIdx i q 0).val = (i 0).val := by
  unfold DotDims.lhsIdx
  rw [dif_neg (show ¬(0 : Fin S50000x64.rank) ∈ Cert.ReferenceIdeal.dot_S50000x64_S64x32_S50000x32_1_0_0_1_n_n.lhsBatch from List.not_mem_nil),
    dif_pos (show (0 : Fin S50000x64.rank) ∈ Cert.ReferenceIdeal.dot_S50000x64_S64x32_S50000x32_1_0_0_1_n_n.lhsNonContracting from List.mem_singleton.mpr rfl)]
  rfl
theorem l4_lhs_1 (i : S50000x32.Idx) (q : Cert.ReferenceIdeal.dot_S50000x64_S64x32_S50000x32_1_0_0_1_n_n.contr.Idx) :
    (Cert.ReferenceIdeal.dot_S50000x64_S64x32_S50000x32_1_0_0_1_n_n.lhsIdx i q 1).val = (q ⟨0, Nat.one_pos⟩).val :=
  Cert.ReferenceIdeal.dot_S50000x64_S64x32_S50000x32_1_0_0_1_n_n.lhsIdx_val_of_single rfl i q
theorem l4_rhs_0 (i : S50000x32.Idx) (q : Cert.ReferenceIdeal.dot_S50000x64_S64x32_S50000x32_1_0_0_1_n_n.contr.Idx) :
    (Cert.ReferenceIdeal.dot_S50000x64_S64x32_S50000x32_1_0_0_1_n_n.rhsIdx i q 0).val = (q ⟨0, Nat.one_pos⟩).val :=
  Cert.ReferenceIdeal.dot_S50000x64_S64x32_S50000x32_1_0_0_1_n_n.rhsIdx_val_of_single rfl i q
theorem l4_rhs_1 (i : S50000x32.Idx) (q : Cert.ReferenceIdeal.dot_S50000x64_S64x32_S50000x32_1_0_0_1_n_n.contr.Idx) :
    (Cert.ReferenceIdeal.dot_S50000x64_S64x32_S50000x32_1_0_0_1_n_n.rhsIdx i q 1).val = (i 1).val := by
  unfold DotDims.rhsIdx
  rw [dif_neg (show ¬(1 : Fin S64x32.rank) ∈ Cert.ReferenceIdeal.dot_S50000x64_S64x32_S50000x32_1_0_0_1_n_n.rhsBatch from List.not_mem_nil),
    dif_pos (show (1 : Fin S64x32.rank) ∈ Cert.ReferenceIdeal.dot_S50000x64_S64x32_S50000x32_1_0_0_1_n_n.rhsNonContracting from List.mem_singleton.mpr rfl)]
  rfl

/-- The reference's product of the second layer's output with the third weight matrix is, at (r, q), the sum over
    k of x (r, k) · w (k, q). -/
theorem lin4 (x : S50000x64.Idx → EReal) (w : S64x32.Idx → EReal) :
    Cert.KernelIdeal.Gen.Lin4.G x w
      = Host.dotGeneral (F := Ideal) (φ₁ := .f32) (φ₂ := .f32) Cert.ReferenceIdeal.dot_S50000x64_S64x32_S50000x32_1_0_0_1_n_n none x w := by
  funext i
  refine Eq.symm ((Ideal.dotGeneral_apply (φ₁ := .f32) (φ₂ := .f32) Cert.ReferenceIdeal.dot_S50000x64_S64x32_S50000x32_1_0_0_1_n_n none .single x w i).trans ?_)
  rw [← Equiv.sum_comp (contrEquiv1 Cert.ReferenceIdeal.dot_S50000x64_S64x32_S50000x32_1_0_0_1_n_n 64 rfl rfl).symm]
  refine Finset.sum_congr rfl fun k _ => ?_
  have hk := contrEquiv1_symm_val Cert.ReferenceIdeal.dot_S50000x64_S64x32_S50000x32_1_0_0_1_n_n 64 rfl rfl k
  have el : Cert.ReferenceIdeal.dot_S50000x64_S64x32_S50000x32_1_0_0_1_n_n.lhsIdx i
      ((contrEquiv1 Cert.ReferenceIdeal.dot_S50000x64_S64x32_S50000x32_1_0_0_1_n_n 64 rfl rfl).symm k)
      = ix2 ⟨(i 0).val, idx2_lt0 i⟩ k := funext fun a => Fin.ext (by
    match a with
    | ⟨0, _⟩ => exact l4_lhs_0 _ _
    | ⟨1, _⟩ => exact (l4_lhs_1 _ _).trans hk)
  have er : Cert.ReferenceIdeal.dot_S50000x64_S64x32_S50000x32_1_0_0_1_n_n.rhsIdx i
      ((contrEquiv1 Cert.ReferenceIdeal.dot_S50000x64_S64x32_S50000x32_1_0_0_1_n_n 64 rfl rfl).symm k)
      = ix2 k ⟨(i 1).val, idx2_lt1 i⟩ := funext fun a => Fin.ext (by
    match a with
    | ⟨0, _⟩ => exact (l4_rhs_0 _ _).trans hk
    | ⟨1, _⟩ => exact l4_rhs_1 _ _)
  rw [el, er]

end L4

/-! ## The third layer's epilogue -/

/-- The same chain at 32 features. -/
theorem epi5 (agg h : S50000x32.Idx → EReal) (d1 : S50000.Idx → EReal) (b1 : S32.Idx → EReal) :
    Cert.KernelIdeal.Gen.Epi5.G agg h
        (broadcastInDim S50000x1 ![0] Cert.KernelIdeal.Facts₀.bcast_S50000_S50000x1_0 d1)
        (shapeCast S1x32 b1 Cert.KernelIdeal.Facts₀.shapeCasts_S32_S1x32)
      = maximumf
          (addf
            (addf agg (mulf h (broadcastInDim S50000x32 ![0, 1] Cert.ReferenceIdeal.Facts₀.bcast_S50000x1_S50000x32_0_1
              (broadcastInDim S50000x1 ![0] Cert.ReferenceIdeal.Facts₀.bcast_S50000_S50000x1_0 d1))))
            (broadcastInDim S50000x32 ![0, 1] Cert.ReferenceIdeal.Facts₀.bcast_S1x32_S50000x32_0_1
              (broadcastInDim S1x32 ![1] Cert.ReferenceIdeal.Facts₀.bcast_S32_S1x32_1 b1)))
          (broadcastInDim S50000x32 ![] Cert.ReferenceIdeal.Facts₀.bcast_S_S50000x32 (constant (F := Ideal) S_ .f32 0x00000000#32)) := by
  funext i
  have e1 := col_apply Cert.KernelIdeal.Facts₀.bcast_S50000_S50000x1_0 d1 ⟨(i 0).val, idx2_lt0 i⟩ 0
  have e2 := shapeCast_a_1a_apply b1 Cert.KernelIdeal.Facts₀.shapeCasts_S32_S1x32 0 ⟨(i 1).val, idx2_lt1 i⟩
  have e3 := rows_apply Cert.ReferenceIdeal.Facts₀.bcast_S50000_S50000x1_0 Cert.ReferenceIdeal.Facts₀.bcast_S50000x1_S50000x32_0_1 d1 i
  have e4 := cols_apply Cert.ReferenceIdeal.Facts₀.bcast_S32_S1x32_1 Cert.ReferenceIdeal.Facts₀.bcast_S1x32_S50000x32_0_1 b1 i
  show max ((agg i + h i * broadcastInDim S50000x1 ![0] Cert.KernelIdeal.Facts₀.bcast_S50000_S50000x1_0 d1 (ix2 ⟨(i 0).val, idx2_lt0 i⟩ 0))
        + shapeCast S1x32 b1 Cert.KernelIdeal.Facts₀.shapeCasts_S32_S1x32 (ix2 0 ⟨(i 1).val, idx2_lt1 i⟩)) (Ideal.ofBits .f32 0x00000000#32)
      = max ((agg i + h i * broadcastInDim S50000x32 ![0, 1] Cert.ReferenceIdeal.Facts₀.bcast_S50000x1_S50000x32_0_1
              (broadcastInDim S50000x1 ![0] Cert.ReferenceIdeal.Facts₀.bcast_S50000_S50000x1_0 d1) i)
        + broadcastInDim S50000x32 ![0, 1] Cert.ReferenceIdeal.Facts₀.bcast_S1x32_S50000x32_0_1
              (broadcastInDim S1x32 ![1] Cert.ReferenceIdeal.Facts₀.bcast_S32_S1x32_1 b1) i) (Ideal.ofBits .f32 0x00000000#32)
  rw [e1, e2, e3, e4]

/-! ## The last affine map -/

section F6

theorem f6_lhs_0 (i : S64x768.Idx) (q : Cert.ReferenceIdeal.dot_S64x32_S32x768_S64x768_1_0_0_1_n_n.contr.Idx) :
    (Cert.ReferenceIdeal.dot_S64x32_S32x768_S64x768_1_0_0_1_n_n.lhsIdx i q 0).val = (i 0).val := by
  unfold DotDims.lhsIdx
  rw [dif_neg (show ¬(0 : Fin S64x32.rank) ∈ Cert.ReferenceIdeal.dot_S64x32_S32x768_S64x768_1_0_0_1_n_n.lhsBatch from List.not_mem_nil),
    dif_pos (show (0 : Fin S64x32.rank) ∈ Cert.ReferenceIdeal.dot_S64x32_S32x768_S64x768_1_0_0_1_n_n.lhsNonContracting from List.mem_singleton.mpr rfl)]
  rfl
theorem f6_lhs_1 (i : S64x768.Idx) (q : Cert.ReferenceIdeal.dot_S64x32_S32x768_S64x768_1_0_0_1_n_n.contr.Idx) :
    (Cert.ReferenceIdeal.dot_S64x32_S32x768_S64x768_1_0_0_1_n_n.lhsIdx i q 1).val = (q ⟨0, Nat.one_pos⟩).val :=
  Cert.ReferenceIdeal.dot_S64x32_S32x768_S64x768_1_0_0_1_n_n.lhsIdx_val_of_single rfl i q
theorem f6_rhs_0 (i : S64x768.Idx) (q : Cert.ReferenceIdeal.dot_S64x32_S32x768_S64x768_1_0_0_1_n_n.contr.Idx) :
    (Cert.ReferenceIdeal.dot_S64x32_S32x768_S64x768_1_0_0_1_n_n.rhsIdx i q 0).val = (q ⟨0, Nat.one_pos⟩).val :=
  Cert.ReferenceIdeal.dot_S64x32_S32x768_S64x768_1_0_0_1_n_n.rhsIdx_val_of_single rfl i q
theorem f6_rhs_1 (i : S64x768.Idx) (q : Cert.ReferenceIdeal.dot_S64x32_S32x768_S64x768_1_0_0_1_n_n.contr.Idx) :
    (Cert.ReferenceIdeal.dot_S64x32_S32x768_S64x768_1_0_0_1_n_n.rhsIdx i q 1).val = (i 1).val := by
  unfold DotDims.rhsIdx
  rw [dif_neg (show ¬(1 : Fin S32x768.rank) ∈ Cert.ReferenceIdeal.dot_S64x32_S32x768_S64x768_1_0_0_1_n_n.rhsBatch from List.not_mem_nil),
    dif_pos (show (1 : Fin S32x768.rank) ∈ Cert.ReferenceIdeal.dot_S64x32_S32x768_S64x768_1_0_0_1_n_n.rhsNonContracting from List.mem_singleton.mpr rfl)]
  rfl

/-- The reference's last product plus the bias broadcast along the rows is, at (r, q), the sum over k of
    p (r, k) · w (k, q) plus entry q of the bias, which the region receives as a one-row array. -/
theorem fin6 (p : S64x32.Idx → EReal) (w : S32x768.Idx → EReal) (b1 : S768.Idx → EReal) :
    Cert.KernelIdeal.Gen.Fin6.G p w (shapeCast S1x768 b1 Cert.KernelIdeal.Facts₀.shapeCasts_S768_S1x768)
      = addf (Host.dotGeneral (F := Ideal) (φ₁ := .f32) (φ₂ := .f32) Cert.ReferenceIdeal.dot_S64x32_S32x768_S64x768_1_0_0_1_n_n none p w)
          (broadcastInDim S64x768 ![0, 1] Cert.ReferenceIdeal.Facts₀.bcast_S1x768_S64x768_0_1
            (broadcastInDim S1x768 ![1] Cert.ReferenceIdeal.Facts₀.bcast_S768_S1x768_1 b1)) := by
  funext i
  have e2 := shapeCast_a_1a_apply b1 Cert.KernelIdeal.Facts₀.shapeCasts_S768_S1x768 0 ⟨(i 1).val, idx2_lt1 i⟩
  have e4 := cols_apply Cert.ReferenceIdeal.Facts₀.bcast_S768_S1x768_1 Cert.ReferenceIdeal.Facts₀.bcast_S1x768_S64x768_0_1 b1 i
  have ed : Host.dotGeneral (F := Ideal) (φ₁ := .f32) (φ₂ := .f32) Cert.ReferenceIdeal.dot_S64x32_S32x768_S64x768_1_0_0_1_n_n none p w i
      = ∑ k : Fin 32, p (ix2 ⟨(i 0).val, idx2_lt0 i⟩ k) * w (ix2 k ⟨(i 1).val, idx2_lt1 i⟩) := by
    refine (Ideal.dotGeneral_apply (φ₁ := .f32) (φ₂ := .f32) Cert.ReferenceIdeal.dot_S64x32_S32x768_S64x768_1_0_0_1_n_n none .single p w i).trans ?_
    rw [← Equiv.sum_comp (contrEquiv1 Cert.ReferenceIdeal.dot_S64x32_S32x768_S64x768_1_0_0_1_n_n 32 rfl rfl).symm]
    refine Finset.sum_congr rfl fun k _ => ?_
    have hk := contrEquiv1_symm_val Cert.ReferenceIdeal.dot_S64x32_S32x768_S64x768_1_0_0_1_n_n 32 rfl rfl k
    have el : Cert.ReferenceIdeal.dot_S64x32_S32x768_S64x768_1_0_0_1_n_n.lhsIdx i
        ((contrEquiv1 Cert.ReferenceIdeal.dot_S64x32_S32x768_S64x768_1_0_0_1_n_n 32 rfl rfl).symm k)
        = ix2 ⟨(i 0).val, idx2_lt0 i⟩ k := funext fun a => Fin.ext (by
      match a with
      | ⟨0, _⟩ => exact f6_lhs_0 _ _
      | ⟨1, _⟩ => exact (f6_lhs_1 _ _).trans hk)
    have er : Cert.ReferenceIdeal.dot_S64x32_S32x768_S64x768_1_0_0_1_n_n.rhsIdx i
        ((contrEquiv1 Cert.ReferenceIdeal.dot_S64x32_S32x768_S64x768_1_0_0_1_n_n 32 rfl rfl).symm k)
        = ix2 k ⟨(i 1).val, idx2_lt1 i⟩ := funext fun a => Fin.ext (by
      match a with
      | ⟨0, _⟩ => exact (f6_rhs_0 _ _).trans hk
      | ⟨1, _⟩ => exact f6_rhs_1 _ _)
    rw [el, er]
  show (∑ k : Fin 32, p (ix2 ⟨(i 0).val, idx2_lt0 i⟩ k) * w (ix2 k ⟨(i 1).val, idx2_lt1 i⟩))
        + shapeCast S1x768 b1 Cert.KernelIdeal.Facts₀.shapeCasts_S768_S1x768 (ix2 0 ⟨(i 1).val, idx2_lt1 i⟩)
      = Host.dotGeneral (F := Ideal) (φ₁ := .f32) (φ₂ := .f32) Cert.ReferenceIdeal.dot_S64x32_S32x768_S64x768_1_0_0_1_n_n none p w i
        + broadcastInDim S64x768 ![0, 1] Cert.ReferenceIdeal.Facts₀.bcast_S1x768_S64x768_0_1
            (broadcastInDim S1x768 ![1] Cert.ReferenceIdeal.Facts₀.bcast_S768_S1x768_1 b1) i
  rw [e2, e4, ed]

end F6

end Cert.Proof.Bridges

end
-- ==== Proof.RefFacts.lean ====
/-
  Two families of equations about the reference's stages, read as functions of the edge-index array and of the
  edge weights.
  The reference wraps a possibly negative node number (where the entry is below zero it adds 50000) before each of
  its gathers and scatters; on a row of the edge-index array whose entries are node numbers, at least 0 and below
  50000, the wrapped row is the row itself.
  The reference also computes the weighted degree, the normalisation of the edge weights by the inverse square
  roots of the degrees at both ends of an edge, and the inverse degree once per layer, from the same two arguments
  by the same operations; the second and third copies are the first, term for term.
-/
import proofs.«403191_j78168404787866_1_alg».proof.Proof.Gen.ReferenceIdeal.Read
import proofs.«403191_j78168404787866_1_alg».proof.Proof.IdxFacts

noncomputable section

namespace Cert.Proof.RefFacts

open Idealize.ShloMosaic Cert.ReferenceIdeal.Read Cert.KernelIdeal.IdxFacts

/-! ## The wrapped index rows are the rows themselves

Each stage below is `select (row < 0) (row + 50000) row` over the source row or the destination row of the
edge-index array; where the row holds node numbers the comparison is false at every entry. -/

section Wrap

variable [Cert.KernelIdeal.Facts]

/-- The source row wrapped before the first layer's gather of features. -/
theorem wrap_v40 (x1 : (⟨Cert.ReferenceIdeal.S2x800000, .i32⟩ : BufTy).Contents (Elt Ideal)) (h : InRange (src x1)) : val_main_v40 (F := Ideal) x1 = src x1 :=
  wrap_eq (src x1) h
/-- The destination row wrapped before the first layer's scatter. -/
theorem wrap_v50 (x1 : (⟨Cert.ReferenceIdeal.S2x800000, .i32⟩ : BufTy).Contents (Elt Ideal)) (h : InRange (dst x1)) : val_main_v50 (F := Ideal) x1 = dst x1 :=
  wrap_eq (dst x1) h
/-- The source row wrapped before the second layer's gather. -/
theorem wrap_v96 (x1 : (⟨Cert.ReferenceIdeal.S2x800000, .i32⟩ : BufTy).Contents (Elt Ideal)) (h : InRange (src x1)) : val_main_v96 (F := Ideal) x1 = src x1 :=
  wrap_eq (src x1) h
/-- The destination row wrapped before the second layer's scatter. -/
theorem wrap_v106 (x1 : (⟨Cert.ReferenceIdeal.S2x800000, .i32⟩ : BufTy).Contents (Elt Ideal)) (h : InRange (dst x1)) : val_main_v106 (F := Ideal) x1 = dst x1 :=
  wrap_eq (dst x1) h
/-- The source row wrapped before the third layer's gather. -/
theorem wrap_v152 (x1 : (⟨Cert.ReferenceIdeal.S2x800000, .i32⟩ : BufTy).Contents (Elt Ideal)) (h : InRange (src x1)) : val_main_v152 (F := Ideal) x1 = src x1 :=
  wrap_eq (src x1) h
/-- The destination row wrapped before the third layer's scatter. -/
theorem wrap_v162 (x1 : (⟨Cert.ReferenceIdeal.S2x800000, .i32⟩ : BufTy).Contents (Elt Ideal)) (h : InRange (dst x1)) : val_main_v162 (F := Ideal) x1 = dst x1 :=
  wrap_eq (dst x1) h

end Wrap

/-! ## The per-layer copies of the edge normalisation and of the inverse degree are the first layer's

The second and third layers rebuild, from the edge-index array and the edge weights alone, the normalised edge
weight (the weight over its maximum, times the inverse square roots of the weighted degrees at the edge's two
ends) and the inverse of the weighted degree, by the same operations on the same constants as the first layer:
the terms coincide once the stage names are unfolded. -/

/-- The second layer's normalised edge weights are the first layer's. -/
theorem nrm_v90 (x1 : (⟨Cert.ReferenceIdeal.S2x800000, .i32⟩ : BufTy).Contents (Elt Ideal)) (x2 : (⟨Cert.ReferenceIdeal.S800000, .f32⟩ : BufTy).Contents (Elt Ideal)) : val_main_v90 (F := Ideal) x1 x2 = val_main_v34 (F := Ideal) x1 x2 := rfl
/-- The third layer's normalised edge weights are the first layer's. -/
theorem nrm_v146 (x1 : (⟨Cert.ReferenceIdeal.S2x800000, .i32⟩ : BufTy).Contents (Elt Ideal)) (x2 : (⟨Cert.ReferenceIdeal.S800000, .f32⟩ : BufTy).Contents (Elt Ideal)) : val_main_v146 (F := Ideal) x1 x2 = val_main_v34 (F := Ideal) x1 x2 := rfl
/-- The second layer's inverse degrees are the first layer's. -/
theorem inv_v110 (x1 : (⟨Cert.ReferenceIdeal.S2x800000, .i32⟩ : BufTy).Contents (Elt Ideal)) (x2 : (⟨Cert.ReferenceIdeal.S800000, .f32⟩ : BufTy).Contents (Elt Ideal)) : val_main_v110 (F := Ideal) x1 x2 = val_main_v54 (F := Ideal) x1 x2 := rfl
/-- The third layer's inverse degrees are the first layer's. -/
theorem inv_v166 (x1 : (⟨Cert.ReferenceIdeal.S2x800000, .i32⟩ : BufTy).Contents (Elt Ideal)) (x2 : (⟨Cert.ReferenceIdeal.S800000, .f32⟩ : BufTy).Contents (Elt Ideal)) : val_main_v166 (F := Ideal) x1 x2 = val_main_v54 (F := Ideal) x1 x2 := rfl

end Cert.Proof.RefFacts

end
-- ==== Proof.KV1.lean ====
/-
  What the first stretch of host operations leaves, named in the reference's own vocabulary. Before the first
  pallas_call both programs compute, by the same operations in the same order, the source and destination
  node of every edge (the two rows of the edge list), the edge weights over their maximum, the weighted
  in-degree plus one, its inverse square root gathered at both ends of every edge (the symmetric
  normalisation of an edge), and the inverse degree as a column. So each of these buffers holds the
  reference's stage of the same name, as a function of the launch contents of the two arguments it reads.
-/
import proofs.«403191_j78168404787866_1_alg».proof.Proof.Gen.KernelIdeal.Frame
import proofs.«403191_j78168404787866_1_alg».proof.Proof.Gen.ReferenceIdeal.Read
import Idealize.ShloMosaic.Lib.StableHlo.Run

set_option maxRecDepth 16384

noncomputable section

namespace Cert.KernelIdeal.Gen.KV

open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

set_option maxHeartbeats 4000000 in
/-- The source node of every edge: row 0 of the edge list. -/
theorem w1_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  rfl

set_option maxHeartbeats 4000000 in
/-- The destination node of every edge: row 1 of the edge list. -/
theorem w1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl

set_option maxHeartbeats 4000000 in
/-- The symmetric normalisation of every edge. -/
theorem w1_v33 (c : Dev nD) : W1 m ρ c (Proc.devRef .tc main_v33) = val_main_v34 (F := Ideal) (m ((c : Thread nD τ).loc main_arg1)) (m ((c : Thread nD τ).loc main_arg2)) := by
  show StableHlo.after hostOps0 (W0 m ρ c) (Proc.devRef .tc main_v33) = _
  after_results_simp
  rfl

set_option maxHeartbeats 4000000 in
/-- The inverse degree of every node, as a column. -/
theorem w1_v36 (c : Dev nD) : W1 m ρ c (Proc.devRef .tc main_v36) = val_main_v55 (F := Ideal) (m ((c : Thread nD τ).loc main_arg1)) (m ((c : Thread nD τ).loc main_arg2)) := by
  show StableHlo.after hostOps0 (W0 m ρ c) (Proc.devRef .tc main_v36) = _
  after_results_simp
  rfl

end Cert.KernelIdeal.Gen.KV

end
-- ==== Proof.KV2.lean ====
/-
  The first graph-convolution layer, boundary by boundary, in the reference's vocabulary. The layer's
  features are the product of the node features with the weight matrix (the first pallas_call); every edge
  takes its source node's row (jnp.take: in range, a plain gather), scales it by the edge's symmetric
  normalisation and adds it into its destination node's row (the host's scatter-add); the epilogue
  pallas_call adds the node's own features over its degree and the bias and clamps at zero. With every
  node index of the edge list in range, each buffer holds the reference's stage of the same meaning.
-/
import proofs.«403191_j78168404787866_1_alg».proof.Proof.Gen.KernelIdeal.Frame
import proofs.«403191_j78168404787866_1_alg».proof.Proof.Gen.ReferenceIdeal.Read
import proofs.«403191_j78168404787866_1_alg».proof.Proof.KCarry
import proofs.«403191_j78168404787866_1_alg».proof.Proof.IdxFacts
import proofs.«403191_j78168404787866_1_alg».proof.Proof.Bridges
import proofs.«403191_j78168404787866_1_alg».proof.Proof.RefFacts
import proofs.«403191_j78168404787866_1_alg».proof.Proof.Lin0
import proofs.«403191_j78168404787866_1_alg».proof.Proof.Epi1
import proofs.«403191_j78168404787866_1_alg».proof.Proof.KV1
import Idealize.ShloMosaic.Lib.StableHlo.Run

set_option maxRecDepth 16384

noncomputable section

namespace Cert.KernelIdeal.Gen.KV.L1

open Idealize.ShloMosaic Idealize.ShloMosaic.TcCoe Idealize.SL.Sem Idealize.ShloMosaic.StableHlo
open Cert.ReferenceIdeal.Read Cert.KernelIdeal.IdxFacts Cert.Proof

variable [Cert.KernelIdeal.Facts]
variable (m : (ℓ : Loc nD τ sig) → Buf (Elt Ideal) ℓ) (ρ : Dev nD → PrngReg)

theorem congr3 {α β γ δ : Sort _} (f : α → β → γ → δ) {a a' : α} {b b' : β} {c c' : γ} (h1 : a = a') (h2 : b = b') (h3 : c = c') :
    f a b c = f a' b' c' := by subst h1 h2 h3; rfl
theorem congr4 {α β γ δ ε : Sort _} (f : α → β → γ → δ → ε) {a a' : α} {b b' : β} {c c' : γ} {d d' : δ}
    (h1 : a = a') (h2 : b = b') (h3 : c = c') (h4 : d = d') : f a b c d = f a' b' c' d' := by subst h1 h2 h3 h4; rfl

/-- Contents carried to a typed reference's own buffer type and back are unchanged. -/
theorem ofBuf_toBuf : ∀ {T : BufTy} (x : StableHlo.TRef sig T) (v : T.Contents (Elt Ideal)), x.ofBuf (x.toBuf v) = v
  | _, ⟨_, rfl, _, _⟩, _ => rfl

/-! ## The printed forms of the two index-driven host steps -/

/-- The node index wrapped as jnp wraps a negative one. -/
abbrev wrapI (s : IVec S800000 32) : IVec S800000 32 :=
  select (cmpi .slt s (broadcastInDim S800000 ![] bcast_S_S800000 (constantI S_ 32 0#32))) (addi s (broadcastInDim S800000 ![] bcast_S_S800000 (constantI S_ 32 50000#32))) s

/-- jnp.take along the node axis as printed: the wrapped index, the gather of whole rows, the in-bounds mask
    reduced along its unit axis and broadcast along the row, and the fill where the mask is clear. -/
abbrev takeForm (h : FVec Ideal S50000x128 .f32) (s : IVec S800000 32) : FVec Ideal S800000x128 .f32 :=
  select (broadcastInDim S800000x128 ![0] bcast_S800000_S800000x128_0
      (Host.reduce IntOp.andi (andi (cmpi .sge (broadcastInDim S800000x1 ![0] bcast_S800000_S800000x1_0 (wrapI s)) (broadcastInDim S800000x1 ![] bcast_S_S800000x1 (constantI S_ 32 0#32)))
          (cmpi .sle (broadcastInDim S800000x1 ![0] bcast_S800000_S800000x1_0 (wrapI s)) (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 h (broadcastInDim S800000x1 ![0] bcast_S800000_S800000x1_0 (wrapI s)))
    (broadcastInDim S800000x128 ![] bcast_S_S800000x128 (constant (F := Ideal) S_ .f32 0x7FC00000#32))

/-- In range the wrap is the identity and the mask is all ones: the take is the plain gather. -/
theorem takeForm_eq (h : FVec Ideal S50000x128 .f32) (s : IVec S800000 32) (hs : InRange s) :
    takeForm h s = Host.gather gather_S50000x128_S800000x1_S800000x128_1_0_n_n_0_1_1128 h (broadcastInDim S800000x1 ![0] bcast_S800000_S800000x1_0 s) := by
  show select (broadcastInDim S800000x128 ![0] bcast_S800000_S800000x128_0
      (Host.reduce IntOp.andi (andi (cmpi .sge (broadcastInDim S800000x1 ![0] bcast_S800000_S800000x1_0 (wrapI s)) (broadcastInDim S800000x1 ![] bcast_S_S800000x1 (constantI S_ 32 0#32)))
          (cmpi .sle (broadcastInDim S800000x1 ![0] bcast_S800000_S800000x1_0 (wrapI s)) (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_)) _ _ = _
  rw [show wrapI s = s from wrap_eq s hs, mask_eq s hs, select_ones_128]

/-- The messages scattered onto their destination nodes, as printed: rows of `t` scaled by the edge
    normalisation `n`, added into a zero array at the rows `d` names. -/
abbrev aggForm (t : FVec Ideal S800000x128 .f32) (d : IVec S800000 32) (n : FVec Ideal S800000 .f32) : FVec Ideal S50000x128 .f32 :=
  Host.scatterAdd scatter_S50000x128_S800000x1_S800000x128_1_0_0_1 (broadcastInDim S50000x128 ![] bcast_S_S50000x128 (constant (F := Ideal) S_ .f32 0x00000000#32))
    (broadcastInDim S800000x1 ![0] bcast_S800000_S800000x1_0 d)
    (mulf t (broadcastInDim S800000x128 ![0, 1] bcast_S800000x1_S800000x128_0_1 (broadcastInDim S800000x1 ![0] bcast_S800000_S800000x1_0 n)))

/-! ## The layer, boundary by boundary -/

/-- The layer's transformed features: the product of the layer's input with its weight matrix. -/
theorem feat (c : Dev nD) : W2 m ρ c (Proc.devRef .tc main_v37) = val_main_v7 (F := Ideal) (m ((c : Thread nD τ).loc main_arg0)) (m ((c : Thread nD τ).loc main_arg4)) :=
  (W2_arr m ρ c 2).trans ((Lin0.final (V1 m ρ) c).trans
    ((congrArg₂ Lin0.G (Carry.arg0_at1 m ρ c) (Carry.arg4_at1 m ρ c)).trans ((Bridges.lin0 _ _).trans rfl)))

/-- A typed reference at its buffer's own type carries contents unchanged: at the source-index buffer, … -/
theorem ofBuf_src (V : Valuation τ sig (Elt Ideal)) :
    (StableHlo.TRef.of main_v1 : StableHlo.TRef sig ⟨S800000, .i32⟩).ofBuf (V (Proc.devRef .tc main_v1)) = V (Proc.devRef .tc main_v1) := rfl
/-- … at the feature buffer, … -/
theorem ofBuf_feat (V : Valuation τ sig (Elt Ideal)) :
    (StableHlo.TRef.of main_v37 : StableHlo.TRef sig ⟨S50000x128, .f32⟩).ofBuf (V (Proc.devRef .tc main_v37)) = V (Proc.devRef .tc main_v37) := rfl
/-- … and at the buffer the take writes. -/
theorem toBuf_take (v : FVec Ideal S800000x128 .f32) :
    (StableHlo.TRef.of main_v38 : StableHlo.TRef sig ⟨S800000x128, .f32⟩).toBuf (Val := Elt Ideal) v = v := rfl

set_option maxRecDepth 400000 in
set_option maxHeartbeats 4000000 in
/-- The take's stretch of host operations, from any contents `V`: its result is the printed take of the feature
    buffer at the source-index buffer. -/
theorem gath_stretch (V : Valuation τ sig (Elt Ideal)) :
    StableHlo.after hostOps1 V (Proc.devRef .tc main_v38) = takeForm (V (Proc.devRef .tc main_v37)) (V (Proc.devRef .tc main_v1)) := by
  after_results_simp
  simp only [ofBuf_toBuf, ofBuf_src, ofBuf_feat, toBuf_take] <;> rfl

/-- The features gathered at every edge's source node. -/
theorem gath (c : Dev nD) (hs : InRange (src (m ((c : Thread nD τ).loc main_arg1)))) : W3 m ρ c (Proc.devRef .tc main_v38) = val_main_v42 (F := Ideal) (m ((c : Thread nD τ).loc main_arg0)) (m ((c : Thread nD τ).loc main_arg1)) (m ((c : Thread nD τ).loc main_arg4)) := by
  have h1 : (W2 m ρ c (Proc.devRef .tc main_v1) : IVec S800000 32) = src (m ((c : Thread nD τ).loc main_arg1)) := ((Carry.v1_at2 m ρ c).trans (KV.w1_v1 m ρ c)).trans rfl
  have hH := feat m ρ c
  refine (gath_stretch (W2 m ρ c)).trans ?_
  refine (congrArg₂ takeForm hH h1).trans ((takeForm_eq _ _ hs).trans ?_)
  show _ = Host.gather Cert.ReferenceIdeal.gather_S50000x128_S800000x1_S800000x128_1_0_n_n_0_1_1128 (val_main_v7 (F := Ideal) (m ((c : Thread nD τ).loc main_arg0)) (m ((c : Thread nD τ).loc main_arg4))) (broadcastInDim S800000x1 ![0] _ (val_main_v40 (F := Ideal) (m ((c : Thread nD τ).loc main_arg1))))
  rw [RefFacts.wrap_v40 _ hs]
  rfl

set_option maxRecDepth 400000 in
set_option maxHeartbeats 4000000 in
/-- The scatter's stretch of host operations, from any contents `V`: the printed scatter-add of the taken rows. -/
theorem aggr_stretch (V : Valuation τ sig (Elt Ideal)) :
    StableHlo.after hostOps1_1 V (Proc.devRef .tc main_v44) = aggForm (V (Proc.devRef .tc main_v38)) (V (Proc.devRef .tc main_v3)) (V (Proc.devRef .tc main_v33)) := by
  after_results_simp <;> (try simp only [ofBuf_toBuf]) <;> rfl

/-- The messages summed at every node. -/
theorem aggr (c : Dev nD) (hs : InRange (src (m ((c : Thread nD τ).loc main_arg1)))) (hd : InRange (dst (m ((c : Thread nD τ).loc main_arg1)))) : W4 m ρ c (Proc.devRef .tc main_v44) = val_main_v52 (F := Ideal) (m ((c : Thread nD τ).loc main_arg0)) (m ((c : Thread nD τ).loc main_arg1)) (m ((c : Thread nD τ).loc main_arg2)) (m ((c : Thread nD τ).loc main_arg4)) := by
  have h3 : (W3 m ρ c (Proc.devRef .tc main_v3) : IVec S800000 32) = dst (m ((c : Thread nD τ).loc main_arg1)) := ((Carry.v3_at3 m ρ c).trans (KV.w1_v3 m ρ c)).trans rfl
  have h33 : W3 m ρ c (Proc.devRef .tc main_v33) = val_main_v34 (F := Ideal) (m ((c : Thread nD τ).loc main_arg1)) (m ((c : Thread nD τ).loc main_arg2)) := ((Carry.v33_at3 m ρ c).trans (KV.w1_v33 m ρ c))
  have hT := gath m ρ c hs
  refine (aggr_stretch (W3 m ρ c)).trans ?_
  refine (congr3 aggForm hT h3 h33).trans ?_
  unfold val_main_v52 val_main_v51
  rw [RefFacts.wrap_v50 _ hd]
  rfl

set_option maxRecDepth 400000 in
set_option maxHeartbeats 4000000 in
/-- The same stretch reshapes the bias vector into a row. -/
theorem bias_stretch (V : Valuation τ sig (Elt Ideal)) :
    StableHlo.after hostOps1_1 V (Proc.devRef .tc main_v45) = shapeCast S1x128 (V (Proc.devRef .tc main_arg5)) shapeCasts_S128_S1x128 := by
  after_results_simp <;> (try simp only [ofBuf_toBuf]) <;> rfl

/-- The bias as a row. -/
theorem bias (c : Dev nD) : W4 m ρ c (Proc.devRef .tc main_v45) = shapeCast S1x128 (m ((c : Thread nD τ).loc main_arg5)) shapeCasts_S128_S1x128 :=
  (bias_stretch (W3 m ρ c)).trans (congrArg (fun a => shapeCast S1x128 a shapeCasts_S128_S1x128) (Carry.arg5_at3 m ρ c))

/-- The layer's output: the reference's layer, clamped below at zero. -/
theorem outp (c : Dev nD) (hs : InRange (src (m ((c : Thread nD τ).loc main_arg1)))) (hd : InRange (dst (m ((c : Thread nD τ).loc main_arg1)))) : W5 m ρ c (Proc.devRef .tc main_v46) = val_main_v62 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  have hA : V4 m ρ c main_v44 = val_main_v52 (F := Ideal) (m ((c : Thread nD τ).loc main_arg0)) (m ((c : Thread nD τ).loc main_arg1)) (m ((c : Thread nD τ).loc main_arg2)) (m ((c : Thread nD τ).loc main_arg4)) := aggr m ρ c hs hd
  have hH : V4 m ρ c main_v37 = val_main_v7 (F := Ideal) (m ((c : Thread nD τ).loc main_arg0)) (m ((c : Thread nD τ).loc main_arg4)) := (Carry.v37_at4 m ρ c).trans (feat m ρ c)
  have hD : V4 m ρ c main_v36 = broadcastInDim S50000x1 ![0] bcast_S50000_S50000x1_0 (val_main_v54 (F := Ideal) (m ((c : Thread nD τ).loc main_arg1)) (m ((c : Thread nD τ).loc main_arg2))) :=
    ((Carry.v36_at4 m ρ c).trans (KV.w1_v36 m ρ c)).trans rfl
  have hB : V4 m ρ c main_v45 = shapeCast S1x128 (m ((c : Thread nD τ).loc main_arg5)) shapeCasts_S128_S1x128 := bias m ρ c
  refine (W5_arr m ρ c 4).trans ((Epi1.final (V4 m ρ) c).trans ?_)
  refine (congr4 Epi1.G hA hH hD hB).trans ((Bridges.epi1 _ _ _ _).trans ?_)
  rfl

end Cert.KernelIdeal.Gen.KV.L1

end
-- ==== Proof.KV3.lean ====
/-
  The second graph-convolution layer, boundary by boundary, in the vocabulary of the reference: the same steps
  as the first layer at width 64, from the output of the first layer. The reference recomputes the degree, the
  edge normalisation and the inverse degree for every layer; they are those of the first layer, term for term,
  and the kernel computes them once.
-/
import proofs.«403191_j78168404787866_1_alg».proof.Proof.Gen.KernelIdeal.Frame
import proofs.«403191_j78168404787866_1_alg».proof.Proof.Gen.ReferenceIdeal.Read
import proofs.«403191_j78168404787866_1_alg».proof.Proof.KCarry
import proofs.«403191_j78168404787866_1_alg».proof.Proof.IdxFacts
import proofs.«403191_j78168404787866_1_alg».proof.Proof.Bridges
import proofs.«403191_j78168404787866_1_alg».proof.Proof.RefFacts
import proofs.«403191_j78168404787866_1_alg».proof.Proof.Lin2
import proofs.«403191_j78168404787866_1_alg».proof.Proof.Epi3
import proofs.«403191_j78168404787866_1_alg».proof.Proof.KV1
import proofs.«403191_j78168404787866_1_alg».proof.Proof.KV2
import Idealize.ShloMosaic.Lib.StableHlo.Run

set_option maxRecDepth 16384

noncomputable section

namespace Cert.KernelIdeal.Gen.KV.L2

open Idealize.ShloMosaic Idealize.ShloMosaic.TcCoe Idealize.SL.Sem Idealize.ShloMosaic.StableHlo
open Cert.ReferenceIdeal.Read Cert.KernelIdeal.IdxFacts Cert.Proof

variable [Cert.KernelIdeal.Facts]
variable (m : (ℓ : Loc nD τ sig) → Buf (Elt Ideal) ℓ) (ρ : Dev nD → PrngReg)

/-! ## The printed forms of the two index-driven host steps -/

/-- The node index wrapped as jnp wraps a negative one. -/
abbrev wrapI (s : IVec S800000 32) : IVec S800000 32 :=
  select (cmpi .slt s (broadcastInDim S800000 ![] bcast_S_S800000 (constantI S_ 32 0#32))) (addi s (broadcastInDim S800000 ![] bcast_S_S800000 (constantI S_ 32 50000#32))) s

/-- jnp.take along the node axis as printed: the wrapped index, the gather of whole rows, the in-bounds mask
    reduced along its unit axis and broadcast along the row, and the fill where the mask is clear. -/
abbrev takeForm (h : FVec Ideal S50000x64 .f32) (s : IVec S800000 32) : FVec Ideal S800000x64 .f32 :=
  select (broadcastInDim S800000x64 ![0] bcast_S800000_S800000x64_0
      (Host.reduce IntOp.andi (andi (cmpi .sge (broadcastInDim S800000x1 ![0] bcast_S800000_S800000x1_0 (wrapI s)) (broadcastInDim S800000x1 ![] bcast_S_S800000x1 (constantI S_ 32 0#32)))
          (cmpi .sle (broadcastInDim S800000x1 ![0] bcast_S800000_S800000x1_0 (wrapI s)) (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_))
    (Host.gather gather_S50000x64_S800000x1_S800000x64_1_0_n_n_0_1_164 h (broadcastInDim S800000x1 ![0] bcast_S800000_S800000x1_0 (wrapI s)))
    (broadcastInDim S800000x64 ![] bcast_S_S800000x64 (constant (F := Ideal) S_ .f32 0x7FC00000#32))

/-- In range the wrap is the identity and the mask is all ones: the take is the plain gather. -/
theorem takeForm_eq (h : FVec Ideal S50000x64 .f32) (s : IVec S800000 32) (hs : InRange s) :
    takeForm h s = Host.gather gather_S50000x64_S800000x1_S800000x64_1_0_n_n_0_1_164 h (broadcastInDim S800000x1 ![0] bcast_S800000_S800000x1_0 s) := by
  show select (broadcastInDim S800000x64 ![0] bcast_S800000_S800000x64_0
      (Host.reduce IntOp.andi (andi (cmpi .sge (broadcastInDim S800000x1 ![0] bcast_S800000_S800000x1_0 (wrapI s)) (broadcastInDim S800000x1 ![] bcast_S_S800000x1 (constantI S_ 32 0#32)))
          (cmpi .sle (broadcastInDim S800000x1 ![0] bcast_S800000_S800000x1_0 (wrapI s)) (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_)) _ _ = _
  rw [show wrapI s = s from wrap_eq s hs, mask_eq s hs, select_ones_64]

/-- The messages scattered onto their destination nodes, as printed: rows of `t` scaled by the edge
    normalisation `n`, added into a zero array at the rows `d` names. -/
abbrev aggForm (t : FVec Ideal S800000x64 .f32) (d : IVec S800000 32) (n : FVec Ideal S800000 .f32) : FVec Ideal S50000x64 .f32 :=
  Host.scatterAdd scatter_S50000x64_S800000x1_S800000x64_1_0_0_1 (broadcastInDim S50000x64 ![] bcast_S_S50000x64 (constant (F := Ideal) S_ .f32 0x00000000#32))
    (broadcastInDim S800000x1 ![0] bcast_S800000_S800000x1_0 d)
    (mulf t (broadcastInDim S800000x64 ![0, 1] bcast_S800000x1_S800000x64_0_1 (broadcastInDim S800000x1 ![0] bcast_S800000_S800000x1_0 n)))

/-! ## The layer, boundary by boundary -/

/-- The layer's transformed features: the product of the layer's input with its weight matrix. -/
theorem feat (c : Dev nD) (hs : InRange (src (m ((c : Thread nD τ).loc main_arg1)))) (hd : InRange (dst (m ((c : Thread nD τ).loc main_arg1)))) : W6 m ρ c (Proc.devRef .tc main_v47) = val_main_v63 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W6_arr m ρ c 2).trans ((Lin2.final (V5 m ρ) c).trans
    ((congrArg₂ Lin2.G (L1.outp m ρ c hs hd) (Carry.arg6_at5 m ρ c)).trans ((Bridges.lin2 _ _).trans rfl)))

/-- A typed reference at its buffer's own type carries contents unchanged: at the source-index buffer, … -/
theorem ofBuf_src (V : Valuation τ sig (Elt Ideal)) :
    (StableHlo.TRef.of main_v1 : StableHlo.TRef sig ⟨S800000, .i32⟩).ofBuf (V (Proc.devRef .tc main_v1)) = V (Proc.devRef .tc main_v1) := rfl
/-- … at the feature buffer, … -/
theorem ofBuf_feat (V : Valuation τ sig (Elt Ideal)) :
    (StableHlo.TRef.of main_v47 : StableHlo.TRef sig ⟨S50000x64, .f32⟩).ofBuf (V (Proc.devRef .tc main_v47)) = V (Proc.devRef .tc main_v47) := rfl
/-- … and at the buffer the take writes. -/
theorem toBuf_take (v : FVec Ideal S800000x64 .f32) :
    (StableHlo.TRef.of main_v48 : StableHlo.TRef sig ⟨S800000x64, .f32⟩).toBuf (Val := Elt Ideal) v = v := rfl

set_option maxRecDepth 400000 in
set_option maxHeartbeats 4000000 in
/-- The take's stretch of host operations, from any contents `V`: its result is the printed take of the feature
    buffer at the source-index buffer. -/
theorem gath_stretch (V : Valuation τ sig (Elt Ideal)) :
    StableHlo.after hostOps3 V (Proc.devRef .tc main_v48) = takeForm (V (Proc.devRef .tc main_v47)) (V (Proc.devRef .tc main_v1)) := by
  after_results_simp
  simp only [L1.ofBuf_toBuf, ofBuf_src, ofBuf_feat, toBuf_take] <;> rfl

/-- The features gathered at every edge's source node. -/
theorem gath (c : Dev nD) (hs : InRange (src (m ((c : Thread nD τ).loc main_arg1)))) (hd : InRange (dst (m ((c : Thread nD τ).loc main_arg1)))) : W7 m ρ c (Proc.devRef .tc main_v48) = val_main_v98 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  have h1 : (W6 m ρ c (Proc.devRef .tc main_v1) : IVec S800000 32) = src (m ((c : Thread nD τ).loc main_arg1)) := ((Carry.v1_at6 m ρ c).trans (KV.w1_v1 m ρ c)).trans rfl
  have hH := feat m ρ c hs hd
  refine (gath_stretch (W6 m ρ c)).trans ?_
  refine (congrArg₂ takeForm hH h1).trans ((takeForm_eq _ _ hs).trans ?_)
  show _ = Host.gather Cert.ReferenceIdeal.gather_S50000x64_S800000x1_S800000x64_1_0_n_n_0_1_164 (val_main_v63 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (broadcastInDim S800000x1 ![0] _ (val_main_v96 (F := Ideal) (m ((c : Thread nD τ).loc main_arg1))))
  rw [RefFacts.wrap_v96 _ hs]
  rfl

set_option maxRecDepth 400000 in
set_option maxHeartbeats 4000000 in
/-- The scatter's stretch of host operations, from any contents `V`: the printed scatter-add of the taken rows. -/
theorem aggr_stretch (V : Valuation τ sig (Elt Ideal)) :
    StableHlo.after hostOps3_1 V (Proc.devRef .tc main_v54) = aggForm (V (Proc.devRef .tc main_v48)) (V (Proc.devRef .tc main_v3)) (V (Proc.devRef .tc main_v33)) := by
  after_results_simp <;> (try simp only [L1.ofBuf_toBuf]) <;> rfl

/-- The messages summed at every node. -/
theorem aggr (c : Dev nD) (hs : InRange (src (m ((c : Thread nD τ).loc main_arg1)))) (hd : InRange (dst (m ((c : Thread nD τ).loc main_arg1)))) : W8 m ρ c (Proc.devRef .tc main_v54) = val_main_v108 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  have h3 : (W7 m ρ c (Proc.devRef .tc main_v3) : IVec S800000 32) = dst (m ((c : Thread nD τ).loc main_arg1)) := ((Carry.v3_at7 m ρ c).trans (KV.w1_v3 m ρ c)).trans rfl
  have h33 : W7 m ρ c (Proc.devRef .tc main_v33) = val_main_v90 (F := Ideal) (m ((c : Thread nD τ).loc main_arg1)) (m ((c : Thread nD τ).loc main_arg2)) := ((Carry.v33_at7 m ρ c).trans (KV.w1_v33 m ρ c)).trans (RefFacts.nrm_v90 _ _).symm
  have hT := gath m ρ c hs hd
  refine (aggr_stretch (W7 m ρ c)).trans ?_
  refine (L1.congr3 aggForm hT h3 h33).trans ?_
  unfold val_main_v108 val_main_v107
  rw [RefFacts.wrap_v106 _ hd]
  rfl

set_option maxRecDepth 400000 in
set_option maxHeartbeats 4000000 in
/-- The same stretch reshapes the bias vector into a row. -/
theorem bias_stretch (V : Valuation τ sig (Elt Ideal)) :
    StableHlo.after hostOps3_1 V (Proc.devRef .tc main_v55) = shapeCast S1x64 (V (Proc.devRef .tc main_arg7)) shapeCasts_S64_S1x64 := by
  after_results_simp <;> (try simp only [L1.ofBuf_toBuf]) <;> rfl

/-- The bias as a row. -/
theorem bias (c : Dev nD) : W8 m ρ c (Proc.devRef .tc main_v55) = shapeCast S1x64 (m ((c : Thread nD τ).loc main_arg7)) shapeCasts_S64_S1x64 :=
  (bias_stretch (W7 m ρ c)).trans (congrArg (fun a => shapeCast S1x64 a shapeCasts_S64_S1x64) (Carry.arg7_at7 m ρ c))

/-- The layer's output: the reference's layer, clamped below at zero. -/
theorem outp (c : Dev nD) (hs : InRange (src (m ((c : Thread nD τ).loc main_arg1)))) (hd : InRange (dst (m ((c : Thread nD τ).loc main_arg1)))) : W9 m ρ c (Proc.devRef .tc main_v56) = val_main_v118 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  have hA : V8 m ρ c main_v54 = val_main_v108 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := aggr m ρ c hs hd
  have hH : V8 m ρ c main_v47 = val_main_v63 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := (Carry.v47_at8 m ρ c).trans (feat m ρ c hs hd)
  have hD : V8 m ρ c main_v36 = broadcastInDim S50000x1 ![0] bcast_S50000_S50000x1_0 (val_main_v110 (F := Ideal) (m ((c : Thread nD τ).loc main_arg1)) (m ((c : Thread nD τ).loc main_arg2))) := by
    refine ((Carry.v36_at8 m ρ c).trans (KV.w1_v36 m ρ c)).trans ?_
    rw [RefFacts.inv_v110]
    rfl
  have hB : V8 m ρ c main_v55 = shapeCast S1x64 (m ((c : Thread nD τ).loc main_arg7)) shapeCasts_S64_S1x64 := bias m ρ c
  refine (W9_arr m ρ c 4).trans ((Epi3.final (V8 m ρ) c).trans ?_)
  refine (L1.congr4 Epi3.G hA hH hD hB).trans ((Bridges.epi3 _ _ _ _).trans ?_)
  rfl

end Cert.KernelIdeal.Gen.KV.L2

end
-- ==== Proof.KV4.lean ====
/-
  The third graph-convolution layer, boundary by boundary, in the vocabulary of the reference: the same steps
  as the first layer at width 32, from the output of the second layer. The reference recomputes the degree, the
  edge normalisation and the inverse degree for every layer; they are those of the first layer, term for term,
  and the kernel computes them once.
-/
import proofs.«403191_j78168404787866_1_alg».proof.Proof.Gen.KernelIdeal.Frame
import proofs.«403191_j78168404787866_1_alg».proof.Proof.Gen.ReferenceIdeal.Read
import proofs.«403191_j78168404787866_1_alg».proof.Proof.KCarry
import proofs.«403191_j78168404787866_1_alg».proof.Proof.IdxFacts
import proofs.«403191_j78168404787866_1_alg».proof.Proof.Bridges
import proofs.«403191_j78168404787866_1_alg».proof.Proof.RefFacts
import proofs.«403191_j78168404787866_1_alg».proof.Proof.Lin4
import proofs.«403191_j78168404787866_1_alg».proof.Proof.Epi5
import proofs.«403191_j78168404787866_1_alg».proof.Proof.KV1
import proofs.«403191_j78168404787866_1_alg».proof.Proof.KV3
import Idealize.ShloMosaic.Lib.StableHlo.Run

set_option maxRecDepth 16384

noncomputable section

namespace Cert.KernelIdeal.Gen.KV.L3

open Idealize.ShloMosaic Idealize.ShloMosaic.TcCoe Idealize.SL.Sem Idealize.ShloMosaic.StableHlo
open Cert.ReferenceIdeal.Read Cert.KernelIdeal.IdxFacts Cert.Proof

variable [Cert.KernelIdeal.Facts]
variable (m : (ℓ : Loc nD τ sig) → Buf (Elt Ideal) ℓ) (ρ : Dev nD → PrngReg)

/-! ## The printed forms of the two index-driven host steps -/

/-- The node index wrapped as jnp wraps a negative one. -/
abbrev wrapI (s : IVec S800000 32) : IVec S800000 32 :=
  select (cmpi .slt s (broadcastInDim S800000 ![] bcast_S_S800000 (constantI S_ 32 0#32))) (addi s (broadcastInDim S800000 ![] bcast_S_S800000 (constantI S_ 32 50000#32))) s

/-- jnp.take along the node axis as printed: the wrapped index, the gather of whole rows, the in-bounds mask
    reduced along its unit axis and broadcast along the row, and the fill where the mask is clear. -/
abbrev takeForm (h : FVec Ideal S50000x32 .f32) (s : IVec S800000 32) : FVec Ideal S800000x32 .f32 :=
  select (broadcastInDim S800000x32 ![0] bcast_S800000_S800000x32_0
      (Host.reduce IntOp.andi (andi (cmpi .sge (broadcastInDim S800000x1 ![0] bcast_S800000_S800000x1_0 (wrapI s)) (broadcastInDim S800000x1 ![] bcast_S_S800000x1 (constantI S_ 32 0#32)))
          (cmpi .sle (broadcastInDim S800000x1 ![0] bcast_S800000_S800000x1_0 (wrapI s)) (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_))
    (Host.gather gather_S50000x32_S800000x1_S800000x32_1_0_n_n_0_1_132 h (broadcastInDim S800000x1 ![0] bcast_S800000_S800000x1_0 (wrapI s)))
    (broadcastInDim S800000x32 ![] bcast_S_S800000x32 (constant (F := Ideal) S_ .f32 0x7FC00000#32))

/-- In range the wrap is the identity and the mask is all ones: the take is the plain gather. -/
theorem takeForm_eq (h : FVec Ideal S50000x32 .f32) (s : IVec S800000 32) (hs : InRange s) :
    takeForm h s = Host.gather gather_S50000x32_S800000x1_S800000x32_1_0_n_n_0_1_132 h (broadcastInDim S800000x1 ![0] bcast_S800000_S800000x1_0 s) := by
  show select (broadcastInDim S800000x32 ![0] bcast_S800000_S800000x32_0
      (Host.reduce IntOp.andi (andi (cmpi .sge (broadcastInDim S800000x1 ![0] bcast_S800000_S800000x1_0 (wrapI s)) (broadcastInDim S800000x1 ![] bcast_S_S800000x1 (constantI S_ 32 0#32)))
          (cmpi .sle (broadcastInDim S800000x1 ![0] bcast_S800000_S800000x1_0 (wrapI s)) (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_)) _ _ = _
  rw [show wrapI s = s from wrap_eq s hs, mask_eq s hs, select_ones_32]

/-- The messages scattered onto their destination nodes, as printed: rows of `t` scaled by the edge
    normalisation `n`, added into a zero array at the rows `d` names. -/
abbrev aggForm (t : FVec Ideal S800000x32 .f32) (d : IVec S800000 32) (n : FVec Ideal S800000 .f32) : FVec Ideal S50000x32 .f32 :=
  Host.scatterAdd scatter_S50000x32_S800000x1_S800000x32_1_0_0_1 (broadcastInDim S50000x32 ![] bcast_S_S50000x32 (constant (F := Ideal) S_ .f32 0x00000000#32))
    (broadcastInDim S800000x1 ![0] bcast_S800000_S800000x1_0 d)
    (mulf t (broadcastInDim S800000x32 ![0, 1] bcast_S800000x1_S800000x32_0_1 (broadcastInDim S800000x1 ![0] bcast_S800000_S800000x1_0 n)))

/-! ## The layer, boundary by boundary -/

/-- The layer's transformed features: the product of the layer's input with its weight matrix. -/
theorem feat (c : Dev nD) (hs : InRange (src (m ((c : Thread nD τ).loc main_arg1)))) (hd : InRange (dst (m ((c : Thread nD τ).loc main_arg1)))) : W10 m ρ c (Proc.devRef .tc main_v57) = val_main_v119 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  (W10_arr m ρ c 2).trans ((Lin4.final (V9 m ρ) c).trans
    ((congrArg₂ Lin4.G (L2.outp m ρ c hs hd) (Carry.arg8_at9 m ρ c)).trans ((Bridges.lin4 _ _).trans rfl)))

/-- A typed reference at its buffer's own type carries contents unchanged: at the source-index buffer, … -/
theorem ofBuf_src (V : Valuation τ sig (Elt Ideal)) :
    (StableHlo.TRef.of main_v1 : StableHlo.TRef sig ⟨S800000, .i32⟩).ofBuf (V (Proc.devRef .tc main_v1)) = V (Proc.devRef .tc main_v1) := rfl
/-- … at the feature buffer, … -/
theorem ofBuf_feat (V : Valuation τ sig (Elt Ideal)) :
    (StableHlo.TRef.of main_v57 : StableHlo.TRef sig ⟨S50000x32, .f32⟩).ofBuf (V (Proc.devRef .tc main_v57)) = V (Proc.devRef .tc main_v57) := rfl
/-- … and at the buffer the take writes. -/
theorem toBuf_take (v : FVec Ideal S800000x32 .f32) :
    (StableHlo.TRef.of main_v58 : StableHlo.TRef sig ⟨S800000x32, .f32⟩).toBuf (Val := Elt Ideal) v = v := rfl

set_option maxRecDepth 400000 in
set_option maxHeartbeats 4000000 in
/-- The take's stretch of host operations, from any contents `V`: its result is the printed take of the feature
    buffer at the source-index buffer. -/
theorem gath_stretch (V : Valuation τ sig (Elt Ideal)) :
    StableHlo.after hostOps5 V (Proc.devRef .tc main_v58) = takeForm (V (Proc.devRef .tc main_v57)) (V (Proc.devRef .tc main_v1)) := by
  after_results_simp
  simp only [L1.ofBuf_toBuf, ofBuf_src, ofBuf_feat, toBuf_take] <;> rfl

/-- The features gathered at every edge's source node. -/
theorem gath (c : Dev nD) (hs : InRange (src (m ((c : Thread nD τ).loc main_arg1)))) (hd : InRange (dst (m ((c : Thread nD τ).loc main_arg1)))) : W11 m ρ c (Proc.devRef .tc main_v58) = val_main_v154 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  have h1 : (W10 m ρ c (Proc.devRef .tc main_v1) : IVec S800000 32) = src (m ((c : Thread nD τ).loc main_arg1)) := ((Carry.v1_at10 m ρ c).trans (KV.w1_v1 m ρ c)).trans rfl
  have hH := feat m ρ c hs hd
  refine (gath_stretch (W10 m ρ c)).trans ?_
  refine (congrArg₂ takeForm hH h1).trans ((takeForm_eq _ _ hs).trans ?_)
  show _ = Host.gather Cert.ReferenceIdeal.gather_S50000x32_S800000x1_S800000x32_1_0_n_n_0_1_132 (val_main_v119 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) (broadcastInDim S800000x1 ![0] _ (val_main_v152 (F := Ideal) (m ((c : Thread nD τ).loc main_arg1))))
  rw [RefFacts.wrap_v152 _ hs]
  rfl

set_option maxRecDepth 400000 in
set_option maxHeartbeats 4000000 in
/-- The scatter's stretch of host operations, from any contents `V`: the printed scatter-add of the taken rows. -/
theorem aggr_stretch (V : Valuation τ sig (Elt Ideal)) :
    StableHlo.after hostOps5_1 V (Proc.devRef .tc main_v64) = aggForm (V (Proc.devRef .tc main_v58)) (V (Proc.devRef .tc main_v3)) (V (Proc.devRef .tc main_v33)) := by
  after_results_simp <;> (try simp only [L1.ofBuf_toBuf]) <;> rfl

/-- The messages summed at every node. -/
theorem aggr (c : Dev nD) (hs : InRange (src (m ((c : Thread nD τ).loc main_arg1)))) (hd : InRange (dst (m ((c : Thread nD τ).loc main_arg1)))) : W12 m ρ c (Proc.devRef .tc main_v64) = val_main_v164 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  have h3 : (W11 m ρ c (Proc.devRef .tc main_v3) : IVec S800000 32) = dst (m ((c : Thread nD τ).loc main_arg1)) := ((Carry.v3_at11 m ρ c).trans (KV.w1_v3 m ρ c)).trans rfl
  have h33 : W11 m ρ c (Proc.devRef .tc main_v33) = val_main_v146 (F := Ideal) (m ((c : Thread nD τ).loc main_arg1)) (m ((c : Thread nD τ).loc main_arg2)) := ((Carry.v33_at11 m ρ c).trans (KV.w1_v33 m ρ c)).trans (RefFacts.nrm_v146 _ _).symm
  have hT := gath m ρ c hs hd
  refine (aggr_stretch (W11 m ρ c)).trans ?_
  refine (L1.congr3 aggForm hT h3 h33).trans ?_
  unfold val_main_v164 val_main_v163
  rw [RefFacts.wrap_v162 _ hd]
  rfl

set_option maxRecDepth 400000 in
set_option maxHeartbeats 4000000 in
/-- The same stretch reshapes the bias vector into a row. -/
theorem bias_stretch (V : Valuation τ sig (Elt Ideal)) :
    StableHlo.after hostOps5_1 V (Proc.devRef .tc main_v65) = shapeCast S1x32 (V (Proc.devRef .tc main_arg9)) shapeCasts_S32_S1x32 := by
  after_results_simp <;> (try simp only [L1.ofBuf_toBuf]) <;> rfl

/-- The bias as a row. -/
theorem bias (c : Dev nD) : W12 m ρ c (Proc.devRef .tc main_v65) = shapeCast S1x32 (m ((c : Thread nD τ).loc main_arg9)) shapeCasts_S32_S1x32 :=
  (bias_stretch (W11 m ρ c)).trans (congrArg (fun a => shapeCast S1x32 a shapeCasts_S32_S1x32) (Carry.arg9_at11 m ρ c))

/-- The layer's output: the reference's layer, clamped below at zero. -/
theorem outp (c : Dev nD) (hs : InRange (src (m ((c : Thread nD τ).loc main_arg1)))) (hd : InRange (dst (m ((c : Thread nD τ).loc main_arg1)))) : W13 m ρ c (Proc.devRef .tc main_v66) = val_main_v174 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have hA : V12 m ρ c main_v64 = val_main_v164 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := aggr m ρ c hs hd
  have hH : V12 m ρ c main_v57 = val_main_v119 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := (Carry.v57_at12 m ρ c).trans (feat m ρ c hs hd)
  have hD : V12 m ρ c main_v36 = broadcastInDim S50000x1 ![0] bcast_S50000_S50000x1_0 (val_main_v166 (F := Ideal) (m ((c : Thread nD τ).loc main_arg1)) (m ((c : Thread nD τ).loc main_arg2))) := by
    refine ((Carry.v36_at12 m ρ c).trans (KV.w1_v36 m ρ c)).trans ?_
    rw [RefFacts.inv_v166]
    rfl
  have hB : V12 m ρ c main_v65 = shapeCast S1x32 (m ((c : Thread nD τ).loc main_arg9)) shapeCasts_S32_S1x32 := bias m ρ c
  refine (W13_arr m ρ c 4).trans ((Epi5.final (V12 m ρ) c).trans ?_)
  refine (L1.congr4 Epi5.G hA hH hD hB).trans ((Bridges.epi5 _ _ _ _).trans ?_)
  rfl

end Cert.KernelIdeal.Gen.KV.L3

end
-- ==== Proof.KV5.lean ====
/-
  After the third layer: the mean over the nodes of each graph and the final projection. The host sums the
  third layer's rows into their graph's row and counts the nodes of each graph, both by scatter-add at the
  graph index of every node, and divides the sums by the counts clamped below at one: the same operations in
  both programs, so the pooled features are the reference's once the third layer's output is. The last
  pallas_call multiplies them by the projection matrix and adds the bias row; the result is reshaped.
-/
import proofs.«403191_j78168404787866_1_alg».proof.Proof.Gen.KernelIdeal.Frame
import proofs.«403191_j78168404787866_1_alg».proof.Proof.Gen.ReferenceIdeal.Read
import proofs.«403191_j78168404787866_1_alg».proof.Proof.KCarry
import proofs.«403191_j78168404787866_1_alg».proof.Proof.IdxFacts
import proofs.«403191_j78168404787866_1_alg».proof.Proof.Bridges
import proofs.«403191_j78168404787866_1_alg».proof.Proof.RefFacts
import proofs.«403191_j78168404787866_1_alg».proof.Proof.Fin6
import proofs.«403191_j78168404787866_1_alg».proof.Proof.KV1
import proofs.«403191_j78168404787866_1_alg».proof.Proof.KV2
import proofs.«403191_j78168404787866_1_alg».proof.Proof.KV3
import proofs.«403191_j78168404787866_1_alg».proof.Proof.KV4
import Idealize.ShloMosaic.Lib.StableHlo.Run

set_option maxRecDepth 16384

noncomputable section

namespace Cert.KernelIdeal.Gen.KV.Tail

open Idealize.ShloMosaic Idealize.ShloMosaic.TcCoe Idealize.SL.Sem Idealize.ShloMosaic.StableHlo
open Cert.ReferenceIdeal.Read Cert.KernelIdeal.IdxFacts Cert.Proof

variable [Cert.KernelIdeal.Facts]
variable (m : (ℓ : Loc nD τ sig) → Buf (Elt Ideal) ℓ) (ρ : Dev nD → PrngReg)

set_option maxHeartbeats 4000000 in
/-- The pooled features: per graph, the sum of its nodes' rows over its node count (at least one). -/
theorem pool (c : Dev nD) (hs : InRange (src (m ((c : Thread nD τ).loc main_arg1)))) (hd : InRange (dst (m ((c : Thread nD τ).loc main_arg1)))) : W14 m ρ c (Proc.devRef .tc main_v78) = val_main_v186 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h66 : W13 m ρ c (Proc.devRef .tc main_v66) = val_main_v174 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := L3.outp m ρ c hs hd
  have h3 : W13 m ρ c (Proc.devRef .tc main_arg3) = (m ((c : Thread nD τ).loc main_arg3)) := Carry.arg3_at13 m ρ c
  show StableHlo.after hostOps6 (W13 m ρ c) (Proc.devRef .tc main_v78) = _
  generalize W13 m ρ c = V at h66 h3 ⊢
  after_results_simp
  rw [h66, h3]
  rfl

set_option maxHeartbeats 4000000 in
/-- The projection's bias as a row. -/
theorem bias6 (c : Dev nD) : W14 m ρ c (Proc.devRef .tc main_v79) = shapeCast S1x768 (m ((c : Thread nD τ).loc main_arg11)) shapeCasts_S768_S1x768 := by
  have h11 : W13 m ρ c (Proc.devRef .tc main_arg11) = (m ((c : Thread nD τ).loc main_arg11)) := Carry.arg11_at13 m ρ c
  show StableHlo.after hostOps6 (W13 m ρ c) (Proc.devRef .tc main_v79) = _
  generalize W13 m ρ c = V at h11 ⊢
  after_results_simp
  rw [h11]
  rfl

/-- The projected features plus the bias. -/
theorem proj (c : Dev nD) (hs : InRange (src (m ((c : Thread nD τ).loc main_arg1)))) (hd : InRange (dst (m ((c : Thread nD τ).loc main_arg1)))) : W15 m ρ c (Proc.devRef .tc main_v80) = val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have hP : V14 m ρ c main_v78 = val_main_v186 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := pool m ρ c hs hd
  have hW : V14 m ρ c main_arg10 = (m ((c : Thread nD τ).loc main_arg10)) := Carry.arg10_at14 m ρ c
  have hB : V14 m ρ c main_v79 = shapeCast S1x768 (m ((c : Thread nD τ).loc main_arg11)) shapeCasts_S768_S1x768 := bias6 m ρ c
  refine (W15_arr m ρ c 3).trans ((Fin6.final (V14 m ρ) c).trans ?_)
  refine (L1.congr3 Fin6.G hP hW hB).trans ((Bridges.fin6 _ _ _).trans ?_)
  rfl

set_option maxHeartbeats 4000000 in
/-- THE KERNEL'S RESULT: with every node index of the edge list in range, the result array at the last
    boundary holds the reference's result stage of the launch contents of the twelve arguments. -/
theorem result (c : Dev nD) (hs : InRange (src (m ((c : Thread nD τ).loc main_arg1)))) (hd : InRange (dst (m ((c : Thread nD τ).loc main_arg1)))) : W16 m ρ c (Proc.devRef .tc main_v81) = val_main_v191 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h80 : W15 m ρ c (Proc.devRef .tc main_v80) = val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := proj m ρ c hs hd
  show StableHlo.after hostOps7 (W15 m ρ c) (Proc.devRef .tc main_v81) = _
  generalize W15 m ρ c = V at h80 ⊢
  after_results_simp
  rw [h80]
  rfl

end Cert.KernelIdeal.Gen.KV.Tail

end
-- ==== Proof.lean ====
/-
  The certificate of a three-layer graph convolution with mean pooling and a final projection: the kernel runs
  seven pallas_calls (three matrix products, three fused epilogues, the projection) among host operations,
  the reference is plain jnp. Over the extended reals the two programs compute the same function of their
  twelve arguments wherever every node index of the edge list lies in [0, 50000): there jnp.take's bounds mask
  is all ones and the wrap of a negative index is the identity, so the kernel's take is the reference's
  gather and its unwrapped scatter index is the reference's wrapped one; a change of float format is the
  identity, the matrix unit's product into a zero accumulator is the reference's dot_general, and each epilogue
  block is the reference's chain of pointwise operations at the same rows.
  The kernel's run is the generated launch over its sixteen segments with the result array also named at
  the last boundary; its value there is read back through the boundaries, stretch by stretch and region by
  region, to the reference's last stage of the launch arguments. The reference's run is generated.
-/
import proofs.«403191_j78168404787866_1_alg».proof.Defs
import proofs.«403191_j78168404787866_1_alg».proof.Proof.Gen.Kernel
import proofs.«403191_j78168404787866_1_alg».proof.Proof.Gen.Kernel.Skeleton
import proofs.«403191_j78168404787866_1_alg».proof.Proof.Gen.Kernel.Launch
import proofs.«403191_j78168404787866_1_alg».proof.Proof.Gen.Kernel.Points
import proofs.«403191_j78168404787866_1_alg».proof.Proof.Gen.Kernel.Frame
import proofs.«403191_j78168404787866_1_alg».proof.Proof.Gen.KernelIdeal
import proofs.«403191_j78168404787866_1_alg».proof.Proof.Gen.KernelIdeal.Skeleton
import proofs.«403191_j78168404787866_1_alg».proof.Proof.Gen.KernelIdeal.Launch
import proofs.«403191_j78168404787866_1_alg».proof.Proof.Gen.KernelIdeal.Points
import proofs.«403191_j78168404787866_1_alg».proof.Proof.Gen.KernelIdeal.Frame
import proofs.«403191_j78168404787866_1_alg».proof.Proof.Gen.ReferenceIdeal
import proofs.«403191_j78168404787866_1_alg».proof.Proof.Gen.ReferenceIdeal.Run
import proofs.«403191_j78168404787866_1_alg».proof.Proof.Gen.ReferenceIdeal.Read
import proofs.«403191_j78168404787866_1_alg».proof.Proof.Gen.Pre_finite_inputs
import proofs.«403191_j78168404787866_1_alg».proof.Proof.KRun
import proofs.«403191_j78168404787866_1_alg».proof.Proof.IdxFacts
import proofs.«403191_j78168404787866_1_alg».proof.Proof.KV5
import Idealize.ShloMosaic.Adequacy
import Idealize.ShloMosaic.Init

noncomputable section

namespace Cert.Proof

open Idealize.ShloMosaic Idealize.SL.Sem

/-- The reference runs, and leaves its arguments unchanged: its generated run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- From memories that agree on the twelve arguments, with every float finite and every node index of the edge
    list in range, both programs end with the reference's last stage of the arguments in their result arrays. -/
theorem algebraic : @Cert.algebraic_KernelIdeal_ReferenceIdeal Cert.KernelIdeal.Gen.facts Cert.ReferenceIdeal.Gen.facts Cert.Pre_finite_inputs.Gen.facts := by
  intro m ρ m' ρ' hpre hagree
  haveI := Cert.KernelIdeal.Gen.facts
  haveI := Cert.Pre_finite_inputs.Gen.facts
  have hs := fun c => Cert.KernelIdeal.IdxFacts.src_range m hpre c
  have hd := fun c => Cert.KernelIdeal.IdxFacts.dst_range m hpre c
  refine ⟨fun c => Cert.ReferenceIdeal.Read.val_main_v191 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Gen.KV.Tail.result m ρ c (hs c) (hd c)), (h c).2⟩)
      (Cert.KernelIdeal.Gen.Named.run_named m ρ)
  · refine (θ_run Cert.ReferenceIdeal.defs _ _).mono (fun r h c => ⟨?_, (h c).2⟩) (Cert.ReferenceIdeal.Value.run (F := Ideal) m' ρ')
    obtain ⟨e0, e1, e2, e3, e4, e5, e6, e7, e8, e9, e10, e11⟩ := hagree c
    rw [(h c).1, Cert.ReferenceIdeal.Read.val_main_v191_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ri,
    trivial,
    algebraic⟩

end Cert.Proof

end
